-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S12288x768 : Shape := ⟨2, ![12288, 768]⟩
abbrev S_ : Shape := ⟨0, ![]⟩

class Facts : Prop where
  bcast_S_S12288x768 : S_.BroadcastsInDim S12288x768 (![] : Fin 0 → Fin S12288x768.rank)
  reducesTo_S12288x768_S_d0_1 : S12288x768.ReducesTo [0, 1] S_
  h_S_ : 0 < S_.numel

variable [Facts]

def fn {F : FTy → Type} [FloatOps F] (main_arg0 : FVec F S12288x768 .f32) : IVec S_ 1 :=
  let main_v0 : FVec F S12288x768 .f32 := Host.absf main_arg0
  let main_cst : FVec F S_ .f32 := constant S_ .f32 0x7F800000#32
  let main_v1 : FVec F S12288x768 .f32 := broadcastInDim S12288x768 ![] bcast_S_S12288x768 main_cst
  let main_v2 : IVec S12288x768 1 := cmpf .olt main_v0 main_v1
  let main_c : IVec S_ 1 := constantI S_ 1 1#1
  let main_v3 : IVec S_ 1 := (fun x v => Host.reduce IntOp.andi x v reducesTo_S12288x768_S_d0_1 h_S_) main_v2 main_c
  main_v3
-- ==== Kernel.lean ====
abbrev S1536x768 : Shape := ⟨2, ![1536, 768]⟩
abbrev S1x768 : Shape := ⟨2, ![1, 768]⟩
abbrev S8x768 : Shape := ⟨2, ![8, 768]⟩
abbrev S8 : Shape := ⟨1, ![8]⟩
abbrev S_ : Shape := ⟨0, ![]⟩
abbrev S768 : Shape := ⟨1, ![768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S8x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v39 : BitVec 32 := Scalar.addi v2 c1_i32_32
  let c8_i32_33 : BitVec 32 := 8#32
  let v40 : BitVec 32 := Scalar.remsi v39 c8_i32_33
  let c1_i32_36 : BitVec 32 := 1#32
  let v41 : BitVec 32 := Scalar.muli v40 c1_i32_36
  let v42 : BitVec 32 := Scalar.addi c0_i32_37 v41
  v42.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v49 : BitVec 32 := Scalar.addi v2 c2_i32_42
  let c8_i32_43 : BitVec 32 := 8#32
  let v50 : BitVec 32 := Scalar.remsi v49 c8_i32_43
  let c1_i32_46 : BitVec 32 := 1#32
  let v51 : BitVec 32 := Scalar.muli v50 c1_i32_46
  let v52 : BitVec 32 := Scalar.addi c0_i32_47 v51
  v52.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v59 : BitVec 32 := Scalar.addi v2 c3_i32_52
  let c8_i32_53 : BitVec 32 := 8#32
  let v60 : BitVec 32 := Scalar.remsi v59 c8_i32_53
  let c1_i32_56 : BitVec 32 := 1#32
  let v61 : BitVec 32 := Scalar.muli v60 c1_i32_56
  let v62 : BitVec 32 := Scalar.addi c0_i32_57 v61
  v62.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v69 : BitVec 32 := Scalar.addi v2 c4_i32_62
  let c8_i32_63 : BitVec 32 := 8#32
  let v70 : BitVec 32 := Scalar.remsi v69 c8_i32_63
  let c1_i32_66 : BitVec 32 := 1#32
  let v71 : BitVec 32 := Scalar.muli v70 c1_i32_66
  let v72 : BitVec 32 := Scalar.addi c0_i32_67 v71
  v72.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v79 : BitVec 32 := Scalar.addi v2 c5_i32_72
  let c8_i32_73 : BitVec 32 := 8#32
  let v80 : BitVec 32 := Scalar.remsi v79 c8_i32_73
  let c1_i32_76 : BitVec 32 := 1#32
  let v81 : BitVec 32 := Scalar.muli v80 c1_i32_76
  let v82 : BitVec 32 := Scalar.addi c0_i32_77 v81
  v82.toNat
def k0_dev13 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_82 : BitVec 32 := 6#32
  let v89 : BitVec 32 := Scalar.addi v2 c6_i32_82
  let c8_i32_83 : BitVec 32 := 8#32
  let v90 : BitVec 32 := Scalar.remsi v89 c8_i32_83
  let c1_i32_86 : BitVec 32 := 1#32
  let v91 : BitVec 32 := Scalar.muli v90 c1_i32_86
  let v92 : BitVec 32 := Scalar.addi c0_i32_87 v91
  v92.toNat
def k0_dev14 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v99 : BitVec 32 := Scalar.addi v2 c7_i32_92
  let c8_i32_93 : BitVec 32 := 8#32
  let v100 : BitVec 32 := Scalar.remsi v99 c8_i32_93
  let c1_i32_96 : BitVec 32 := 1#32
  let v101 : BitVec 32 := Scalar.muli v100 c1_i32_96
  let v102 : BitVec 32 := Scalar.addi c0_i32_97 v101
  v102.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S8x768_S1x768_0_0 : ∀ a, (![0, 0] : Fin 2 → Nat) a + S1x768.size a ≤ S8x768.size a
  h_S1x768 : 0 < S1x768.numel
  shapeCasts_S1x768_S1x768 : S1x768.ShapeCasts S1x768
  inb_S8_S1_1 : ∀ a, (![1] : Fin 1 → Nat) a + S1.size a ≤ S8.size a
  squeezes_S1_S_ : S1.Squeezes S_
  inb_S8x768_S1x768_1_0 : ∀ a, (![1, 0] : Fin 2 → Nat) a + S1x768.size a ≤ S8x768.size a
  inb_S8_S1_2 : ∀ a, (![2] : Fin 1 → Nat) a + S1.size a ≤ S8.size a
  inb_S8x768_S1x768_2_0 : ∀ a, (![2, 0] : Fin 2 → Nat) a + S1x768.size a ≤ S8x768.size a
  inb_S8_S1_3 : ∀ a, (![3] : Fin 1 → Nat) a + S1.size a ≤ S8.size a
  inb_S8x768_S1x768_3_0 : ∀ a, (![3, 0] : Fin 2 → Nat) a + S1x768.size a ≤ S8x768.size a
  inb_S8_S1_4 : ∀ a, (![4] : Fin 1 → Nat) a + S1.size a ≤ S8.size a
  inb_S8x768_S1x768_4_0 : ∀ a, (![4, 0] : Fin 2 → Nat) a + S1x768.size a ≤ S8x768.size a
  inb_S8_S1_5 : ∀ a, (![5] : Fin 1 → Nat) a + S1.size a ≤ S8.size a
  inb_S8x768_S1x768_5_0 : ∀ a, (![5, 0] : Fin 2 → Nat) a + S1x768.size a ≤ S8x768.size a
  inb_S8_S1_6 : ∀ a, (![6] : Fin 1 → Nat) a + S1.size a ≤ S8.size a
  inb_S8x768_S1x768_6_0 : ∀ a, (![6, 0] : Fin 2 → Nat) a + S1x768.size a ≤ S8x768.size a
  inb_S8_S1_7 : ∀ a, (![7] : Fin 1 → Nat) a + S1.size a ≤ S8.size a
  inb_S8x768_S1x768_7_0 : ∀ a, (![7, 0] : Fin 2 → Nat) a + S1x768.size a ≤ S8x768.size a
  inb_S8x768_S8x768_0_0 : ∀ a, (![0, 0] : Fin 2 → Nat) a + S8x768.size a ≤ S8x768.size a
  h_S8x768 : 0 < S8x768.numel
  reduces_S8x768_S768 : S8x768.Reduces [0] S768
  inb_S1x768_S1x768_0_0 : ∀ a, (![0, 0] : Fin 2 → Nat) a + S1x768.size a ≤ S1x768.size a
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S12288x768_S768_d0 : S12288x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.KernelIdeal.Proto.lean ====
/-
  The shared vocabulary of the eight-device all-to-all sum: the peer arithmetic on the ring of eight devices, the rows of the
  communication buffer as views, the semaphore cells and their one round of duties, what a device owes at launch, the levels
  that order the waits, the ghost state a device's body starts from, and the pipeline's proof data.

  Device c first tells each of its seven peers (c + d mod 8, d = 1..7) that it has entered, then waits for the seven peers'
  word. It writes the column sums of its own block of x into row 0 of its communication buffer, copies that row into row d of
  peer d's buffer for d = 1..7, waits for the seven rows it receives, and adds the eight rows. Row d of device c therefore ends
  holding the column sums of the block of device (c - d mod 8), and the eight rows add to the column sums of the whole array.
-/
import proofs.«901081_g7700000000001082_dist_sum_ax0_shard0_i_m1536_n768_v7x_i8_bf16_1_alg».proof.Proof.Gen.KernelIdeal
import proofs.«901081_g7700000000001082_dist_sum_ax0_shard0_i_m1536_n768_v7x_i8_bf16_1_alg».proof.Proof.Gen.KernelIdeal.Skeleton
import proofs.«901081_g7700000000001082_dist_sum_ax0_shard0_i_m1536_n768_v7x_i8_bf16_1_alg».proof.Proof.Gen.KernelIdeal.Launch
import proofs.«901081_g7700000000001082_dist_sum_ax0_shard0_i_m1536_n768_v7x_i8_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duty names `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The ring of eight -/

/-- The device `d` places after `c`. -/
def peer (c : Dev nD) (d : Fin 8) : Dev nD := ⟨(c.val + d.val) % 8, Nat.mod_lt _ (by decide)⟩
/-- The device `d` places before `c`: the one whose peer `d` is `c`. -/
def src (c : Dev nD) (d : Fin 8) : Dev nD := ⟨(c.val + 8 - d.val) % 8, Nat.mod_lt _ (by decide)⟩
/-- The offset that undoes `d`. -/
def opp (d : Fin 8) : Fin 8 := ⟨(8 - d.val) % 8, Nat.mod_lt _ (by decide)⟩
/-- A natural number as an offset. -/
def fd (k : ℕ) : Fin 8 := ⟨k % 8, Nat.mod_lt _ (by decide)⟩

theorem peer_src (c : Dev nD) (d : Fin 8) : peer (src c d) d = c := by revert c d; decide
theorem src_peer (c : Dev nD) (d : Fin 8) : src (peer c d) d = c := by revert c d; decide
theorem peer_peer_opp (c : Dev nD) (d : Fin 8) : peer (peer c d) (opp d) = c := by revert c d; decide
theorem src_eq_peer_opp (c : Dev nD) (d : Fin 8) : src c d = peer c (opp d) := by revert c d; decide
theorem opp_opp (d : Fin 8) : opp (opp d) = d := by revert d; decide
theorem opp_ne_zero {d : Fin 8} (h : d ≠ 0) : opp d ≠ 0 := by revert d; decide
theorem peer_zero (c : Dev nD) : peer c 0 = c := by revert c; decide
theorem src_zero (c : Dev nD) : src c 0 = c := by revert c; decide
theorem peer_injective (d : Fin 8) : Function.Injective (fun c : Dev nD => peer c d) := by revert d; decide
theorem peer_ne_self {c : Dev nD} {d : Fin 8} (h : d ≠ 0) : peer c d ≠ c := by revert c d; decide

/-- The kernel's `device_id` chains: signal `d` and transfer `d` both name `peer c d`. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 2 := Fin.ext (k0_dev9_eq c)
theorem dev10_eq (c : Dev nD) : (⟨k0_dev10 c, k0_dev10_lt c⟩ : Dev nD) = peer c 3 := Fin.ext (k0_dev10_eq c)
theorem dev11_eq (c : Dev nD) : (⟨k0_dev11 c, k0_dev11_lt c⟩ : Dev nD) = peer c 4 := Fin.ext (k0_dev11_eq c)
theorem dev12_eq (c : Dev nD) : (⟨k0_dev12 c, k0_dev12_lt c⟩ : Dev nD) = peer c 5 := Fin.ext (k0_dev12_eq c)
theorem dev13_eq (c : Dev nD) : (⟨k0_dev13 c, k0_dev13_lt c⟩ : Dev nD) = peer c 6 := Fin.ext (k0_dev13_eq c)
theorem dev14_eq (c : Dev nD) : (⟨k0_dev14 c, k0_dev14_lt c⟩ : Dev nD) = peer c 7 := Fin.ext (k0_dev14_eq c)

/-! ## The memrefs: the block of x, the result, the communication buffer and its rows -/

abbrev xM : Memref sig .tc .vmem S1536x768 .f32 := Memref.whole cc0_stg0_0
abbrev oM : Memref sig .tc .vmem S1x768 .f32 := Memref.whole cc0_stg1_0
abbrev cM : Memref sig .tc .vmem S8x768 .f32 := Memref.whole cc0_scratch0

theorem inb_row (d : Fin 8) : ∀ a, (![d.val, 0] : Fin 2 → Nat) a + S1x768.size a ≤ S8x768.size a := by revert d; decide
theorem inb_sem (d : Fin 8) : ∀ a, (![d.val] : Fin 1 → Nat) a + S1.size a ≤ S8.size a := by revert d; decide

/-- Row `d` of the communication buffer, as a rectangle and as the memref the kernel slices. -/
abbrev rowR (d : Fin 8) : Rect S8x768 := Rect.unit (s := S8x768) ![d.val, 0] S1x768.size (inb_row d)
abbrev rowM (d : Fin 8) : Memref sig .tc .vmem S1x768 .f32 := (cM : Memref sig .tc .vmem S8x768 .f32).slice (rowR d) (fun _ => rfl)

/-! ## The semaphores and their cells -/

/-- The runtime's barrier semaphore of collective id 0 (not scoped); the send and receive DMA semaphores (scoped scratch). -/
abbrev barS : Sem sig := (SemArray.scalar (sig.barrier 0 rfl) : Sems sig S_).sem
abbrev sendS (d : Fin 8) : DmaSem sig := ((cc0_scratch1.slice (Rect.unit (s := S8) ![d.val] S1.size (inb_sem d))).squeeze S_ squeezes_S1_S_).sem
abbrev recvS (d : Fin 8) : DmaSem sig := ((cc0_scratch2.slice (Rect.unit (s := S8) ![d.val] S1.size (inb_sem d))).squeeze S_ squeezes_S1_S_).sem

abbrev barCell (c : Dev nD) : GSem nD τ sig := ((c : Thread nD τ), .reg barS)
abbrev sendCell (c : Dev nD) (d : Fin 8) : GSem nD τ sig := ((c : Thread nD τ), .dma (sendS d))
abbrev recvCell (c : Dev nD) (d : Fin 8) : GSem nD τ sig := ((c : Thread nD τ), .dma (recvS d))

theorem sendS_val (d : Fin 8) : (sendS d).val = 2 + d.val := by revert d; decide
theorem recvS_val (d : Fin 8) : (recvS d).val = 10 + d.val := by revert d; decide

/-- One transfer's credit: a row of 768 words. -/
abbrev N : ℕ := (rowM 0 : Memref sig .tc .vmem S1x768 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The column sums of device `c`'s block: one row of 768. -/
def part (c : Dev nD) : FVec F S1x768 .f32 := k0_pay1 (xstg m ρ c)

/-- What device `c`'s communication buffer holds once every row has landed: row `r` is the column sums of the block of the
    device `r` places before `c` (row 0 its own). -/
def commFinal (c : Dev nD) : (cc0_scratch0 : Ref sig .tc).ty.Contents (Elt F) :=
  fun (i : S8x768.Idx) => part m ρ (src c (fd (i 0).val)) (ValueIdx.ix2 (0 : Fin 1) (⟨(i 1).val % 768, Nat.mod_lt _ (by decide)⟩ : Fin 768))

/-- The kernel's result on device `c`: the eight rows added. -/
def outAt (c : Dev nD) : (cc0_stg1_0 : Ref sig .tc).ty.Contents (Elt F) := k0_pay2 (commFinal m ρ c)

/-- Row `d` of device `c`'s communication buffer held at share `q` with the buffer's contents `f`. -/
def rowPts (c : Dev nD) (d : Fin 8) (q : PosShare TreeShare) (f : Buf (Elt F) ((rowM d : Memref sig .tc .vmem S1x768 .f32).view.loc (c : Thread nD τ))) : sProp 𝕄 :=
  (rowM d : Memref sig .tc .vmem S1x768 .f32).view.loc (c : Thread nD τ) ↦[(rowM d : Memref sig .tc .vmem S1x768 .f32).view.set]{q} f

/-- The share of row 0 that is split among the seven transfers: `rights n` is what is left of the right half after `n - 1` of them. -/
def rights : ℕ → PosShare TreeShare
  | 0 => fullShare
  | n + 1 => (rights n).right
/-- Transfer `d` reads row 0 at this share; the device keeps the left half for its own loads. -/
def sendShare (d : Fin 8) : PosShare TreeShare := if d.val = 7 then rights 7 else (rights d.val).left
abbrev keptShare : PosShare TreeShare := fullShare.left

/-! ## The schedule: one round -/

/-- Duty `e` of device `g`'s barrier cell is paid by `peer g e`'s signal; it hands `g` row `e` of that peer's buffer, which `g`'s
    transfer `e` will write, and that the peer is at round 0 of the receive cell of that row. -/
def barPay (g : Dev nD) (e : Fin 8) : sProp 𝕄 :=
  iprop((∃ f, rowPts (peer g e) e fullShare f) ∗ reached ER (recvCell (peer g e) e) 0)
/-- The landing in row `d` of device `g` hands `g` that row holding the column sums of the device `d` places before it. -/
def recvPay (g : Dev nD) (d : Fin 8) : sProp 𝕄 := rowPts g d fullShare (commFinal m ρ g)
/-- The departure of transfer `d` hands device `c` back the share of row 0 it lent. -/
def sendPay (c : Dev nD) (d : Fin 8) : sProp 𝕄 := rowPts c 0 (sendShare d) (commFinal m ρ c)

/-- Round 0 only. A barrier cell has the seven duties 1..7 of one unit each; the send and the receive cell of each row 1..7 one
    duty, named 0, of a row's credit. (Row 0's two semaphores are never used: no duty.) -/
def Rd : Rounds.Schedule (GSem nD τ sig) (Fin 8) 𝕄 where
  duties g r := match g.2 with
    | .reg s => if r = 0 ∧ g.1.2 = .tc ∧ s = barS then Finset.univ.erase 0 else ∅
    | .dma q => if r = 0 ∧ g.1.2 = .tc ∧ 3 ≤ q.val ∧ q.val ≠ 10 then {0} else ∅
  amount g _ _ := match g.2 with
    | .reg _ => 1
    | .dma _ => N
  payload g _ e := match g.2 with
    | .reg _ => barPay g.1.1 e
    | .dma q => if 10 ≤ q.val then recvPay m ρ g.1.1 (fd (q.val - 10)) else sendPay m ρ g.1.1 (fd (q.val - 2))
  amount_pos g _ _ _ := by
    cases g.2
    · exact Nat.one_pos
    · exact N_pos

/-! ## What a device owes at launch, and the levels -/

/-- The credits of the transfers still to be started when `n` of them remain: the next one to start (transfer `8 - n`) is the last summand. -/
def sendsRem (c : Dev nD) : ℕ → CellTallies nD τ sig Unit
  | 0 => 0
  | n + 1 => sendsRem c n + tallyAt (recvCell (peer c (fd (7 - n))) (fd (7 - n))) () N
/-- With the units of the barrier signals still to be made when `n` of them remain: the next one (signal `8 - n`) is the last summand. -/
def sigsRem (c : Dev nD) : ℕ → CellTallies nD τ sig Unit
  | 0 => sendsRem c 7
  | n + 1 => sigsRem c n + tallyAt (barCell (peer c (fd (7 - n)))) () 1
/-- At launch: seven signals and seven transfers. -/
def O₀ (c : Dev nD) : CellTallies nD τ sig Unit := sigsRem c 7

def L (g : GSem nD τ sig) : Finset Unit := if g.1.2 = .tc then {()} else ∅
/-- Barrier cells at 1, receive cells at 2, everything else (staging, send) at 0. -/
def lv (g : GSem nD τ sig) (_ : Unit) : ℕ := match g.2 with
  | .reg s => if s = barS then 1 else 0
  | .dma q => if 10 ≤ q.val then 2 else 0

/-! ## The cells of a device, indexed; the ghost state; the proof data -/

/-- A device's seventeen cells: the barrier, then the eight send and the eight receive semaphores. -/
abbrev csem : Fin 17 → SemLoc sig := fun
  | 0 => .reg barS
  | 1 => .dma (sendS 0) | 2 => .dma (sendS 1) | 3 => .dma (sendS 2) | 4 => .dma (sendS 3)
  | 5 => .dma (sendS 4) | 6 => .dma (sendS 5) | 7 => .dma (sendS 6) | 8 => .dma (sendS 7)
  | 9 => .dma (recvS 0) | 10 => .dma (recvS 1) | 11 => .dma (recvS 2) | 12 => .dma (recvS 3)
  | 13 => .dma (recvS 4) | 14 => .dma (recvS 5) | 15 => .dma (recvS 6) | 16 => .dma (recvS 7)
  | ⟨_ + 17, h⟩ => absurd h (by omega)
abbrev kcell (ck : Dev nD × Fin 17) : GSem nD τ sig := ((ck.1 : Thread nD τ), csem ck.2)
/-- The kernel's own (scoped) semaphores as the launch theorem indexes them: the sixteen DMA semaphores. -/
abbrev osem : Fin 16 → SemLoc sig := fun j => csem ⟨j.val + 1, by omega⟩
def sIx (d : Fin 8) : Fin 17 := ⟨d.val + 1, by omega⟩
def rIx (d : Fin 8) : Fin 17 := ⟨d.val + 9, by omega⟩
theorem kcell_bar (c : Dev nD) : kcell (c, 0) = barCell c := rfl
theorem kcell_send (c : Dev nD) (d : Fin 8) : kcell (c, sIx d) = sendCell c d := by revert c d; decide
theorem kcell_recv (c : Dev nD) (d : Fin 8) : kcell (c, rIx d) = recvCell c d := by revert c d; decide

/-- Every cell's invariant under the names the launch gave them, and that every cell is at round 0: persistent, known to all. -/
def records (K : Dev nD × Fin 17 → ℕ) : sProp 𝕄 :=
  iprop((bigSep Finset.univ fun ck : Dev nD × Fin 17 => cellInv ER (Rd m ρ) (K ck) (kcell ck))
    ∗ bigSep Finset.univ fun ck : Dev nD × Fin 17 => reached ER (kcell ck) 0)

/-- The tokens of the duties device `c` pays: with signal `d` duty `opp d` of `peer c d`'s barrier cell, with transfer `d` the duty of
    `peer c d`'s receive cell of row `d` and the duty of its own send cell `d`. -/
def payToks (c : Dev nD) : sProp 𝕄 :=
  iprop((bigSep (Finset.univ.erase 0) fun d : Fin 8 => dutyTok ER (barCell (peer c d)) 0 (opp d))
    ∗ (bigSep (Finset.univ.erase 0) fun d : Fin 8 => dutyTok ER (recvCell (peer c d) d) 0 0)
    ∗ bigSep (Finset.univ.erase 0) fun d : Fin 8 => dutyTok ER (sendCell c d) 0 0)

/-- Device `c`'s positions at round 0 of its seventeen cells. -/
def positions (c : Dev nD) : sProp 𝕄 :=
  iprop(atPos ER (barCell c) 0 ∅ 0
    ∗ (bigSep Finset.univ fun d : Fin 8 => atPos ER (sendCell c d) 0 ∅ 0)
    ∗ bigSep Finset.univ fun d : Fin 8 => atPos ER (recvCell c d) 0 ∅ 0)

/-- The ghost state device `c`'s body starts from. -/
def ghost (K : Dev nD × Fin 17 → ℕ) (c : Dev nD) : sProp 𝕄 := iprop(records m ρ K ∗ positions c ∗ payToks c)

/-- The credit tokens the launch deals device `c`: its barrier's seven units and each receive cell's row. -/
def creds (c : Dev nD) : sProp 𝕄 :=
  iprop(cred (tallyAt (barCell c) () 7) ∗ bigSep (Finset.univ.erase 0) fun d : Fin 8 => cred (tallyAt (recvCell c d) () N))

/-- What device `c`'s body starts from, the communication buffer apart. -/
def start (c : Dev nD) : sProp 𝕄 := iprop((∃ K, ghost m ρ K c) ∗ creds c ∗ levAts L lv)

/-- The communication buffer whole, at some contents. -/
def commAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ commAny c)
/-- After the point: the communication buffer back whole, the sixteen own semaphores at zero, closed. -/
def Φ₁ (c : Dev nD) : sProp 𝕄 :=
  iprop(commAny c ∗ (bigSep Finset.univ fun d : Fin 8 => semVal (sendCell c d) 0) ∗ bigSep Finset.univ fun d : Fin 8 => semVal (recvCell c d) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Hand

end
-- ==== Proof.KernelIdeal.Tables.lean ====
/-
  The schedule's round 0 read cell by cell: which duties a barrier, a send and a receive cell have, what each contributes,
  how many units the round expects, and what each duty hands the cell's owner.
-/
import proofs.«901081_g7700000000001082_dist_sum_ax0_shard0_i_m1536_n768_v7x_i8_bf16_1_alg».proof.Proof.KernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores are distinct -/

theorem send_ne_bar (d : Fin 8) : (SemLoc.dma (sendS d) : SemLoc sig) ≠ .reg barS := fun h => by cases h
theorem recv_ne_bar (d : Fin 8) : (SemLoc.dma (recvS d) : SemLoc sig) ≠ .reg barS := fun h => by cases h
theorem send_ne_recv (d e : Fin 8) : (SemLoc.dma (sendS d) : SemLoc sig) ≠ .dma (recvS e) := fun h => by
  have h' : (sendS d).val = (recvS e).val := congrArg Fin.val (SemLoc.dma.inj h)
  rw [sendS_val, recvS_val] at h'
  omega
theorem sendS_injective : Function.Injective (sendS : Fin 8 → DmaSem sig) := fun a b h => by
  have h' : (sendS a).val = (sendS b).val := congrArg Fin.val h
  rw [sendS_val, sendS_val] at h'
  exact Fin.ext (by omega)
theorem recvS_injective : Function.Injective (recvS : Fin 8 → DmaSem sig) := fun a b h => by
  have h' : (recvS a).val = (recvS b).val := congrArg Fin.val h
  rw [recvS_val, recvS_val] at h'
  exact Fin.ext (by omega)

/-- The offset of a send semaphore's index is its row; so of a receive semaphore's. -/
theorem fd_sendS (d : Fin 8) : fd ((sendS d).val - 2) = d := by revert d; decide
theorem fd_recvS (d : Fin 8) : fd ((recvS d).val - 10) = d := by revert d; decide
theorem fin8_val_pos {d : Fin 8} (hd : d ≠ 0) : 1 ≤ d.val := by revert d; decide

/-! ## Round 0, cell by cell -/

section Sched
variable (c : Dev nD) (d : Fin 8)

theorem duties_bar : (Rd (F := F) m ρ).duties (barCell c) 0 = Finset.univ.erase 0 := by
  dsimp only [Rd]; exact if_pos ⟨rfl, rfl, rfl⟩
theorem duties_send (hd : d ≠ 0) : (Rd (F := F) m ρ).duties (sendCell c d) 0 = {0} := by
  have h1 := sendS_val d
  have h2 := fin8_val_pos hd
  show (if 0 = 0 ∧ (c : Thread nD τ).2 = .tc ∧ 3 ≤ (sendS d).val ∧ (sendS d).val ≠ 10 then ({0} : Finset (Fin 8)) else ∅) = {0}
  exact if_pos ⟨rfl, rfl, by omega, by omega⟩
theorem duties_recv (hd : d ≠ 0) : (Rd (F := F) m ρ).duties (recvCell c d) 0 = {0} := by
  have h1 := recvS_val d
  have h2 := fin8_val_pos hd
  show (if 0 = 0 ∧ (c : Thread nD τ).2 = .tc ∧ 3 ≤ (recvS d).val ∧ (recvS d).val ≠ 10 then ({0} : Finset (Fin 8)) else ∅) = {0}
  exact if_pos ⟨rfl, rfl, by omega, by omega⟩
/-- Row 0's two semaphores are never used. -/
theorem duties_send0 (r : ℕ) : (Rd (F := F) m ρ).duties (sendCell c 0) r = ∅ := by
  have h1 : (sendS 0).val = 2 := by decide
  show (if r = 0 ∧ (c : Thread nD τ).2 = .tc ∧ 3 ≤ (sendS 0).val ∧ (sendS 0).val ≠ 10 then ({0} : Finset (Fin 8)) else ∅) = ∅
  exact if_neg fun h => by omega
theorem duties_recv0 (r : ℕ) : (Rd (F := F) m ρ).duties (recvCell c 0) r = ∅ := by
  have h1 : (recvS 0).val = 10 := by decide
  show (if r = 0 ∧ (c : Thread nD τ).2 = .tc ∧ 3 ≤ (recvS 0).val ∧ (recvS 0).val ≠ 10 then ({0} : Finset (Fin 8)) else ∅) = ∅
  exact if_neg fun h => by omega
theorem duties_later (g : GSem nD τ sig) : ∀ r, 1 ≤ r → (Rd (F := F) m ρ).duties g r = ∅ := fun r hr => by
  obtain ⟨t, s⟩ := g
  cases s with
  | reg s => exact if_neg fun h => by omega
  | dma q => exact if_neg fun h => by omega

theorem amount_bar (e : Fin 8) : (Rd (F := F) m ρ).amount (barCell c) 0 e = 1 := rfl
theorem amount_send (e : Fin 8) : (Rd (F := F) m ρ).amount (sendCell c d) 0 e = N := rfl
theorem amount_recv (e : Fin 8) : (Rd (F := F) m ρ).amount (recvCell c d) 0 e = N := rfl

theorem expect_bar : (Rd (F := F) m ρ).expect (barCell c) 0 = 7 := by
  unfold Schedule.expect Schedule.amountOf
  rw [duties_bar, Finset.sum_congr rfl fun e _ => amount_bar m ρ c e, Finset.sum_const, smul_eq_mul, mul_one]
  decide
theorem expect_send (hd : d ≠ 0) : (Rd (F := F) m ρ).expect (sendCell c d) 0 = N := by
  unfold Schedule.expect Schedule.amountOf; rw [duties_send m ρ c d hd, Finset.sum_singleton, amount_send]
theorem expect_recv (hd : d ≠ 0) : (Rd (F := F) m ρ).expect (recvCell c d) 0 = N := by
  unfold Schedule.expect Schedule.amountOf; rw [duties_recv m ρ c d hd, Finset.sum_singleton, amount_recv]

theorem payload_bar (e : Fin 8) : (Rd (F := F) m ρ).payload (barCell c) 0 e = barPay c e := rfl
theorem payload_send (e : Fin 8) : (Rd (F := F) m ρ).payload (sendCell c d) 0 e = sendPay m ρ c d := by
  have h1 := sendS_val d
  show (if 10 ≤ (sendS d).val then recvPay m ρ c (fd ((sendS d).val - 10)) else sendPay m ρ c (fd ((sendS d).val - 2))) = sendPay m ρ c d
  rw [if_neg (by omega), fd_sendS]
theorem payload_recv (e : Fin 8) : (Rd (F := F) m ρ).payload (recvCell c d) 0 e = recvPay m ρ c d := by
  have h1 := recvS_val d
  show (if 10 ≤ (recvS d).val then recvPay m ρ c (fd ((recvS d).val - 10)) else sendPay m ρ c (fd ((recvS d).val - 2))) = recvPay m ρ c d
  rw [if_pos (by omega), fd_recvS]

/-- The whole of the barrier cell's round, no duty taken before: the seven peers' rows. -/
theorem rest_bar : bigSep ((Rd (F := F) m ρ).duties (barCell c) 0 \ ∅) (fun e => (Rd (F := F) m ρ).payload (barCell c) 0 e)
    = bigSep (Finset.univ.erase 0) (fun e : Fin 8 => (barPay c e : sProp 𝕄)) := by
  rw [Finset.sdiff_empty, duties_bar]; rfl
theorem rest_send (hd : d ≠ 0) : bigSep ((Rd (F := F) m ρ).duties (sendCell c d) 0 \ ∅) (fun e => (Rd (F := F) m ρ).payload (sendCell c d) 0 e) = sendPay m ρ c d := by
  rw [Finset.sdiff_empty, duties_send m ρ c d hd, bigSep_singleton, payload_send]
theorem rest_recv (hd : d ≠ 0) : bigSep ((Rd (F := F) m ρ).duties (recvCell c d) 0 \ ∅) (fun e => (Rd (F := F) m ρ).payload (recvCell c d) 0 e) = recvPay m ρ c d := by
  rw [Finset.sdiff_empty, duties_recv m ρ c d hd, bigSep_singleton, payload_recv]

end Sched

instance Rd_payload_storable (g : GSem nD τ sig) (r : ℕ) (e : Fin 8) :
    BI.Storable (upEmb : UEmb _ 𝕄) ((Rd (F := F) m ρ).payload g r e) := by
  obtain ⟨t, s⟩ := g
  cases s with
  | reg s =>
    show BI.Storable upEmb (barPay t.1 e)
    unfold barPay rowPts; infer_instance
  | dma q =>
    show BI.Storable upEmb (if 10 ≤ q.val then recvPay m ρ t.1 (fd (q.val - 10)) else sendPay m ρ t.1 (fd (q.val - 2)))
    unfold recvPay sendPay rowPts
    split <;> infer_instance

end Cert.KernelIdeal.Hand

end
-- ==== Proof.KernelIdeal.Rows.lean ====
/-
  The communication buffer cut into its eight rows and put together again, row 0 cut into the shares the seven transfers
  read it at, and what the kernel's loads and stores of these buffers read and leave.
-/
import proofs.«901081_g7700000000001082_dist_sum_ax0_shard0_i_m1536_n768_v7x_i8_bf16_1_alg».proof.Proof.KernelIdeal.Proto
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows of the whole buffer -/

/-- The elements under the row view are the row rectangle's. -/
theorem rowM_set (d : Fin 8) : (rowM d : Memref sig .tc .vmem S1x768 .f32).view.set = (rowR d).set :=
  View.set_slice_whole _ _

/-- Row `d` is the elements whose first coordinate is `d`. -/
theorem mem_rowR (d : Fin 8) (i : S8x768.Idx) : i ∈ (rowR d).set ↔ (i 0).val = d.val := by
  rw [Rect.mem_set_unit]
  constructor
  · intro h
    have h0 : d.val ≤ (i 0).val ∧ (i 0).val < d.val + 1 := h 0
    omega
  · intro h
    refine Fin.forall_fin_two.mpr ⟨?_, ?_⟩
    · show d.val ≤ (i 0).val ∧ (i 0).val < d.val + 1
      omega
    · show 0 ≤ (i 1).val ∧ (i 1).val < 0 + 768
      have := ValueIdx.idx2_lt1 i
      omega

/-- An element of row `d` is `(d, j)` for a column `j`. -/
theorem eq_ix2_of_mem_rowR (d : Fin 8) (i : S8x768.Idx) (hi : i ∈ (rowR d).set) : ∃ j : Fin 768, i = ValueIdx.ix2 d j := by
  have h0 := (mem_rowR d i).mp hi
  refine ⟨⟨(i 1).val, ValueIdx.idx2_lt1 i⟩, ?_⟩
  exact Shape.idx_ext₂ h0 rfl

/-- Different rows share no element. -/
theorem rowR_disjoint {d d' : Fin 8} (h : d ≠ d') : Disjoint (rowR d).set (rowR d').set :=
  Finset.disjoint_left.mpr fun i hi hi' => h (Fin.ext (((mem_rowR d i).mp hi).symm.trans ((mem_rowR d' i).mp hi')))

/-- Every element lies in the row of its first coordinate. -/
theorem mem_rowR_self (i : S8x768.Idx) : i ∈ (rowR ⟨(i 0).val, ValueIdx.idx2_lt0 i⟩).set := (mem_rowR _ i).mpr rfl

omit [FloatOps F] in
/-- A row's points-to over the row rectangle's elements. -/
theorem rowPts_eq (c : Dev nD) (d : Fin 8) (q : PosShare TreeShare) (f : Buf (Elt F) ((c : Thread nD τ).loc cc0_scratch0)) :
    (rowPts c d q f : sProp 𝕄) = (((c : Thread nD τ).loc cc0_scratch0) ↦[(rowR d).set]{q} f) := by
  unfold rowPts
  exact congrArg (fun I => ((((c : Thread nD τ).loc cc0_scratch0) ↦[I]{q} f : sProp 𝕄))) (rowM_set d)

omit [FloatOps F] in
/-- The whole buffer is its eight rows. -/
theorem comm_rows (c : Dev nD) (q : PosShare TreeShare) (f : Buf (Elt F) ((c : Thread nD τ).loc cc0_scratch0)) :
    ((((c : Thread nD τ).loc cc0_scratch0) ↦{q} f : sProp 𝕄)) ⊣⊢ bigSep Finset.univ (fun d : Fin 8 => rowPts c d q f) := by
  refine BiEntails.of_eq ?_
  have hb := pointsTo_biUnion (Ix := Unit) (Val := Elt F) (Name := ℕ) (U := UU) (Lvl := ℕ) (ℓ := (c : Thread nD τ).loc cc0_scratch0) (q := q) (f := f)
    Finset.univ (fun d : Fin 8 => (rowR d).set) (fun d _ d' _ h => rowR_disjoint h)
  have hu : (Finset.univ : Finset (Fin 8)).biUnion (fun d : Fin 8 => (rowR d).set) = Finset.univ := by
    ext i
    simp only [Finset.mem_biUnion, Finset.mem_univ, true_and, iff_true]
    exact ⟨_, mem_rowR_self i⟩
  rw [hu] at hb
  rw [hb]
  exact congrArg (bigSep Finset.univ) (funext fun d => (rowPts_eq c d q f).symm)

omit [FloatOps F] in
/-- The whole buffer held through the memref's own view, as a load of all of it wants it. -/
theorem comm_view (c : Dev nD) (q : PosShare TreeShare) (f : Buf (Elt F) ((c : Thread nD τ).loc cc0_scratch0)) :
    ((((c : Thread nD τ).loc cc0_scratch0) ↦{q} f : sProp 𝕄))
      = ((cM : Memref sig .tc .vmem S8x768 .f32).view.loc (c : Thread nD τ) ↦[(cM : Memref sig .tc .vmem S8x768 .f32).view.set]{q} f) :=
  congrArg (fun I => ((((c : Thread nD τ).loc cc0_scratch0) ↦[I]{q} f : sProp 𝕄))) (View.set_whole cc0_scratch0).symm

omit [FloatOps F] in
/-- Values off the row are irrelevant. -/
theorem rowPts_congr (c : Dev nD) (d : Fin 8) (q : PosShare TreeShare) {f g : Buf (Elt F) ((c : Thread nD τ).loc cc0_scratch0)}
    (h : ∀ j : Fin 768, f (ValueIdx.ix2 (d : Fin 8) j) = g (ValueIdx.ix2 (d : Fin 8) j)) : (rowPts c d q f : sProp 𝕄) = rowPts c d q g := by
  rw [rowPts_eq, rowPts_eq]
  refine pointsTo_congr fun i hi => ?_
  obtain ⟨j, rfl⟩ := eq_ix2_of_mem_rowR d i hi
  exact h j

omit [FloatOps F] in
/-- A row along a share. -/
theorem rowPts_halves (c : Dev nD) (d : Fin 8) (q : PosShare TreeShare) (f : Buf (Elt F) ((c : Thread nD τ).loc cc0_scratch0)) :
    (rowPts c d q f : sProp 𝕄) ⊣⊢ iprop(rowPts c d q.left f ∗ rowPts c d q.right f) := by
  rw [rowPts_eq, rowPts_eq, rowPts_eq]
  exact pointsTo_share (PosShare.mem_left_op_right q)

omit [FloatOps F] in
/-- The right half of row 0 is the seven transfers' shares. -/
theorem row0_shares (c : Dev nD) (f : Buf (Elt F) ((c : Thread nD τ).loc cc0_scratch0)) :
    (rowPts c 0 fullShare.right f : sProp 𝕄) ⊣⊢ bigSep (Finset.univ.erase 0) (fun d : Fin 8 => rowPts c 0 (sendShare d) f) := by
  have hh : ∀ q : PosShare TreeShare, (rowPts c 0 q f : sProp 𝕄) = iprop(rowPts c 0 q.left f ∗ rowPts c 0 q.right f) :=
    fun q => BI.equiv_iff.mp ⟨(rowPts_halves c 0 q f).1, (rowPts_halves c 0 q f).2⟩
  have e1 : (rowPts c 0 (rights 1) f : sProp 𝕄) = iprop(rowPts c 0 (rights 1).left f ∗ rowPts c 0 (rights 2) f) := hh (rights 1)
  have e2 : (rowPts c 0 (rights 2) f : sProp 𝕄) = iprop(rowPts c 0 (rights 2).left f ∗ rowPts c 0 (rights 3) f) := hh (rights 2)
  have e3 : (rowPts c 0 (rights 3) f : sProp 𝕄) = iprop(rowPts c 0 (rights 3).left f ∗ rowPts c 0 (rights 4) f) := hh (rights 3)
  have e4 : (rowPts c 0 (rights 4) f : sProp 𝕄) = iprop(rowPts c 0 (rights 4).left f ∗ rowPts c 0 (rights 5) f) := hh (rights 4)
  have e5 : (rowPts c 0 (rights 5) f : sProp 𝕄) = iprop(rowPts c 0 (rights 5).left f ∗ rowPts c 0 (rights 6) f) := hh (rights 5)
  have e6 : (rowPts c 0 (rights 6) f : sProp 𝕄) = iprop(rowPts c 0 (rights 6).left f ∗ rowPts c 0 (rights 7) f) := hh (rights 6)
  have hs : (Finset.univ.erase (0 : Fin 8)) = {1, 2, 3, 4, 5, 6, 7} := by decide
  refine BiEntails.of_eq ?_
  rw [hs, bigSep_insert (by decide), bigSep_insert (by decide), bigSep_insert (by decide), bigSep_insert (by decide),
    bigSep_insert (by decide), bigSep_insert (by decide), bigSep_singleton]
  show (rowPts c 0 (rights 1) f : sProp 𝕄)
    = iprop(rowPts c 0 (rights 1).left f ∗ rowPts c 0 (rights 2).left f ∗ rowPts c 0 (rights 3).left f ∗ rowPts c 0 (rights 4).left f
        ∗ rowPts c 0 (rights 5).left f ∗ rowPts c 0 (rights 6).left f ∗ rowPts c 0 (rights 7) f)
  rw [e1, e2, e3, e4, e5, e6]

/-! ## What the loads read and the stores leave -/

abbrev r0x : Rect S1536x768 := Rect.unit (s := S1536x768) ![0, 0] S1536x768.size inb_S1536x768_S1536x768_0_0
abbrev r0c : Rect S8x768 := Rect.unit (s := S8x768) ![0, 0] S8x768.size inb_S8x768_S8x768_0_0
abbrev r0o : Rect S1x768 := Rect.unit (s := S1x768) ![0, 0] S1x768.size inb_S1x768_S1x768_0_0

/-- The offsets `(0, 0)` are the zero offsets. -/
theorem off_zero : (![0, 0] : Fin 2 → Nat) = fun _ => 0 := funext fun a => by fin_cases a <;> rfl

omit [FloatOps F] in
theorem read_x (f : (cc0_stg0_0 : Ref sig .tc).ty.Contents (Elt F)) : (xM : Memref sig .tc .vmem S1536x768 .f32).view.readAt (Elt F) r0x.toLoadRect f = f :=
  Memref.readAt_unit_zero (Elt F) cc0_stg0_0 off_zero _ f
omit [FloatOps F] in
theorem read_comm (f : (cc0_scratch0 : Ref sig .tc).ty.Contents (Elt F)) : (cM : Memref sig .tc .vmem S8x768 .f32).view.readAt (Elt F) r0c.toLoadRect f = f :=
  Memref.readAt_unit_zero (Elt F) cc0_scratch0 off_zero _ f
omit [FloatOps F] in
theorem write_out (f w : (cc0_stg1_0 : Ref sig .tc).ty.Contents (Elt F)) :
    ((oM : Memref sig .tc .vmem S1x768 .f32).access r0o : View sig .tc _ _ _).write (Elt F) f w Finset.univ = w :=
  Memref.write_access_unit_zero_univ (Elt F) cc0_stg1_0 off_zero _ f w

/-- Column `j` of the row view of row `d` sits at `(d, j)` of the buffer. -/
theorem rowM_emb (d : Fin 8) (j : Fin 768) :
    (rowM d : Memref sig .tc .vmem S1x768 .f32).view.emb (ValueIdx.ix2 (0 : Fin 1) j) = ValueIdx.ix2 d j := by
  refine Shape.idx_ext₂ ?_ ?_
  · show d.val + 1 * 0 = d.val
    omega
  · show 0 + 1 * j.val = j.val
    omega

/-- What the buffer ends holding at `(r, j)`: column `j` of the column sums of the device `r` places before. -/
theorem commFinal_apply (c : Dev nD) (r : Fin 8) (j : Fin 768) :
    commFinal m ρ c (ValueIdx.ix2 r j) = part m ρ (src c r) (ValueIdx.ix2 (0 : Fin 1) j) := by
  have e1 : fd r.val = r := Fin.ext (Nat.mod_eq_of_lt r.isLt)
  have e2 : (⟨j.val % 768, Nat.mod_lt _ (by decide)⟩ : Fin 768) = j := Fin.ext (Nat.mod_eq_of_lt j.isLt)
  show part m ρ (src c (fd r.val)) (ValueIdx.ix2 (0 : Fin 1) (⟨j.val % 768, Nat.mod_lt _ (by decide)⟩ : Fin 768)) = _
  rw [e1, e2]

/-- Row 0 after the store of the device's own column sums holds what it ends with. -/
theorem stored_row0 (c : Dev nD) (f : (cc0_scratch0 : Ref sig .tc).ty.Contents (Elt F)) (j : Fin 768) :
    (((cM : Memref sig .tc .vmem S8x768 .f32).access (rowR 0) : View sig .tc _ _ _).write (Elt F) f (part m ρ c) Finset.univ) (ValueIdx.ix2 (0 : Fin 8) j)
      = commFinal m ρ c (ValueIdx.ix2 (0 : Fin 8) j) := by
  have h1 := View.write_emb_of_mem (v := (rowM 0 : Memref sig .tc .vmem S1x768 .f32).view) (Val := Elt F) f (part m ρ c)
    (M := Finset.univ) (x := ValueIdx.ix2 (0 : Fin 1) j) (Finset.mem_univ _)
  rw [rowM_emb] at h1
  refine h1.trans ?_
  rw [commFinal_apply, src_zero]
  exact cast_eq _ _

/-- Row `d` of `peer c d` after device `c`'s row 0 has landed in it holds what it ends with. -/
theorem landed_row (c : Dev nD) (d : Fin 8) (fd : (cc0_scratch0 : Ref sig .tc).ty.Contents (Elt F)) (j : Fin 768) :
    ((rowM d : Memref sig .tc .vmem S1x768 .f32).view.write (Elt F) fd ((rowM 0 : Memref sig .tc .vmem S1x768 .f32).view.read (Elt F) (commFinal m ρ c)) Finset.univ) (ValueIdx.ix2 (d : Fin 8) j)
      = commFinal m ρ (peer c d) (ValueIdx.ix2 (d : Fin 8) j) := by
  have h1 := View.write_emb_of_mem (v := (rowM d : Memref sig .tc .vmem S1x768 .f32).view) (Val := Elt F) fd
    ((rowM 0 : Memref sig .tc .vmem S1x768 .f32).view.read (Elt F) (commFinal m ρ c))
    (M := Finset.univ) (x := ValueIdx.ix2 (0 : Fin 1) j) (Finset.mem_univ _)
  rw [rowM_emb] at h1
  refine h1.trans ?_
  rw [View.read_apply, rowM_emb, commFinal_apply, commFinal_apply, src_zero, src_peer]
  exact (cast_eq _ _).trans (cast_eq _ _)

end Cert.KernelIdeal.Hand

end
-- ==== Proof.KernelIdeal.Steps.lean ====
/-
  The body's steps that touch another device, each stated once for an arbitrary peer offset d: the entry signal, the wait for
  the seven peers, the transfer of row 0 into the peer's row d, the waits for a landing and for a departure, and the closing of
  a cell no round of which has a duty left.
-/
import proofs.«901081_g7700000000001082_dist_sum_ax0_shard0_i_m1536_n768_v7x_i8_bf16_1_alg».proof.Proof.KernelIdeal.Proto
import proofs.«901081_g7700000000001082_dist_sum_ax0_shard0_i_m1536_n768_v7x_i8_bf16_1_alg».proof.Proof.KernelIdeal.Tables
import proofs.«901081_g7700000000001082_dist_sum_ax0_shard0_i_m1536_n768_v7x_i8_bf16_1_alg».proof.Proof.KernelIdeal.Rows

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance records_persistent (K : Dev nD × Fin 17 → ℕ) : BI.Persistent (records m ρ K) := by unfold records; infer_instance

theorem inv_at (K : Dev nD × Fin 17 → ℕ) (ck : Dev nD × Fin 17) : records m ρ K ⊢ cellInv ER (Rd m ρ) (K ck) (kcell ck) := by
  unfold records
  iintro ⟨H, -⟩
  iapply (show (bigSep Finset.univ fun ck : Dev nD × Fin 17 => cellInv ER (Rd m ρ) (K ck) (kcell ck)) ⊢ cellInv ER (Rd m ρ) (K ck) (kcell ck)
    from bigSep_elim (Finset.mem_univ ck))
  iexact H
theorem reached_at (K : Dev nD × Fin 17 → ℕ) (ck : Dev nD × Fin 17) : records m ρ K ⊢ (reached ER (kcell ck) 0 : sProp 𝕄) := by
  unfold records
  iintro ⟨-, H⟩
  iapply (show (bigSep Finset.univ fun ck : Dev nD × Fin 17 => (reached ER (kcell ck) 0 : sProp 𝕄)) ⊢ (reached ER (kcell ck) 0 : sProp 𝕄)
    from bigSep_elim (Finset.mem_univ ck))
  iexact H

/-! The records read at a barrier, a send and a receive cell. -/

theorem inv_bar (K : Dev nD × Fin 17 → ℕ) (c : Dev nD) : records m ρ K ⊢ cellInv ER (Rd m ρ) (K (c, 0)) (barCell c) :=
  inv_at m ρ K (c, 0)
theorem inv_send (K : Dev nD × Fin 17 → ℕ) (c : Dev nD) (d : Fin 8) : records m ρ K ⊢ cellInv ER (Rd m ρ) (K (c, sIx d)) (sendCell c d) := by
  have h := inv_at m ρ K (c, sIx d); rwa [kcell_send] at h
theorem inv_recv (K : Dev nD × Fin 17 → ℕ) (c : Dev nD) (d : Fin 8) : records m ρ K ⊢ cellInv ER (Rd m ρ) (K (c, rIx d)) (recvCell c d) := by
  have h := inv_at m ρ K (c, rIx d); rwa [kcell_recv] at h
theorem reached_bar (K : Dev nD × Fin 17 → ℕ) (c : Dev nD) : records m ρ K ⊢ (reached ER (barCell c) 0 : sProp 𝕄) :=
  reached_at m ρ K (c, 0)
theorem reached_send (K : Dev nD × Fin 17 → ℕ) (c : Dev nD) (d : Fin 8) : records m ρ K ⊢ (reached ER (sendCell c d) 0 : sProp 𝕄) := by
  have h := reached_at m ρ K (c, sIx d); rwa [kcell_send] at h
theorem reached_recv (K : Dev nD × Fin 17 → ℕ) (c : Dev nD) (d : Fin 8) : records m ρ K ⊢ (reached ER (recvCell c d) 0 : sProp 𝕄) := by
  have h := reached_at m ρ K (c, rIx d); rwa [kcell_recv] at h

/-- Signal `d` of device `c`, to `peer c d`'s barrier cell: it pays that cell's duty `opp d` with row `opp d` of its own buffer,
    and one unit comes off what it owes. `n` signals remain afterwards. -/
theorem wp_sig (K : Dev nD × Fin 17 → ℕ) (c : Dev nD) (d : Fin 8) (hd : d ≠ 0) (n : ℕ) (hn : fd (7 - n) = d)
    {α : Type} {Q : α → sProp 𝕄} {k : PUnit → Prog (TpuEff nD τ sig (Elt F) Λ₀ .tc) α} {k' : ℕ} (hk' : k' = 1)
    (f : Buf (Elt F) ((c : Thread nD τ).loc cc0_scratch0)) (W : Waits sig Unit) :
    iprop(records m ρ K ∗ owes (c : Thread nD τ) (sigsRem c (n + 1)) W ∗ dutyTok ER (barCell (peer c d)) 0 (opp d) ∗ rowPts c (opp d) fullShare f)
      ⊢ iprop((owes (c : Thread nD τ) (sigsRem c n) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c d : Thread nD τ) barS k') k) Q) := by
  subst hk'
  subst hn
  iintro ⟨#Hrec, HO, Htok, Hrow⟩ Hk
  iapply (Rounds.wp_signal 𝒱₀ ER (Rd m ρ) (c : Thread nD τ) none (dst := (peer c (fd (7 - n)) : Thread nD τ)) (κ := K (peer c (fd (7 - n)), 0))
      (d := opp (fd (7 - n))) (by rw [duties_bar]; exact Finset.mem_erase.2 ⟨opp_ne_zero hd, Finset.mem_univ _⟩)
      (amount_bar m ρ (peer c (fd (7 - n))) (opp (fd (7 - n)))) () (sigsRem c n) rfl) $$ [HO Htok Hrow]
  · isplitr; · iapply (inv_bar m ρ K (peer c (fd (7 - n)))); iexact Hrec
    isplitl [HO]; · iexact HO
    isplitl [Htok]; · iexact Htok
    isplitl [Hrow]
    · rw [payload_bar]; unfold barPay; rw [peer_peer_opp]
      isplitl [Hrow]; · iexists f; iexact Hrow
      iapply (reached_recv m ρ K c (opp (fd (7 - n)))); iexact Hrec
    · iapply (reached_bar m ρ K (peer c (fd (7 - n)))); iexact Hrec
  iexact Hk

/-- The wait for the seven peers' signals, the seven transfers' credits still owed: each peer's row comes with its signal. -/
theorem wp_wait_bar (K : Dev nD × Fin 17 → ℕ) (c : Dev nD)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.reg barS) 7 Kt)
    (W : Waits sig Unit) :
    iprop(records m ρ K ∗ cred (tallyAt (barCell c) () 7) ∗ owes (c : Thread nD τ) (sendsRem c 7) W
        ∗ MayWait (c : Thread nD τ) (.reg barS) () (sendsRem c 7) ∗ atPos ER (barCell c) 0 ∅ 0)
      ⊢ iprop(((owes (c : Thread nD τ) (sendsRem c 7) (insert (SemLoc.reg barS, ()) W) ∗ atPos ER (barCell c) 1 ∅ 0
                ∗ bigSep (Finset.univ.erase 0) (fun e : Fin 8 => (barPay c e : sProp 𝕄))) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (Rd m ρ) (c : Thread nD τ) none (κ := K (c, 0)) hw (Set.mem_univ _) ()
      (O := sendsRem c 7) (W := W) (R := 0) (m := 0) (T := ∅) (by rw [Nat.zero_add, expect_bar])) $$ [Hc HO Hmw Hat]
  · isplitr; · iapply (inv_bar m ρ K c); iexact Hrec
    isplitl [Hc]; · iexact Hc
    isplitl [HO]; · iexact HO
    isplitl [Hmw]; · iexact Hmw
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- Transfer `d`: row 0 of device `c`, read at its share, into row `d` of `n = peer c d`, which `c` holds since the peer's signal.
    `r` transfers remain afterwards. -/
theorem wp_send_row (K : Dev nD × Fin 17 → ℕ) (c n : Dev nD) (d : Fin 8) (hd : d ≠ 0) (hn : n = peer c d) (r : ℕ) (hr : fd (7 - r) = d)
    {hsc : (rowM d : Memref sig (Dev.tc n : Thread nD τ).2.kind .vmem S1x768 .f32).view.ref.isScScratch = false}
    {hsrc : (rowM 0 : Memref sig .tc .vmem S1x768 .f32).view.WordExact} {hdst : (rowM d : Memref sig .tc .vmem S1x768 .f32).view.WordExact}
    {hsem : DmaTarget.Typed .vmem (.dma (recvS d)) (.remote (Dev.tc n : Thread nD τ) (rowM d : Memref sig .tc .vmem S1x768 .f32) (.dma (sendS d)) hsc)}
    {α : Type} {Q : α → sProp 𝕄} {k : PUnit → Prog (TpuEff nD τ sig (Elt F) Λ₀ .tc) α}
    (fn : Buf (Elt F) ((peer c d : Thread nD τ).loc cc0_scratch0)) (W : Waits sig Unit) :
    iprop(records m ρ K ∗ rowPts c 0 (sendShare d) (commFinal m ρ c) ∗ rowPts (peer c d) d fullShare fn
        ∗ owes (c : Thread nD τ) (sendsRem c (r + 1)) W ∗ dutyTok ER (sendCell c d) 0 0 ∗ dutyTok ER (recvCell (peer c d) d) 0 0)
      ⊢ iprop(((cred (tallyAt (sendCell c d) () N) ∗ owes (c : Thread nD τ) (sendsRem c r) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM d) (.dma (sendS d)) hsc) (.dma (recvS d)) hsrc hdst hsem) k) Q) := by
  subst hn
  subst hr
  iintro ⟨#Hrec, Hsrc, Hdst, HO, HtS, HtR⟩
  iapply (Rounds.wp_send_pointsTo 𝒱₀ ER (Rd m ρ) (c : Thread nD τ) none (c' := (peer c (fd (7 - r)) : Thread nD τ))
      (src := (rowM 0 : Memref sig .tc .vmem S1x768 .f32)) (dst := (rowM (fd (7 - r)) : Memref sig .tc .vmem S1x768 .f32))
      (q := sendShare (fd (7 - r))) (fs := commFinal m ρ c) (fd := fn)
      (κ₁ := K (c, sIx (fd (7 - r)))) (κ₂ := K (peer c (fd (7 - r)), rIx (fd (7 - r))))
      (r₁ := 0) (r₂ := 0) (d₁ := 0) (d₂ := 0)
      (by rw [duties_send m ρ c _ hd]; exact Finset.mem_singleton_self _)
      (by rw [duties_recv m ρ (peer c (fd (7 - r))) _ hd]; exact Finset.mem_singleton_self _)
      () () N rfl (amount_send m ρ c (fd (7 - r)) 0) (amount_recv m ρ (peer c (fd (7 - r))) (fd (7 - r)) 0)
      (sendsRem c r) rfl (W := W)
      (by rw [payload_send]; exact BI.Entails.refl _)
      (by
        rw [payload_recv]; unfold recvPay
        exact Entails.of_eq (rowPts_congr (peer c (fd (7 - r))) (fd (7 - r)) fullShare (fun j => landed_row m ρ c (fd (7 - r)) fn j))))
  unfold rowPts
  isplitr; · iapply (inv_send m ρ K c (fd (7 - r))); iexact Hrec
  isplitr; · iapply (inv_recv m ρ K (peer c (fd (7 - r))) (fd (7 - r))); iexact Hrec
  isplitl [Hsrc]; · iexact Hsrc
  isplitl [Hdst]; · iexact Hdst
  isplitl [HO]; · iexact HO
  isplitl [HtS]; · iexact HtS
  isplitr; · iapply (reached_send m ρ K c (fd (7 - r))); iexact Hrec
  isplitl [HtR]; · iexact HtR
  iapply (reached_recv m ρ K (peer c (fd (7 - r))) (fd (7 - r))); iexact Hrec

/-- The wait for the landing in row `d`: the row comes back holding the column sums of the device `d` places before. -/
theorem wp_wait_recv (K : Dev nD × Fin 17 → ℕ) (c : Dev nD) (d : Fin 8) (hd : d ≠ 0)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (recvS d)) N Kt)
    (W : Waits sig Unit) :
    iprop(records m ρ K ∗ cred (tallyAt (recvCell c d) () N) ∗ owes (c : Thread nD τ) 0 W ∗ atPos ER (recvCell c d) 0 ∅ 0)
      ⊢ iprop(((owes (c : Thread nD τ) 0 (insert (SemLoc.dma (recvS d), ()) W) ∗ atPos ER (recvCell c d) 1 ∅ 0
                ∗ rowPts c d fullShare (commFinal m ρ c)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hat⟩ Hk
  iapply (Rounds.wp_wait_rest_token 𝒱₀ ER (Rd m ρ) (c : Thread nD τ) none (κ := K (c, rIx d)) hw (Set.mem_univ _) ()
      (O := 0) (W := W) (R := 0) (m := 0) (T := ∅) (by rw [Nat.zero_add, expect_recv m ρ c d hd])) $$ [Hc HO Hat]
  · isplitr; · iapply (inv_recv m ρ K c d); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m ρ c d hd)) $$ Hpay
  unfold recvPay
  iapply Hk
  isplitl [HO]; · iexact HO
  isplitl [Hat]; · iexact Hat
  iexact Hp

/-- The wait for the departure of transfer `d`: the share of row 0 it read at comes back. -/
theorem wp_wait_send (K : Dev nD × Fin 17 → ℕ) (c : Dev nD) (d : Fin 8) (hd : d ≠ 0)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (sendS d)) N Kt)
    (W : Waits sig Unit) :
    iprop(records m ρ K ∗ cred (tallyAt (sendCell c d) () N) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0
                ∗ rowPts c 0 (sendShare d) (commFinal m ρ c)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hat⟩ Hk
  iapply (Rounds.wp_wait_rest_token 𝒱₀ ER (Rd m ρ) (c : Thread nD τ) none (κ := K (c, sIx d)) hw (Set.mem_univ _) ()
      (O := 0) (W := W) (R := 0) (m := 0) (T := ∅) (by rw [Nat.zero_add, expect_send m ρ c d hd])) $$ [Hc HO Hat]
  · isplitr; · iapply (inv_send m ρ K c d); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m ρ c d hd)) $$ Hpay
  unfold sendPay
  iapply Hk
  isplitl [HO]; · iexact HO
  isplitl [Hat]; · iexact Hat
  iexact Hp

/-- A used cell after its one round, and an unused cell at round 0, closes: its counter at zero is the core's again. -/
theorem close_send (K : Dev nD × Fin 17 → ℕ) (c : Dev nD) (d : Fin 8) :
    iprop(records m ρ K ∗ atPos ER (sendCell c d) (if d = 0 then 0 else 1) ∅ 0) ⊢ (|={Set.univ}=> semVal (sendCell c d) 0 : sProp 𝕄) := by
  by_cases h : d = 0
  · subst h
    rw [if_pos rfl]
    exact (sep_mono_left (inv_send m ρ K c 0)).trans
      (Rounds.cell_close ER (Rd m ρ) (Set.mem_univ (K (c, sIx 0))) (fun h => h) (R := 0) (fun r _ => duties_send0 m ρ c r))
  · rw [if_neg h]
    exact (sep_mono_left (inv_send m ρ K c d)).trans
      (Rounds.cell_close ER (Rd m ρ) (Set.mem_univ (K (c, sIx d))) (fun h => h) (R := 1) (duties_later m ρ (sendCell c d)))
theorem close_recv (K : Dev nD × Fin 17 → ℕ) (c : Dev nD) (d : Fin 8) :
    iprop(records m ρ K ∗ atPos ER (recvCell c d) (if d = 0 then 0 else 1) ∅ 0) ⊢ (|={Set.univ}=> semVal (recvCell c d) 0 : sProp 𝕄) := by
  by_cases h : d = 0
  · subst h
    rw [if_pos rfl]
    exact (sep_mono_left (inv_recv m ρ K c 0)).trans
      (Rounds.cell_close ER (Rd m ρ) (Set.mem_univ (K (c, rIx 0))) (fun h => h) (R := 0) (fun r _ => duties_recv0 m ρ c r))
  · rw [if_neg h]
    exact (sep_mono_left (inv_recv m ρ K c d)).trans
      (Rounds.cell_close ER (Rd m ρ) (Set.mem_univ (K (c, rIx d))) (fun h => h) (R := 1) (duties_later m ρ (recvCell c d)))

end Cert.KernelIdeal.Hand

end
-- ==== Proof.KernelIdeal.Credit.lean ====
/-
  What the launch deals each device against what the devices owe one another, and that every wait sits below what its
  waiter still owes: the staging waits below everything, the barrier wait below the receive cells.
-/
import proofs.«901081_g7700000000001082_dist_sum_ax0_shard0_i_m1536_n768_v7x_i8_bf16_1_alg».proof.Proof.KernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

namespace Credit

/-! ## The recursive sums, one step at a time -/

theorem sendsRem_zero (c : Dev nD) : sendsRem c 0 = 0 := rfl
theorem sendsRem_succ (c : Dev nD) (n : ℕ) :
    sendsRem c (n + 1) = sendsRem c n + tallyAt (recvCell (peer c (fd (7 - n))) (fd (7 - n))) () N := rfl
theorem sigsRem_zero (c : Dev nD) : sigsRem c 0 = sendsRem c 7 := rfl
theorem sigsRem_succ (c : Dev nD) (n : ℕ) :
    sigsRem c (n + 1) = sigsRem c n + tallyAt (barCell (peer c (fd (7 - n)))) () 1 := rfl

theorem fd_val {k : ℕ} (hk : k < 8) : (fd k).val = k := Nat.mod_eq_of_lt hk
theorem eq_fd_iff {d : Fin 8} {k : ℕ} (hk : k < 8) : d = fd k ↔ d.val = k := by
  rw [Fin.ext_iff, fd_val hk]
theorem fd_ne_zero {k : ℕ} (h1 : 1 ≤ k) (h7 : k ≤ 7) : fd k ≠ 0 := by
  intro h
  have h0 : (fd k).val = (0 : Fin 8).val := congrArg Fin.val h
  rw [fd_val (by omega)] at h0
  change k = 0 at h0
  omega

/-! ## Cells apart -/

theorem recv_ne_bar (d : Fin 8) : (SemLoc.dma (recvS d) : SemLoc sig) ≠ .reg barS := fun h => by cases h
theorem recvS_inj {d e : Fin 8} (h : recvS d = recvS e) : d = e := by
  have hv : (recvS d).val = (recvS e).val := congrArg (fun q : DmaSem sig => q.val) h
  rw [recvS_val, recvS_val] at hv
  exact Fin.ext (by omega)
theorem bar_eq_iff {a b : Dev nD} : barCell a = barCell b ↔ a = b :=
  ⟨fun h => Fin.ext (congrArg (fun g : GSem nD τ sig => g.1.1.val) h), fun h => h ▸ rfl⟩
theorem recv_eq_iff {a b : Dev nD} {d e : Fin 8} : recvCell a d = recvCell b e ↔ a = b ∧ d = e :=
  ⟨fun h => ⟨Fin.ext (congrArg (fun g : GSem nD τ sig => g.1.1.val) h), recvS_inj (SemLoc.dma.inj (congrArg Prod.snd h))⟩,
    fun h => by rw [h.1, h.2]⟩
theorem peer_eq_iff (e c : Dev nD) (d : Fin 8) : peer e d = c ↔ e = src c d := by revert e c d; decide

/-- A one-cell tally is positive only at its cell. -/
theorem tallyAt_pos {g g' : GSem nD τ sig} {k : ℕ} {u : Unit}
    (h : 0 < (tallyAt g () k : CellTallies nD τ sig Unit) g' u) : g' = g := by
  rw [tallyAt_apply] at h
  by_contra hg
  rw [if_neg (fun h' => hg h'.1)] at h
  exact Nat.lt_irrefl 0 h

/-! ## The levels of the three kinds of cell -/

theorem lv_recv (c : Dev nD) (d : Fin 8) (u : Unit) : lv (recvCell c d) u = 2 := by
  show (if 10 ≤ (recvS d).val then 2 else 0) = 2
  rw [if_pos (by rw [recvS_val]; omega)]
theorem lv_bar (c : Dev nD) (u : Unit) : lv (barCell c) u = 1 := by
  show (if barS = barS then 1 else 0) = 1
  rw [if_pos rfl]
theorem lv_low (c : Dev nD) (q : DmaSem sig) (hq : q.val < 2) (u : Unit) : lv ((c : Thread nD τ), .dma q) u = 0 := by
  show (if 10 ≤ q.val then 2 else 0) = 0
  rw [if_neg (by omega)]

end Credit

/-- What is owed for the transfers still to start is owed to a peer's receive cell. -/
theorem sendsRem_pos {c : Dev nD} {n : ℕ} (hn : n ≤ 7) {g : GSem nD τ sig} {u : Unit} (h : 0 < sendsRem c n g u) :
    ∃ d : Fin 8, d ≠ 0 ∧ g = recvCell (peer c d) d := by
  induction n with
  | zero =>
    rw [Credit.sendsRem_zero, Pi.zero_apply, Finsupp.zero_apply] at h
    exact absurd h (Nat.lt_irrefl 0)
  | succ n ih =>
    rw [Credit.sendsRem_succ, Pi.add_apply, Finsupp.add_apply] at h
    by_cases h1 : 0 < sendsRem c n g u
    · exact ih (by omega) h1
    · have h2 : 0 < (tallyAt (recvCell (peer c (fd (7 - n))) (fd (7 - n))) () N : CellTallies nD τ sig Unit) g u := by omega
      exact ⟨fd (7 - n), Credit.fd_ne_zero (by omega) (by omega), Credit.tallyAt_pos h2⟩

/-- With signals still to make, what is owed is owed to a peer's receive cell or to a peer's barrier cell. -/
theorem sigsRem_pos {c : Dev nD} {n : ℕ} (hn : n ≤ 7) {g : GSem nD τ sig} {u : Unit} (h : 0 < sigsRem c n g u) :
    (∃ d : Fin 8, d ≠ 0 ∧ g = recvCell (peer c d) d) ∨ (∃ d : Fin 8, d ≠ 0 ∧ g = barCell (peer c d)) := by
  induction n with
  | zero =>
    rw [Credit.sigsRem_zero] at h
    exact Or.inl (sendsRem_pos (le_refl 7) h)
  | succ n ih =>
    rw [Credit.sigsRem_succ, Pi.add_apply, Finsupp.add_apply] at h
    by_cases h1 : 0 < sigsRem c n g u
    · exact ih (by omega) h1
    · have h2 : 0 < (tallyAt (barCell (peer c (fd (7 - n)))) () 1 : CellTallies nD τ sig Unit) g u := by omega
      exact Or.inr ⟨fd (7 - n), Credit.fd_ne_zero (by omega) (by omega), Credit.tallyAt_pos h2⟩

/-- What is owed at launch is owed to a peer's barrier cell or to a peer's receive cell. -/
theorem O₀_pos {c : Dev nD} {g : GSem nD τ sig} {u : Unit} (h : 0 < O₀ c g u) :
    (∃ d : Fin 8, d ≠ 0 ∧ g = recvCell (peer c d) d) ∨ (∃ d : Fin 8, d ≠ 0 ∧ g = barCell (peer c d)) :=
  sigsRem_pos (le_refl 7) h

/-- A staging wait (the pipeline's own two DMA semaphores) sits below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, _, rfl⟩ | ⟨d, _, rfl⟩ <;> exact Finset.mem_singleton_self _)
      (fun p hp => by rw [Finset.mem_singleton.mp hp]; exact le_of_eq (Credit.lv_low c q hq ()))
      (fun g u hg => by
        rcases O₀_pos hg with ⟨d, _, rfl⟩ | ⟨d, _, rfl⟩
        · rw [Credit.lv_recv]; decide
        · rw [Credit.lv_bar]; decide)
  · rw [MayWait_zero]; iintro -; iempintro

/-- At its barrier wait a device owes the seven transfers' credits only: receive cells, above its barrier cell. -/
theorem mayWait_bar (c : Dev nD) :
    (levAts L lv : sProp 𝕄) ⊢ MayWait (c : Thread nD τ) (.reg barS) () (sendsRem c 7) :=
  MayOwe.of_cut (L := L) (lev := lv) 1 (fun p hp => by rw [Finset.mem_singleton.mp hp, L_tc]; exact Finset.mem_singleton_self _)
    (fun g u hg => by obtain ⟨d, _, rfl⟩ := sendsRem_pos (le_refl 7) hg; exact Finset.mem_singleton_self _)
    (fun p hp => by rw [Finset.mem_singleton.mp hp]; exact le_of_eq (Credit.lv_bar c ()))
    (fun g u hg => by obtain ⟨d, _, rfl⟩ := sendsRem_pos (le_refl 7) hg; rw [Credit.lv_recv]; decide)

namespace Credit

/-! ## What the eight devices together owe one cell -/

theorem sendsRem_bar (e c : Dev nD) (n : ℕ) : sendsRem e n (barCell c) () = 0 := by
  induction n with
  | zero => rw [sendsRem_zero, Pi.zero_apply, Finsupp.zero_apply]
  | succ n ih =>
    rw [sendsRem_succ, Pi.add_apply, Finsupp.add_apply, ih,
      tallyAt_ne_cell (fun h => recv_ne_bar _ (congrArg Prod.snd h).symm), Finsupp.zero_apply, Nat.add_zero]

theorem sigsRem_recv (e c : Dev nD) (d : Fin 8) (n : ℕ) : sigsRem e n (recvCell c d) () = sendsRem e 7 (recvCell c d) () := by
  induction n with
  | zero => rw [sigsRem_zero]
  | succ n ih =>
    rw [sigsRem_succ, Pi.add_apply, Finsupp.add_apply, ih,
      tallyAt_ne_cell (fun h => recv_ne_bar d (congrArg Prod.snd h)), Finsupp.zero_apply, Nat.add_zero]

/-- Signal `k` of the eight devices: exactly one of them, the device `k` places before `c`, names `c`. -/
theorem sum_bar_term (c : Dev nD) (k : Fin 8) :
    (Finset.univ.sum fun e : Dev nD => (tallyAt (barCell (peer e k)) () 1 : CellTallies nD τ sig Unit) (barCell c) ()) = 1 := by
  have hpt : ∀ e : Dev nD, (tallyAt (barCell (peer e k)) () 1 : CellTallies nD τ sig Unit) (barCell c) () = if e = src c k then 1 else 0 := by
    intro e
    rw [tallyAt_apply]
    by_cases h : e = src c k
    · subst h; rw [peer_src, if_pos ⟨rfl, rfl⟩, if_pos rfl]
    · rw [if_neg (fun h' => h ((peer_eq_iff e c k).mp (bar_eq_iff.mp h'.1).symm)), if_neg h]
  rw [Finset.sum_congr rfl (fun e _ => hpt e), Finset.sum_ite_eq' Finset.univ (src c k) fun _ => 1, if_pos (Finset.mem_univ _)]

/-- Transfer `k` of the eight devices lands in row `k` only, and in `c`'s row `k` from exactly one of them. -/
theorem sum_recv_term (c : Dev nD) (d k : Fin 8) :
    (Finset.univ.sum fun e : Dev nD => (tallyAt (recvCell (peer e k) k) () N : CellTallies nD τ sig Unit) (recvCell c d) ())
      = if d = k then N else 0 := by
  by_cases hdk : d = k
  · subst hdk
    have hpt : ∀ e : Dev nD, (tallyAt (recvCell (peer e d) d) () N : CellTallies nD τ sig Unit) (recvCell c d) () = if e = src c d then N else 0 := by
      intro e
      rw [tallyAt_apply]
      by_cases h : e = src c d
      · subst h; rw [peer_src, if_pos ⟨rfl, rfl⟩, if_pos rfl]
      · rw [if_neg (fun h' => h ((peer_eq_iff e c d).mp (recv_eq_iff.mp h'.1).1.symm)), if_neg h]
    rw [if_pos rfl, Finset.sum_congr rfl (fun e _ => hpt e), Finset.sum_ite_eq' Finset.univ (src c d) fun _ => N, if_pos (Finset.mem_univ _)]
  · rw [if_neg hdk]
    exact Finset.sum_eq_zero fun e _ => by rw [tallyAt_apply, if_neg (fun h' => hdk (recv_eq_iff.mp h'.1).2)]

theorem sum_sigsRem_bar (c : Dev nD) (n : ℕ) : (Finset.univ.sum fun e : Dev nD => sigsRem e n (barCell c) ()) = n := by
  induction n with
  | zero => exact Finset.sum_eq_zero fun e _ => by rw [sigsRem_zero]; exact sendsRem_bar e c 7
  | succ n ih =>
    simp only [sigsRem_succ, Pi.add_apply, Finsupp.add_apply, Finset.sum_add_distrib]
    rw [ih, sum_bar_term]

theorem sum_sendsRem_recv (c : Dev nD) (d : Fin 8) (n : ℕ) (hn : n ≤ 7) :
    (Finset.univ.sum fun e : Dev nD => sendsRem e n (recvCell c d) ()) = if 8 - n ≤ d.val then N else 0 := by
  induction n with
  | zero =>
    rw [if_neg (by have := d.isLt; omega)]
    exact Finset.sum_eq_zero fun e _ => by rw [sendsRem_zero, Pi.zero_apply, Finsupp.zero_apply]
  | succ n ih =>
    have hk : 7 - n < 8 := by omega
    simp only [sendsRem_succ, Pi.add_apply, Finsupp.add_apply, Finset.sum_add_distrib]
    rw [ih (by omega), sum_recv_term]
    by_cases h1 : d = fd (7 - n)
    · have h1' := (eq_fd_iff hk).mp h1
      rw [if_pos h1, if_neg (by omega), if_pos (by omega), Nat.zero_add]
    · have h1' : d.val ≠ 7 - n := fun h => h1 ((eq_fd_iff hk).mpr h)
      rw [if_neg h1, Nat.add_zero]
      by_cases h2 : 8 - n ≤ d.val
      · rw [if_pos h2, if_pos (by omega)]
      · rw [if_neg h2, if_neg (by omega)]

/-! ## The launch credit of the barrier cell and of a receive cell -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact sum_sigsRem_bar c 7

theorem launch_recv (c : Dev nD) (d : Fin 8) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same]
  have h1 : 1 ≤ d.val := Nat.pos_of_ne_zero fun h => hd (Fin.ext h)
  show (Finset.univ.sum fun e : Dev nD => sigsRem e 7 (recvCell c d) ()) = N
  rw [Finset.sum_congr rfl (fun e _ => sigsRem_recv e c d 7), sum_sendsRem_recv c d 7 (le_refl 7), if_pos (by omega)]

end Credit

/-- The launch credit of device `c`: seven units on its barrier cell, a row on each of its seven receive cells. -/
theorem creds_intro (c : Dev nD) : (Pipeline.launchCred O₀ c : sProp 𝕄) ⊢ creds c := by
  unfold Pipeline.launchCred creds
  rw [bigSep_univ_at _ (SemLoc.reg barS), Credit.launch_bar]
  refine sep_mono_right ?_
  refine (bigSep_subset (t := (Finset.univ.erase (0 : Fin 8)).image fun d : Fin 8 => (SemLoc.dma (recvS d) : SemLoc sig)) ?_).trans ?_
  · intro sm hsm
    obtain ⟨d, _, rfl⟩ := Finset.mem_image.mp hsm
    exact Finset.mem_erase.mpr ⟨Credit.recv_ne_bar d, Finset.mem_univ _⟩
  · rw [bigSep_image_of_injOn (fun a _ b _ h => Credit.recvS_inj (SemLoc.dma.inj h))]
    exact Entails.of_eq (bigSep_congr fun d hd => congrArg cred (Credit.launch_recv c d (Finset.ne_of_mem_erase hd)))

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Hand

end
-- ==== Proof.KernelIdeal.Body.lean ====
/-
  One device's body, stepped once at a symbolic device: the seven entry signals, the wait for the peers, the device's own column
  sums into row 0, the seven transfers, the seven landings, the eight rows added into the result, the seven departures, and
  the buffer and the sixteen semaphores handed back.
-/
import proofs.«901081_g7700000000001082_dist_sum_ax0_shard0_i_m1536_n768_v7x_i8_bf16_1_alg».proof.Proof.KernelIdeal.Proto
import proofs.«901081_g7700000000001082_dist_sum_ax0_shard0_i_m1536_n768_v7x_i8_bf16_1_alg».proof.Proof.KernelIdeal.Tables
import proofs.«901081_g7700000000001082_dist_sum_ax0_shard0_i_m1536_n768_v7x_i8_bf16_1_alg».proof.Proof.KernelIdeal.Rows
import proofs.«901081_g7700000000001082_dist_sum_ax0_shard0_i_m1536_n768_v7x_i8_bf16_1_alg».proof.Proof.KernelIdeal.Steps
import proofs.«901081_g7700000000001082_dist_sum_ax0_shard0_i_m1536_n768_v7x_i8_bf16_1_alg».proof.Proof.KernelIdeal.Credit

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Past a return if the program is at one, then on through the pure statements to the next effect. -/
macro "sl_next" : tactic =>
  `(tactic| ((try sl_step); first | sl_exec | simp only [Prog.lift, Prog.bind_op, Prog.bind_ret, Prog.pure_eq_ret]))

omit [FloatOps F] in
/-- A family over the seven peer offsets, one by one. -/
theorem bigSep_ne0 (Φ : Fin 8 → sProp 𝕄) : bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
/-- A family over the eight rows, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 17 → ℕ) (c : Dev nD) : sProp 𝕄 :=
  iprop((ghost m ρ K c ∗ creds c ∗ levAts L lv ∗ commAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The body from `bodyPre` to `bodyPost`. -/
theorem sound_body (K : Dev nD × Fin 17 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  sl_unfold [cc0_body]
  unfold bodyPre ghost positions payToks creds commAny
  iintro ⟨⟨⟨⟨#HR, ⟨HatB, HatS, HatV⟩, ⟨HtB, HtV, HtS⟩⟩, ⟨HcB, HcV⟩, #Hlev, ⟨%f0, Hcomm⟩⟩, Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the buffer by rows, the tokens and credits one by one
  ihave Hrows := (comm_rows c fullShare f0).1 $$ Hcomm
  ihave Hrows := (Entails.of_eq (bigSep_fin8 _)) $$ Hrows
  icases Hrows with ⟨Hr0, Hr1, Hr2, Hr3, Hr4, Hr5, Hr6, Hr7⟩
  ihave HtB := (Entails.of_eq (bigSep_ne0 _)) $$ HtB
  icases HtB with ⟨HtB1, HtB2, HtB3, HtB4, HtB5, HtB6, HtB7⟩
  sl_exec
  -- signal 1, to the next device: row 7 goes with it
  rw [show (⟨k0_dev1 (Dev.tc (τ := τ) c).1, k0_dev1_lt (Dev.tc (τ := τ) c).1⟩ : Dev nD) = peer c 1 from dev1_eq c]
  iapply (wp_sig m ρ K c 1 (by decide) 6 (by decide) (by decide) f0 W) $$ [HO HtB1 Hr7]
  · isplitr; · iexact HR
    isplitl [HO]; · iexact HO
    isplitl [HtB1]; · iexact HtB1
    iexact Hr7
  iintro HO
  sl_next
  -- signal 2: row 6 goes with it
  rw [show (⟨k0_dev2 (Dev.tc (τ := τ) c).1, k0_dev2_lt (Dev.tc (τ := τ) c).1⟩ : Dev nD) = peer c 2 from dev2_eq c]
  iapply (wp_sig m ρ K c 2 (by decide) 5 (by decide) (by decide) f0 W) $$ [HO HtB2 Hr6]
  · isplitr; · iexact HR
    isplitl [HO]; · iexact HO
    isplitl [HtB2]; · iexact HtB2
    iexact Hr6
  iintro HO
  sl_next
  -- signal 3: row 5 goes with it
  rw [show (⟨k0_dev3 (Dev.tc (τ := τ) c).1, k0_dev3_lt (Dev.tc (τ := τ) c).1⟩ : Dev nD) = peer c 3 from dev3_eq c]
  iapply (wp_sig m ρ K c 3 (by decide) 4 (by decide) (by decide) f0 W) $$ [HO HtB3 Hr5]
  · isplitr; · iexact HR
    isplitl [HO]; · iexact HO
    isplitl [HtB3]; · iexact HtB3
    iexact Hr5
  iintro HO
  sl_next
  -- signal 4: row 4 goes with it
  rw [show (⟨k0_dev4 (Dev.tc (τ := τ) c).1, k0_dev4_lt (Dev.tc (τ := τ) c).1⟩ : Dev nD) = peer c 4 from dev4_eq c]
  iapply (wp_sig m ρ K c 4 (by decide) 3 (by decide) (by decide) f0 W) $$ [HO HtB4 Hr4]
  · isplitr; · iexact HR
    isplitl [HO]; · iexact HO
    isplitl [HtB4]; · iexact HtB4
    iexact Hr4
  iintro HO
  sl_next
  -- signal 5: row 3 goes with it
  rw [show (⟨k0_dev5 (Dev.tc (τ := τ) c).1, k0_dev5_lt (Dev.tc (τ := τ) c).1⟩ : Dev nD) = peer c 5 from dev5_eq c]
  iapply (wp_sig m ρ K c 5 (by decide) 2 (by decide) (by decide) f0 W) $$ [HO HtB5 Hr3]
  · isplitr; · iexact HR
    isplitl [HO]; · iexact HO
    isplitl [HtB5]; · iexact HtB5
    iexact Hr3
  iintro HO
  sl_next
  -- signal 6: row 2 goes with it
  rw [show (⟨k0_dev6 (Dev.tc (τ := τ) c).1, k0_dev6_lt (Dev.tc (τ := τ) c).1⟩ : Dev nD) = peer c 6 from dev6_eq c]
  iapply (wp_sig m ρ K c 6 (by decide) 1 (by decide) (by decide) f0 W) $$ [HO HtB6 Hr2]
  · isplitr; · iexact HR
    isplitl [HO]; · iexact HO
    isplitl [HtB6]; · iexact HtB6
    iexact Hr2
  iintro HO
  sl_next
  -- signal 7: row 1 goes with it
  rw [show (⟨k0_dev7 (Dev.tc (τ := τ) c).1, k0_dev7_lt (Dev.tc (τ := τ) c).1⟩ : Dev nD) = peer c 7 from dev7_eq c]
  iapply (wp_sig m ρ K c 7 (by decide) 0 (by decide) (by decide) f0 W) $$ [HO HtB7 Hr1]
  · isplitr; · iexact HR
    isplitl [HO]; · iexact HO
    isplitl [HtB7]; · iexact HtB7
    iexact Hr1
  iintro HO
  sl_next
  -- the wait for the seven peers: each peer's row comes with its signal
  iapply (wp_wait_bar m ρ K c (wpE_semWait_eq 𝒱₀ (c : Thread nD τ) none Set.univ) W) $$ [HcB HO HatB]
  · isplitr; · iexact HR
    isplitl [HcB]; · iexact HcB
    isplitl [HO]; · iexact HO
    isplitr; · iapply (mayWait_bar c); iexact Hlev
    iexact HatB
  iintro ⟨HO, HatB, Hpay⟩
  ihave Hpay := (Entails.of_eq (bigSep_ne0 _)) $$ Hpay
  unfold barPay
  icases Hpay with ⟨⟨⟨%fn1, Hp1⟩, -⟩, ⟨⟨%fn2, Hp2⟩, -⟩, ⟨⟨%fn3, Hp3⟩, -⟩, ⟨⟨%fn4, Hp4⟩, -⟩, ⟨⟨%fn5, Hp5⟩, -⟩, ⟨⟨%fn6, Hp6⟩, -⟩, ⟨⟨%fn7, Hp7⟩, -⟩⟩
  try sl_step
  simp only [Prog.lift, Prog.bind_op, Prog.bind_ret, Prog.pure_eq_ret]
  -- the block of x is read whole
  iapply (wp_load 𝒱₀ (c : Thread nD τ) none Set.univ (m := xM) (Finset.subset_univ _)) $$ Hx; iintro Hx
  rw [read_x]
  -- row 0 is read, then the column sums of the block are stored into it
  ihave Hr0 := (show rowPts c 0 fullShare f0 ⊢ ((cM.access (rowR 0)).loc (c : Thread nD τ) ↦[(rowM 0 : Memref sig .tc .vmem S1x768 .f32).view.set]{fullShare} f0) from Entails.of_eq rfl) $$ Hr0
  iapply (wp_load_rect 𝒱₀ (c : Thread nD τ) none Set.univ (m := cM) (r := rowR 0) (S := (rowM 0 : Memref sig .tc .vmem S1x768 .f32).view.set) (subset_of_eq rfl)) $$ Hr0; iintro Hr0
  iapply (wp_store 𝒱₀ (c : Thread nD τ) none Set.univ (m := cM) (r := rowR 0) (Mk := Finset.univ) (S := (rowM 0 : Memref sig .tc .vmem S1x768 .f32).view.set) (subset_of_eq rfl)) $$ Hr0; iintro Hr0
  ihave Hr0 := (show ((cM.access (rowR 0)).loc (c : Thread nD τ) ↦[(rowM 0 : Memref sig .tc .vmem S1x768 .f32).view.set]{fullShare} ((cM.access (rowR 0)).write (Elt F) f0 (k0_pay1 (xstg m ρ c)) Finset.univ)) ⊢ rowPts c 0 fullShare (commFinal m ρ c) from
    Entails.of_eq (rowPts_congr c 0 fullShare (fun j => stored_row0 m ρ c f0 j))) $$ Hr0
  -- row 0 by shares: the left half is kept, the right half goes to the seven transfers
  ihave Hh := (rowPts_halves c 0 fullShare (commFinal m ρ c)).1 $$ Hr0
  icases Hh with ⟨Hk0, Hright⟩
  ihave Hs := (row0_shares c (commFinal m ρ c)).1 $$ Hright
  ihave Hs := (Entails.of_eq (bigSep_ne0 _)) $$ Hs
  icases Hs with ⟨Hs1, Hs2, Hs3, Hs4, Hs5, Hs6, Hs7⟩
  ihave HtS := (Entails.of_eq (bigSep_ne0 _)) $$ HtS
  icases HtS with ⟨HtS1, HtS2, HtS3, HtS4, HtS5, HtS6, HtS7⟩
  ihave HtV := (Entails.of_eq (bigSep_ne0 _)) $$ HtV
  icases HtV with ⟨HtV1, HtV2, HtV3, HtV4, HtV5, HtV6, HtV7⟩
  -- transfer 1: row 0 into row 1 of the device 1 places on
  iapply (wp_send_row m ρ K c _ 1 (by decide) (dev8_eq c) 6 (by decide) fn1 _) $$ [Hs1 Hp1 HO HtS1 HtV1]
  · isplitr; · iexact HR
    isplitl [Hs1]; · iexact Hs1
    isplitl [Hp1]; · iexact Hp1
    isplitl [HO]; · iexact HO
    isplitl [HtS1]; · iexact HtS1
    iexact HtV1
  iintro ⟨HcS1, HO⟩
  sl_next
  -- transfer 2: row 0 into row 2 of the device 2 places on
  iapply (wp_send_row m ρ K c _ 2 (by decide) (dev9_eq c) 5 (by decide) fn2 _) $$ [Hs2 Hp2 HO HtS2 HtV2]
  · isplitr; · iexact HR
    isplitl [Hs2]; · iexact Hs2
    isplitl [Hp2]; · iexact Hp2
    isplitl [HO]; · iexact HO
    isplitl [HtS2]; · iexact HtS2
    iexact HtV2
  iintro ⟨HcS2, HO⟩
  sl_next
  -- transfer 3: row 0 into row 3 of the device 3 places on
  iapply (wp_send_row m ρ K c _ 3 (by decide) (dev10_eq c) 4 (by decide) fn3 _) $$ [Hs3 Hp3 HO HtS3 HtV3]
  · isplitr; · iexact HR
    isplitl [Hs3]; · iexact Hs3
    isplitl [Hp3]; · iexact Hp3
    isplitl [HO]; · iexact HO
    isplitl [HtS3]; · iexact HtS3
    iexact HtV3
  iintro ⟨HcS3, HO⟩
  sl_next
  -- transfer 4: row 0 into row 4 of the device 4 places on
  iapply (wp_send_row m ρ K c _ 4 (by decide) (dev11_eq c) 3 (by decide) fn4 _) $$ [Hs4 Hp4 HO HtS4 HtV4]
  · isplitr; · iexact HR
    isplitl [Hs4]; · iexact Hs4
    isplitl [Hp4]; · iexact Hp4
    isplitl [HO]; · iexact HO
    isplitl [HtS4]; · iexact HtS4
    iexact HtV4
  iintro ⟨HcS4, HO⟩
  sl_next
  -- transfer 5: row 0 into row 5 of the device 5 places on
  iapply (wp_send_row m ρ K c _ 5 (by decide) (dev12_eq c) 2 (by decide) fn5 _) $$ [Hs5 Hp5 HO HtS5 HtV5]
  · isplitr; · iexact HR
    isplitl [Hs5]; · iexact Hs5
    isplitl [Hp5]; · iexact Hp5
    isplitl [HO]; · iexact HO
    isplitl [HtS5]; · iexact HtS5
    iexact HtV5
  iintro ⟨HcS5, HO⟩
  sl_next
  -- transfer 6: row 0 into row 6 of the device 6 places on
  iapply (wp_send_row m ρ K c _ 6 (by decide) (dev13_eq c) 1 (by decide) fn6 _) $$ [Hs6 Hp6 HO HtS6 HtV6]
  · isplitr; · iexact HR
    isplitl [Hs6]; · iexact Hs6
    isplitl [Hp6]; · iexact Hp6
    isplitl [HO]; · iexact HO
    isplitl [HtS6]; · iexact HtS6
    iexact HtV6
  iintro ⟨HcS6, HO⟩
  sl_next
  -- transfer 7: row 0 into row 7 of the device 7 places on
  iapply (wp_send_row m ρ K c _ 7 (by decide) (dev14_eq c) 0 (by decide) fn7 _) $$ [Hs7 Hp7 HO HtS7 HtV7]
  · isplitr; · iexact HR
    isplitl [Hs7]; · iexact Hs7
    isplitl [Hp7]; · iexact Hp7
    isplitl [HO]; · iexact HO
    isplitl [HtS7]; · iexact HtS7
    iexact HtV7
  iintro ⟨HcS7, HO⟩
  sl_next
  -- the positions and the credits one by one
  ihave HatS := (Entails.of_eq (bigSep_fin8 _)) $$ HatS
  icases HatS with ⟨HatS0, HatS1, HatS2, HatS3, HatS4, HatS5, HatS6, HatS7⟩
  ihave HatV := (Entails.of_eq (bigSep_fin8 _)) $$ HatV
  icases HatV with ⟨HatV0, HatV1, HatV2, HatV3, HatV4, HatV5, HatV6, HatV7⟩
  ihave HcV := (Entails.of_eq (bigSep_ne0 _)) $$ HcV
  icases HcV with ⟨HcV1, HcV2, HcV3, HcV4, HcV5, HcV6, HcV7⟩
  -- the landing in row 1
  iapply (wp_wait_recv m ρ K c 1 (by decide) (fun Kt => wpE_waitDma2_eq 𝒱₀ (c : Thread nD τ) none Set.univ (src := rowM 0) (dst := rowM 1) Kt) _) $$ [HcV1 HO HatV1]
  · isplitr; · iexact HR
    isplitl [HcV1]; · iexact HcV1
    isplitl [HO]; · iexact HO
    iexact HatV1
  iintro ⟨HO, HatV1, Hr1⟩
  sl_next
  -- the landing in row 2
  iapply (wp_wait_recv m ρ K c 2 (by decide) (fun Kt => wpE_waitDma2_eq 𝒱₀ (c : Thread nD τ) none Set.univ (src := rowM 0) (dst := rowM 2) Kt) _) $$ [HcV2 HO HatV2]
  · isplitr; · iexact HR
    isplitl [HcV2]; · iexact HcV2
    isplitl [HO]; · iexact HO
    iexact HatV2
  iintro ⟨HO, HatV2, Hr2⟩
  sl_next
  -- the landing in row 3
  iapply (wp_wait_recv m ρ K c 3 (by decide) (fun Kt => wpE_waitDma2_eq 𝒱₀ (c : Thread nD τ) none Set.univ (src := rowM 0) (dst := rowM 3) Kt) _) $$ [HcV3 HO HatV3]
  · isplitr; · iexact HR
    isplitl [HcV3]; · iexact HcV3
    isplitl [HO]; · iexact HO
    iexact HatV3
  iintro ⟨HO, HatV3, Hr3⟩
  sl_next
  -- the landing in row 4
  iapply (wp_wait_recv m ρ K c 4 (by decide) (fun Kt => wpE_waitDma2_eq 𝒱₀ (c : Thread nD τ) none Set.univ (src := rowM 0) (dst := rowM 4) Kt) _) $$ [HcV4 HO HatV4]
  · isplitr; · iexact HR
    isplitl [HcV4]; · iexact HcV4
    isplitl [HO]; · iexact HO
    iexact HatV4
  iintro ⟨HO, HatV4, Hr4⟩
  sl_next
  -- the landing in row 5
  iapply (wp_wait_recv m ρ K c 5 (by decide) (fun Kt => wpE_waitDma2_eq 𝒱₀ (c : Thread nD τ) none Set.univ (src := rowM 0) (dst := rowM 5) Kt) _) $$ [HcV5 HO HatV5]
  · isplitr; · iexact HR
    isplitl [HcV5]; · iexact HcV5
    isplitl [HO]; · iexact HO
    iexact HatV5
  iintro ⟨HO, HatV5, Hr5⟩
  sl_next
  -- the landing in row 6
  iapply (wp_wait_recv m ρ K c 6 (by decide) (fun Kt => wpE_waitDma2_eq 𝒱₀ (c : Thread nD τ) none Set.univ (src := rowM 0) (dst := rowM 6) Kt) _) $$ [HcV6 HO HatV6]
  · isplitr; · iexact HR
    isplitl [HcV6]; · iexact HcV6
    isplitl [HO]; · iexact HO
    iexact HatV6
  iintro ⟨HO, HatV6, Hr6⟩
  sl_next
  -- the landing in row 7
  iapply (wp_wait_recv m ρ K c 7 (by decide) (fun Kt => wpE_waitDma2_eq 𝒱₀ (c : Thread nD τ) none Set.univ (src := rowM 0) (dst := rowM 7) Kt) _) $$ [HcV7 HO HatV7]
  · isplitr; · iexact HR
    isplitl [HcV7]; · iexact HcV7
    isplitl [HO]; · iexact HO
    iexact HatV7
  iintro ⟨HO, HatV7, Hr7⟩
  try sl_step
  simp only [Prog.lift, Prog.bind_op, Prog.bind_ret, Prog.pure_eq_ret]
  -- rows 1 to 7 by halves: with the kept half of row 0 the left halves are the whole buffer at that share, which the load of all eight rows reads
  ihave Hh := (rowPts_halves c 1 fullShare (commFinal m ρ c)).1 $$ Hr1
  icases Hh with ⟨Hl1, Hrr1⟩
  ihave Hh := (rowPts_halves c 2 fullShare (commFinal m ρ c)).1 $$ Hr2
  icases Hh with ⟨Hl2, Hrr2⟩
  ihave Hh := (rowPts_halves c 3 fullShare (commFinal m ρ c)).1 $$ Hr3
  icases Hh with ⟨Hl3, Hrr3⟩
  ihave Hh := (rowPts_halves c 4 fullShare (commFinal m ρ c)).1 $$ Hr4
  icases Hh with ⟨Hl4, Hrr4⟩
  ihave Hh := (rowPts_halves c 5 fullShare (commFinal m ρ c)).1 $$ Hr5
  icases Hh with ⟨Hl5, Hrr5⟩
  ihave Hh := (rowPts_halves c 6 fullShare (commFinal m ρ c)).1 $$ Hr6
  icases Hh with ⟨Hl6, Hrr6⟩
  ihave Hh := (rowPts_halves c 7 fullShare (commFinal m ρ c)).1 $$ Hr7
  icases Hh with ⟨Hl7, Hrr7⟩
  ihave Hall := (Entails.of_eq (bigSep_fin8 (fun d : Fin 8 => rowPts c d keptShare (commFinal m ρ c))).symm) $$ [Hk0 Hl1 Hl2 Hl3 Hl4 Hl5 Hl6 Hl7]
  ·
    isplitl [Hk0]; · iexact Hk0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hall := (comm_rows c keptShare (commFinal m ρ c)).2 $$ Hall
  iapply (wp_load 𝒱₀ (c : Thread nD τ) none Set.univ (m := cM) (Finset.subset_univ _)) $$ Hall; iintro Hall
  rw [read_comm]
  -- the eight rows added are stored into the result
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out]
  sl_next
  -- the departure of transfer 1
  iapply (wp_wait_send m ρ K c 1 (by decide) (fun Kt => wpE_waitDma2_eq 𝒱₀ (c : Thread nD τ) none Set.univ (src := rowM 1) (dst := rowM 0) Kt) _) $$ [HcS1 HO HatS1]
  · isplitr; · iexact HR
    isplitl [HcS1]; · iexact HcS1
    isplitl [HO]; · iexact HO
    iexact HatS1
  iintro ⟨HO, HatS1, Hs1⟩
  sl_next
  -- the departure of transfer 2
  iapply (wp_wait_send m ρ K c 2 (by decide) (fun Kt => wpE_waitDma2_eq 𝒱₀ (c : Thread nD τ) none Set.univ (src := rowM 2) (dst := rowM 0) Kt) _) $$ [HcS2 HO HatS2]
  · isplitr; · iexact HR
    isplitl [HcS2]; · iexact HcS2
    isplitl [HO]; · iexact HO
    iexact HatS2
  iintro ⟨HO, HatS2, Hs2⟩
  sl_next
  -- the departure of transfer 3
  iapply (wp_wait_send m ρ K c 3 (by decide) (fun Kt => wpE_waitDma2_eq 𝒱₀ (c : Thread nD τ) none Set.univ (src := rowM 3) (dst := rowM 0) Kt) _) $$ [HcS3 HO HatS3]
  · isplitr; · iexact HR
    isplitl [HcS3]; · iexact HcS3
    isplitl [HO]; · iexact HO
    iexact HatS3
  iintro ⟨HO, HatS3, Hs3⟩
  sl_next
  -- the departure of transfer 4
  iapply (wp_wait_send m ρ K c 4 (by decide) (fun Kt => wpE_waitDma2_eq 𝒱₀ (c : Thread nD τ) none Set.univ (src := rowM 4) (dst := rowM 0) Kt) _) $$ [HcS4 HO HatS4]
  · isplitr; · iexact HR
    isplitl [HcS4]; · iexact HcS4
    isplitl [HO]; · iexact HO
    iexact HatS4
  iintro ⟨HO, HatS4, Hs4⟩
  sl_next
  -- the departure of transfer 5
  iapply (wp_wait_send m ρ K c 5 (by decide) (fun Kt => wpE_waitDma2_eq 𝒱₀ (c : Thread nD τ) none Set.univ (src := rowM 5) (dst := rowM 0) Kt) _) $$ [HcS5 HO HatS5]
  · isplitr; · iexact HR
    isplitl [HcS5]; · iexact HcS5
    isplitl [HO]; · iexact HO
    iexact HatS5
  iintro ⟨HO, HatS5, Hs5⟩
  sl_next
  -- the departure of transfer 6
  iapply (wp_wait_send m ρ K c 6 (by decide) (fun Kt => wpE_waitDma2_eq 𝒱₀ (c : Thread nD τ) none Set.univ (src := rowM 6) (dst := rowM 0) Kt) _) $$ [HcS6 HO HatS6]
  · isplitr; · iexact HR
    isplitl [HcS6]; · iexact HcS6
    isplitl [HO]; · iexact HO
    iexact HatS6
  iintro ⟨HO, HatS6, Hs6⟩
  sl_next
  -- the departure of transfer 7
  iapply (wp_wait_send m ρ K c 7 (by decide) (fun Kt => wpE_waitDma2_eq 𝒱₀ (c : Thread nD τ) none Set.univ (src := rowM 7) (dst := rowM 0) Kt) _) $$ [HcS7 HO HatS7]
  · isplitr; · iexact HR
    isplitl [HcS7]; · iexact HcS7
    isplitl [HO]; · iexact HO
    iexact HatS7
  iintro ⟨HO, HatS7, Hs7⟩
  -- the buffer put together again: row 0's shares, then each row's halves, then the rows
  ihave Hrows := (comm_rows c keptShare (commFinal m ρ c)).1 $$ Hall
  ihave Hrows := (Entails.of_eq (bigSep_fin8 _)) $$ Hrows
  icases Hrows with ⟨Hl0, Hl1, Hl2, Hl3, Hl4, Hl5, Hl6, Hl7⟩
  ihave Hrr0 := (Entails.of_eq (bigSep_ne0 (fun d : Fin 8 => rowPts c 0 (sendShare d) (commFinal m ρ c))).symm) $$ [Hs1 Hs2 Hs3 Hs4 Hs5 Hs6 Hs7]
  ·
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  ihave Hrr0 := (row0_shares c (commFinal m ρ c)).2 $$ Hrr0
  ihave Hr0 := (rowPts_halves c 0 fullShare (commFinal m ρ c)).2 $$ [Hl0 Hrr0]
  · isplitl [Hl0]; · iexact Hl0
    iexact Hrr0
  ihave Hr1 := (rowPts_halves c 1 fullShare (commFinal m ρ c)).2 $$ [Hl1 Hrr1]
  · isplitl [Hl1]; · iexact Hl1
    iexact Hrr1
  ihave Hr2 := (rowPts_halves c 2 fullShare (commFinal m ρ c)).2 $$ [Hl2 Hrr2]
  · isplitl [Hl2]; · iexact Hl2
    iexact Hrr2
  ihave Hr3 := (rowPts_halves c 3 fullShare (commFinal m ρ c)).2 $$ [Hl3 Hrr3]
  · isplitl [Hl3]; · iexact Hl3
    iexact Hrr3
  ihave Hr4 := (rowPts_halves c 4 fullShare (commFinal m ρ c)).2 $$ [Hl4 Hrr4]
  · isplitl [Hl4]; · iexact Hl4
    iexact Hrr4
  ihave Hr5 := (rowPts_halves c 5 fullShare (commFinal m ρ c)).2 $$ [Hl5 Hrr5]
  · isplitl [Hl5]; · iexact Hl5
    iexact Hrr5
  ihave Hr6 := (rowPts_halves c 6 fullShare (commFinal m ρ c)).2 $$ [Hl6 Hrr6]
  · isplitl [Hl6]; · iexact Hl6
    iexact Hrr6
  ihave Hr7 := (rowPts_halves c 7 fullShare (commFinal m ρ c)).2 $$ [Hl7 Hrr7]
  · isplitl [Hl7]; · iexact Hl7
    iexact Hrr7
  ihave Hcomm := (Entails.of_eq (bigSep_fin8 (fun d : Fin 8 => rowPts c d fullShare (commFinal m ρ c))).symm) $$ [Hr0 Hr1 Hr2 Hr3 Hr4 Hr5 Hr6 Hr7]
  ·
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hcomm := (comm_rows c fullShare (commFinal m ρ c)).2 $$ Hcomm
  -- the sixteen own cells close: their counters at zero are the core's again
  imod (close_send m ρ K c 0) $$ [HatS0] with HzS0
  · isplitr; · iexact HR
    iexact HatS0
  imod (close_recv m ρ K c 0) $$ [HatV0] with HzV0
  · isplitr; · iexact HR
    iexact HatV0
  imod (close_send m ρ K c 1) $$ [HatS1] with HzS1
  · isplitr; · iexact HR
    iexact HatS1
  imod (close_recv m ρ K c 1) $$ [HatV1] with HzV1
  · isplitr; · iexact HR
    iexact HatV1
  imod (close_send m ρ K c 2) $$ [HatS2] with HzS2
  · isplitr; · iexact HR
    iexact HatS2
  imod (close_recv m ρ K c 2) $$ [HatV2] with HzV2
  · isplitr; · iexact HR
    iexact HatV2
  imod (close_send m ρ K c 3) $$ [HatS3] with HzS3
  · isplitr; · iexact HR
    iexact HatS3
  imod (close_recv m ρ K c 3) $$ [HatV3] with HzV3
  · isplitr; · iexact HR
    iexact HatV3
  imod (close_send m ρ K c 4) $$ [HatS4] with HzS4
  · isplitr; · iexact HR
    iexact HatS4
  imod (close_recv m ρ K c 4) $$ [HatV4] with HzV4
  · isplitr; · iexact HR
    iexact HatV4
  imod (close_send m ρ K c 5) $$ [HatS5] with HzS5
  · isplitr; · iexact HR
    iexact HatS5
  imod (close_recv m ρ K c 5) $$ [HatV5] with HzV5
  · isplitr; · iexact HR
    iexact HatV5
  imod (close_send m ρ K c 6) $$ [HatS6] with HzS6
  · isplitr; · iexact HR
    iexact HatS6
  imod (close_recv m ρ K c 6) $$ [HatV6] with HzV6
  · isplitr; · iexact HR
    iexact HatV6
  imod (close_send m ρ K c 7) $$ [HatS7] with HzS7
  · isplitr; · iexact HR
    iexact HatS7
  imod (close_recv m ρ K c 7) $$ [HatV7] with HzV7
  · isplitr; · iexact HR
    iexact HatV7
  sl_step
  iapply Hk
  unfold bodyPost Φ₁ commAny Dat.owesAt Pipeline.owesWithin
  rw [show (dats m ρ 0 c).owed t₀.succ = 0 from rfl]
  isplitl [Hcomm HzS0 HzS1 HzS2 HzS3 HzS4 HzS5 HzS6 HzS7 HzV0 HzV1 HzV2 HzV3 HzV4 HzV5 HzV6 HzV7]
  · isplitl [Hcomm]; · iexists _; iexact Hcomm
    isplitl [HzS0 HzS1 HzS2 HzS3 HzS4 HzS5 HzS6 HzS7]
    · iapply (Entails.of_eq (bigSep_fin8 (fun d : Fin 8 => (semVal (sendCell c d) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    · iapply (Entails.of_eq (bigSep_fin8 (fun d : Fin 8 => (semVal (recvCell c d) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      iexact HzV7
  isplitl [HO]
  · iexists (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (recvS 7), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Hand

end
-- ==== Proof.KernelIdeal.Fund.lean ====
/-
  The ghost state of the rounds at launch: every device's seventeen cells opened at round 0 and every duty's token minted,
  the cells' invariants allocated for all devices at once, and the tokens dealt to the devices that pay with them.
-/
import proofs.«901081_g7700000000001082_dist_sum_ax0_shard0_i_m1536_n768_v7x_i8_bf16_1_alg».proof.Proof.KernelIdeal.Proto
import proofs.«901081_g7700000000001082_dist_sum_ax0_shard0_i_m1536_n768_v7x_i8_bf16_1_alg».proof.Proof.KernelIdeal.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens are listed without repetition -/

/-- A semaphore's number among a device's cells: the barrier 0, a DMA semaphore its index plus one. -/
private def semKey : SemLoc sig → ℕ
  | .reg _ => 0
  | .dma q => q.val + 1

private theorem csem_key (k : Fin 17) : semKey (csem k) = if k.val = 0 then 0 else k.val + 2 := by revert k; decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 := congrArg semKey h2
  rw [csem_key, csem_key] at h3
  have hk := k.isLt
  have hk' := k'.isLt
  have : k = k' := Fin.ext (by split_ifs at h3 <;> omega)
  subst this; rfl
def ringCells : Finset (GSem nD τ sig) := Finset.univ.map ⟨kcell, kcell_injective⟩

/-- A device's own cells' duty tokens as minted: its barrier's duties 1..7, then its seven send cells' and its seven receive cells' duty 0. -/
def tokOf (cj : Dev nD × Fin 21) : GSem nD τ sig × ℕ × Fin 8 :=
  if cj.2.val < 7 then (barCell cj.1, 0, fd (cj.2.val + 1))
  else if cj.2.val < 14 then (sendCell cj.1 (fd (cj.2.val - 6)), 0, 0)
  else (recvCell cj.1 (fd (cj.2.val - 13)), 0, 0)

/-- The cell's number and the duty's name tell the twenty-one tokens of a device apart. -/
private theorem tokOf_key (c : Dev nD) (j : Fin 21) :
    semKey (tokOf (c, j)).1.2 + 32 * (tokOf (c, j)).2.2.val
      = if j.val < 7 then 32 * (j.val + 1) else if j.val < 14 then j.val - 3 else j.val - 2 := by revert c j; decide
private theorem tokOf_dev (c : Dev nD) (j : Fin 21) : (tokOf (c, j)).1.1.1 = c := by
  unfold tokOf; split_ifs <;> rfl

theorem tokOf_injective : Function.Injective (tokOf : Dev nD × Fin 21 → GSem nD τ sig × ℕ × Fin 8) := by
  rintro ⟨c, j⟩ ⟨c', j'⟩ h
  have h1 : (tokOf (c, j)).1.1.1 = (tokOf (c', j')).1.1.1 := congrArg (fun x : GSem nD τ sig × ℕ × Fin 8 => x.1.1.1) h
  rw [tokOf_dev, tokOf_dev] at h1
  subst h1
  have h2 : semKey (tokOf (c, j)).1.2 + 32 * (tokOf (c, j)).2.2.val = semKey (tokOf (c, j')).1.2 + 32 * (tokOf (c, j')).2.2.val :=
    congrArg (fun x : GSem nD τ sig × ℕ × Fin 8 => semKey x.1.2 + 32 * x.2.2.val) h
  rw [tokOf_key, tokOf_key] at h2
  have hj := j.isLt
  have hj' := j'.isLt
  have : j = j' := Fin.ext (by split_ifs at h2 <;> omega)
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun e : Fin 8 => dutyTok ER (barCell c) 0 e)
    ∗ (bigSep (Finset.univ.erase 0) fun d : Fin 8 => dutyTok ER (sendCell c d) 0 0)
    ∗ bigSep (Finset.univ.erase 0) fun d : Fin 8 => dutyTok ER (recvCell c d) 0 0)

/-- What the launch element deals device `c`. -/
def G (c : Dev nD) : sProp 𝕄 :=
  iprop((bigSep Finset.univ fun k : Fin 17 => roundState ER (Rd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

/-! ## Sums over the index types, as chains -/

/-- The chain over two lists joined is the two chains. -/
private theorem chain_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    exact equiv_iff.mp ⟨Idealize.SL.BI.sep_assoc', Idealize.SL.BI.sep_assoc⟩

private theorem univ8_chain (Φ : Fin 8 → sProp 𝕄) : bigSep Finset.univ Φ = bigSepL [0, 1, 2, 3, 4, 5, 6, 7] Φ :=
  bigSep_univ_eq_bigSepL _ (by decide) (by decide) Φ
private theorem erase0_chain (Φ : Fin 8 → sProp 𝕄) : bigSep (Finset.univ.erase 0) Φ = bigSepL [1, 2, 3, 4, 5, 6, 7] Φ :=
  bigSep_eq_bigSepL_of_eq _ (by decide) (by decide) Φ
private theorem univ17_chain (Φ : Fin 17 → sProp 𝕄) :
    bigSep Finset.univ Φ = bigSepL [0, 1, 2, 3, 4, 5, 6, 7, 8, 9, 10, 11, 12, 13, 14, 15, 16] Φ :=
  bigSep_univ_eq_bigSepL _ (by decide) (by decide) Φ
private theorem univ21_chain (Φ : Fin 21 → sProp 𝕄) :
    bigSep Finset.univ Φ = bigSepL [0, 1, 2, 3, 4, 5, 6, 7, 8, 9, 10, 11, 12, 13, 14, 15, 16, 17, 18, 19, 20] Φ :=
  bigSep_univ_eq_bigSepL _ (by decide) (by decide) Φ

/-- A sum over a device's seventeen cells is the barrier's summand, the eight send cells' and the eight receive cells'. -/
private theorem cells_split (c : Dev nD) (Φ : GSem nD τ sig → sProp 𝕄) :
    (bigSep Finset.univ fun k : Fin 17 => Φ (kcell (c, k)))
      = iprop(Φ (barCell c) ∗ (bigSep Finset.univ fun d : Fin 8 => Φ (sendCell c d)) ∗ bigSep Finset.univ fun d : Fin 8 => Φ (recvCell c d)) := by
  rw [univ17_chain (F := F), univ8_chain (F := F), univ8_chain (F := F)]
  show (bigSepL (([0] : List (Fin 17)) ++ ([1, 2, 3, 4, 5, 6, 7, 8] ++ [9, 10, 11, 12, 13, 14, 15, 16])) _ : sProp 𝕄) = _
  rw [chain_append (F := F), chain_append (F := F)]
  rfl

/-- The twenty-one tokens minted for a device are its own cells' tokens. -/
private theorem toks_chain (c : Dev nD) :
    (bigSep Finset.univ fun j : Fin 21 => (dutyTok ER (tokOf (c, j)).1 (tokOf (c, j)).2.1 (tokOf (c, j)).2.2 : sProp 𝕄)) = toks c := by
  unfold toks
  rw [univ21_chain (F := F), erase0_chain (F := F), erase0_chain (F := F), erase0_chain (F := F)]
  show (bigSepL (([0, 1, 2, 3, 4, 5, 6] : List (Fin 21)) ++ ([7, 8, 9, 10, 11, 12, 13] ++ [14, 15, 16, 17, 18, 19, 20])) _ : sProp 𝕄) = _
  rw [chain_append (F := F), chain_append (F := F)]
  rfl

/-! ## The launch element -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_chain c
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSemFacts : Pipeline.OwnSemFacts cfg0.spec osem := by decide

/-- The sixteen DMA semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ bigSep Finset.univ fun d : Fin 8 => semVal (recvCell c d) 0) := by
  rw [Pipeline.ownSems0_eq_of_list c osem [0, 1, 2, 3, 4, 5, 6, 7, 8, 9, 10, 11, 12, 13, 14, 15] (by decide) (by decide), univ8_chain (F := F), univ8_chain (F := F)]
  show (bigSepL (([0, 1, 2, 3, 4, 5, 6, 7] : List (Fin 16)) ++ [8, 9, 10, 11, 12, 13, 14, 15]) _ : sProp 𝕄) = _
  rw [chain_append (F := F)]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's seventeen counters at zero. -/
private theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, cells_split c (fun g => (semVal g 0 : sProp 𝕄))]
  iintro ⟨⟨HS, HV⟩, HB⟩
  isplitl [HB]; · iexact HB
  isplitl [HS] <;> iassumption

/-! ## The global step -/

/-- Every cell of a device gets its invariant, at some name. -/
private theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_all (F := F) c) $$ [Hos Hus]
  · isplitl [Hos] <;> iassumption
  imod (show iprop((bigSep Finset.univ fun k : Fin 17 => semVal (kcell (c, k)) 0) ∗ bigSep Finset.univ fun k : Fin 17 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A sum over the pairs (device, offset other than 0) may be summed along a bijection of the pairs that keeps the offsets other than 0. -/
private theorem deal_along (f : Dev nD → Fin 8 → Dev nD) (g : Fin 8 → Fin 8) (e : Dev nD × Fin 8 ≃ Dev nD × Fin 8)
    (he : ∀ c d, e (c, d) = (f c d, g d)) (hg : ∀ d, g d ≠ 0 ↔ d ≠ 0) (Φ : Dev nD → Fin 8 → sProp 𝕄) :
    (bigSep Finset.univ fun c : Dev nD => bigSep (Finset.univ.erase 0) fun d : Fin 8 => Φ c d)
      = bigSep Finset.univ fun c : Dev nD => bigSep (Finset.univ.erase 0) fun d : Fin 8 => Φ (f c d) (g d) := by
  have h (Ψ : Fin 8 → sProp 𝕄) : bigSep (Finset.univ.erase 0) Ψ = bigSep Finset.univ fun d : Fin 8 => if d ≠ 0 then Ψ d else BI.emp := by
    rw [← Finset.filter_ne' Finset.univ (0 : Fin 8), bigSep_filter]
  calc (bigSep Finset.univ fun c : Dev nD => bigSep (Finset.univ.erase 0) fun d : Fin 8 => Φ c d)
      = bigSep Finset.univ fun c : Dev nD => bigSep Finset.univ fun d : Fin 8 => if d ≠ 0 then Φ c d else BI.emp := bigSep_congr fun c _ => h _
    _ = bigSep Finset.univ fun p : Dev nD × Fin 8 => if p.2 ≠ 0 then Φ p.1 p.2 else BI.emp :=
        (bigSep_univ_prod (fun p : Dev nD × Fin 8 => if p.2 ≠ 0 then Φ p.1 p.2 else BI.emp)).symm
    _ = bigSep Finset.univ fun p : Dev nD × Fin 8 => if (e p).2 ≠ 0 then Φ (e p).1 (e p).2 else BI.emp :=
        bigSep_univ_equiv e (fun p : Dev nD × Fin 8 => if p.2 ≠ 0 then Φ p.1 p.2 else BI.emp)
    _ = bigSep Finset.univ fun p : Dev nD × Fin 8 => if p.2 ≠ 0 then Φ (f p.1 p.2) (g p.2) else BI.emp :=
        bigSep_congr fun p _ => by
          obtain ⟨c, d⟩ := p
          rw [he c d]
          exact if_congr (hg d) rfl rfl
    _ = bigSep Finset.univ fun c : Dev nD => bigSep Finset.univ fun d : Fin 8 => if d ≠ 0 then Φ (f c d) (g d) else BI.emp :=
        bigSep_univ_prod (fun p : Dev nD × Fin 8 => if p.2 ≠ 0 then Φ (f p.1 p.2) (g p.2) else BI.emp)
    _ = bigSep Finset.univ fun c : Dev nD => bigSep (Finset.univ.erase 0) fun d : Fin 8 => Φ (f c d) (g d) :=
        bigSep_congr fun c _ => (h _).symm

/-- Offset `d` from `c` and back by the opposite offset: an involution of the pairs. -/
private def barDeal : Dev nD × Fin 8 ≃ Dev nD × Fin 8 where
  toFun p := (peer p.1 p.2, opp p.2)
  invFun p := (peer p.1 p.2, opp p.2)
  left_inv p := Prod.ext (peer_peer_opp p.1 p.2) (opp_opp p.2)
  right_inv p := Prod.ext (peer_peer_opp p.1 p.2) (opp_opp p.2)
/-- Offset `d` from `c`, the offset kept: undone by going `d` places back. -/
private def recvDeal : Dev nD × Fin 8 ≃ Dev nD × Fin 8 where
  toFun p := (peer p.1 p.2, p.2)
  invFun p := (src p.1 p.2, p.2)
  left_inv p := Prod.ext (src_peer p.1 p.2) rfl
  right_inv p := Prod.ext (peer_src p.1 p.2) rfl

private theorem opp_ne_zero_iff (d : Fin 8) : opp d ≠ 0 ↔ d ≠ 0 := by revert d; decide

/-- The tokens dealt to the devices that pay with them: duty `e` of `g`'s barrier cell to `peer g e`, whose signal `opp e` pays it; the duty of
    `g`'s receive cell of row `d` to the device `d` places before `g`; the send cells' duties stay. -/
private theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_along (fun c d => peer c d) opp barDeal (fun _ _ => rfl) opp_ne_zero_iff (fun (c : Dev nD) (e : Fin 8) => (dutyTok ER (barCell c) 0 e : sProp 𝕄)),
    deal_along (fun c d => peer c d) (fun d => d) recvDeal (fun _ _ => rfl) (fun _ => Iff.rfl) (fun (c : Dev nD) (d : Fin 8) => (dutyTok ER (recvCell c d) 0 0 : sProp 𝕄))]
  iintro ⟨H1, H2, H3⟩
  isplitl [H1]; · iexact H1
  isplitl [H3]; · iexact H3
  iexact H2

private theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem ghost_of_records (K : Dev nD × Fin 17 → ℕ) (c : Dev nD) : iprop(records m ρ K ∗ positions c ∗ payToks c) ⊢ G' m ρ c := by
  unfold G' ghost
  iintro H
  iexists K
  iexact H

/-- All devices' invariants, positions and tokens, regrouped: the names chosen, the records shared, the tokens dealt. -/
private theorem regroup_all :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (Rd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m ρ) κ (kcell ck) : sProp 𝕄))) $$ HI
  icases HK with ⟨%K, #HI⟩
  ihave Htk := (toks_around (F := F)) $$ Htok
  haveI : BI.Persistent (records m ρ K) := by unfold records; infer_instance
  iapply (with_persistent (R := records m ρ K) fun c _ => ghost_of_records m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ iprop(positions c ∗ payToks c) from Entails.of_eq (by unfold positions; rw [cells_split c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup_all m ρ))

end Cert.KernelIdeal.Hand

end
-- ==== Proof.KernelIdeal.Launch.lean ====
/-
  The launch: from every device's body to the run of the whole program on the eight devices, and what each device's arrays
  hold at the end: the block of x unchanged, the result the eight rows added.
-/
import proofs.«901081_g7700000000001082_dist_sum_ax0_shard0_i_m1536_n768_v7x_i8_bf16_1_alg».proof.Proof.KernelIdeal.Proto
import proofs.«901081_g7700000000001082_dist_sum_ax0_shard0_i_m1536_n768_v7x_i8_bf16_1_alg».proof.Proof.KernelIdeal.Body
import proofs.«901081_g7700000000001082_dist_sum_ax0_shard0_i_m1536_n768_v7x_i8_bf16_1_alg».proof.Proof.KernelIdeal.Fund
import proofs.«901081_g7700000000001082_dist_sum_ax0_shard0_i_m1536_n768_v7x_i8_bf16_1_alg».proof.Proof.KernelIdeal.Credit

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at given contents is the buffer held at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The two windows conjoined one by one. -/
theorem bigSep_W (Φ : Fin cfg0.W → sProp 𝕄) : bigSep Finset.univ Φ = iprop(Φ (0 : Fin 2) ∗ Φ (1 : Fin 2)) := bigSep_W0 Φ

/-- The body obligation's precondition at the one point: what the body starts from with the communication buffer, what is
    owed, and the two staging buffers. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := by
  intro t
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ commAny
  iintro ⟨Hr, HzS, HzV⟩
  isplitr; · iempintro
  isplitl [HzS HzV]
  · isplitl [HzS] <;> iassumption
  iexact Hr

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, from any memory with zero counters: every weakly fair execution of @main terminates,
    and every final state has each device's windowed arrays at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of `x` after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run holds the eight rows added. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀, if_pos (flush0_1 _)]
  have hrd : ∀ f : (main_v1 : Ref sig .tc).ty.Contents (Elt F), ((cfg0.win (1 : Fin 2)).blk t₀).view.read (Elt F) f = f := fun f =>
    Memref.read_access_unit_zero (Elt F) main_v1 (funext fun a => Nat.zero_mul _) _ f
  exact (hrd _).symm.trans (View.read_write_univ _ _)

end Cert.KernelIdeal.Hand

end
-- ==== Proof.Kernel.Proto.lean ====
/-
  The shared vocabulary of the eight-device all-to-all sum: the peer arithmetic on the ring of eight devices, the rows of the
  communication buffer as views, the semaphore cells and their one round of duties, what a device owes at launch, the levels
  that order the waits, the ghost state a device's body starts from, and the pipeline's proof data.

  Device c first tells each of its seven peers (c + d mod 8, d = 1..7) that it has entered, then waits for the seven peers'
  word. It writes the column sums of its own block of x into row 0 of its communication buffer, copies that row into row d of
  peer d's buffer for d = 1..7, waits for the seven rows it receives, and adds the eight rows. Row d of device c therefore ends
  holding the column sums of the block of device (c - d mod 8), and the eight rows add to the column sums of the whole array.
-/
import proofs.«901081_g7700000000001082_dist_sum_ax0_shard0_i_m1536_n768_v7x_i8_bf16_1_alg».proof.Proof.Gen.Kernel
import proofs.«901081_g7700000000001082_dist_sum_ax0_shard0_i_m1536_n768_v7x_i8_bf16_1_alg».proof.Proof.Gen.Kernel.Skeleton
import proofs.«901081_g7700000000001082_dist_sum_ax0_shard0_i_m1536_n768_v7x_i8_bf16_1_alg».proof.Proof.Gen.Kernel.Launch
import proofs.«901081_g7700000000001082_dist_sum_ax0_shard0_i_m1536_n768_v7x_i8_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duty names `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The ring of eight -/

/-- The device `d` places after `c`. -/
def peer (c : Dev nD) (d : Fin 8) : Dev nD := ⟨(c.val + d.val) % 8, Nat.mod_lt _ (by decide)⟩
/-- The device `d` places before `c`: the one whose peer `d` is `c`. -/
def src (c : Dev nD) (d : Fin 8) : Dev nD := ⟨(c.val + 8 - d.val) % 8, Nat.mod_lt _ (by decide)⟩
/-- The offset that undoes `d`. -/
def opp (d : Fin 8) : Fin 8 := ⟨(8 - d.val) % 8, Nat.mod_lt _ (by decide)⟩
/-- A natural number as an offset. -/
def fd (k : ℕ) : Fin 8 := ⟨k % 8, Nat.mod_lt _ (by decide)⟩

theorem peer_src (c : Dev nD) (d : Fin 8) : peer (src c d) d = c := by revert c d; decide
theorem src_peer (c : Dev nD) (d : Fin 8) : src (peer c d) d = c := by revert c d; decide
theorem peer_peer_opp (c : Dev nD) (d : Fin 8) : peer (peer c d) (opp d) = c := by revert c d; decide
theorem src_eq_peer_opp (c : Dev nD) (d : Fin 8) : src c d = peer c (opp d) := by revert c d; decide
theorem opp_opp (d : Fin 8) : opp (opp d) = d := by revert d; decide
theorem opp_ne_zero {d : Fin 8} (h : d ≠ 0) : opp d ≠ 0 := by revert d; decide
theorem peer_zero (c : Dev nD) : peer c 0 = c := by revert c; decide
theorem src_zero (c : Dev nD) : src c 0 = c := by revert c; decide
theorem peer_injective (d : Fin 8) : Function.Injective (fun c : Dev nD => peer c d) := by revert d; decide
theorem peer_ne_self {c : Dev nD} {d : Fin 8} (h : d ≠ 0) : peer c d ≠ c := by revert c d; decide

/-- The kernel's `device_id` chains: signal `d` and transfer `d` both name `peer c d`. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 2 := Fin.ext (k0_dev9_eq c)
theorem dev10_eq (c : Dev nD) : (⟨k0_dev10 c, k0_dev10_lt c⟩ : Dev nD) = peer c 3 := Fin.ext (k0_dev10_eq c)
theorem dev11_eq (c : Dev nD) : (⟨k0_dev11 c, k0_dev11_lt c⟩ : Dev nD) = peer c 4 := Fin.ext (k0_dev11_eq c)
theorem dev12_eq (c : Dev nD) : (⟨k0_dev12 c, k0_dev12_lt c⟩ : Dev nD) = peer c 5 := Fin.ext (k0_dev12_eq c)
theorem dev13_eq (c : Dev nD) : (⟨k0_dev13 c, k0_dev13_lt c⟩ : Dev nD) = peer c 6 := Fin.ext (k0_dev13_eq c)
theorem dev14_eq (c : Dev nD) : (⟨k0_dev14 c, k0_dev14_lt c⟩ : Dev nD) = peer c 7 := Fin.ext (k0_dev14_eq c)

/-! ## The memrefs: the block of x, the result, the communication buffer and its rows -/

abbrev xM : Memref sig .tc .vmem S1536x768 .f32 := Memref.whole cc0_stg0_0
abbrev oM : Memref sig .tc .vmem S1x768 .f32 := Memref.whole cc0_stg1_0
abbrev cM : Memref sig .tc .vmem S8x768 .f32 := Memref.whole cc0_scratch0

theorem inb_row (d : Fin 8) : ∀ a, (![d.val, 0] : Fin 2 → Nat) a + S1x768.size a ≤ S8x768.size a := by revert d; decide
theorem inb_sem (d : Fin 8) : ∀ a, (![d.val] : Fin 1 → Nat) a + S1.size a ≤ S8.size a := by revert d; decide

/-- Row `d` of the communication buffer, as a rectangle and as the memref the kernel slices. -/
abbrev rowR (d : Fin 8) : Rect S8x768 := Rect.unit (s := S8x768) ![d.val, 0] S1x768.size (inb_row d)
abbrev rowM (d : Fin 8) : Memref sig .tc .vmem S1x768 .f32 := (cM : Memref sig .tc .vmem S8x768 .f32).slice (rowR d) (fun _ => rfl)

/-! ## The semaphores and their cells -/

/-- The runtime's barrier semaphore of collective id 0 (not scoped); the send and receive DMA semaphores (scoped scratch). -/
abbrev barS : Sem sig := (SemArray.scalar (sig.barrier 0 rfl) : Sems sig S_).sem
abbrev sendS (d : Fin 8) : DmaSem sig := ((cc0_scratch1.slice (Rect.unit (s := S8) ![d.val] S1.size (inb_sem d))).squeeze S_ squeezes_S1_S_).sem
abbrev recvS (d : Fin 8) : DmaSem sig := ((cc0_scratch2.slice (Rect.unit (s := S8) ![d.val] S1.size (inb_sem d))).squeeze S_ squeezes_S1_S_).sem

abbrev barCell (c : Dev nD) : GSem nD τ sig := ((c : Thread nD τ), .reg barS)
abbrev sendCell (c : Dev nD) (d : Fin 8) : GSem nD τ sig := ((c : Thread nD τ), .dma (sendS d))
abbrev recvCell (c : Dev nD) (d : Fin 8) : GSem nD τ sig := ((c : Thread nD τ), .dma (recvS d))

theorem sendS_val (d : Fin 8) : (sendS d).val = 2 + d.val := by revert d; decide
theorem recvS_val (d : Fin 8) : (recvS d).val = 10 + d.val := by revert d; decide

/-- One transfer's credit: a row of 768 words. -/
abbrev N : ℕ := (rowM 0 : Memref sig .tc .vmem S1x768 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The column sums of device `c`'s block: one row of 768. -/
def part (c : Dev nD) : FVec F S1x768 .f32 := k0_pay1 (xstg m ρ c)

/-- What device `c`'s communication buffer holds once every row has landed: row `r` is the column sums of the block of the
    device `r` places before `c` (row 0 its own). -/
def commFinal (c : Dev nD) : (cc0_scratch0 : Ref sig .tc).ty.Contents (Elt F) :=
  fun (i : S8x768.Idx) => part m ρ (src c (fd (i 0).val)) (ValueIdx.ix2 (0 : Fin 1) (⟨(i 1).val % 768, Nat.mod_lt _ (by decide)⟩ : Fin 768))

/-- The kernel's result on device `c`: the eight rows added. -/
def outAt (c : Dev nD) : (cc0_stg1_0 : Ref sig .tc).ty.Contents (Elt F) := k0_pay2 (commFinal m ρ c)

/-- Row `d` of device `c`'s communication buffer held at share `q` with the buffer's contents `f`. -/
def rowPts (c : Dev nD) (d : Fin 8) (q : PosShare TreeShare) (f : Buf (Elt F) ((rowM d : Memref sig .tc .vmem S1x768 .f32).view.loc (c : Thread nD τ))) : sProp 𝕄 :=
  (rowM d : Memref sig .tc .vmem S1x768 .f32).view.loc (c : Thread nD τ) ↦[(rowM d : Memref sig .tc .vmem S1x768 .f32).view.set]{q} f

/-- The share of row 0 that is split among the seven transfers: `rights n` is what is left of the right half after `n - 1` of them. -/
def rights : ℕ → PosShare TreeShare
  | 0 => fullShare
  | n + 1 => (rights n).right
/-- Transfer `d` reads row 0 at this share; the device keeps the left half for its own loads. -/
def sendShare (d : Fin 8) : PosShare TreeShare := if d.val = 7 then rights 7 else (rights d.val).left
abbrev keptShare : PosShare TreeShare := fullShare.left

/-! ## The schedule: one round -/

/-- Duty `e` of device `g`'s barrier cell is paid by `peer g e`'s signal; it hands `g` row `e` of that peer's buffer, which `g`'s
    transfer `e` will write, and that the peer is at round 0 of the receive cell of that row. -/
def barPay (g : Dev nD) (e : Fin 8) : sProp 𝕄 :=
  iprop((∃ f, rowPts (peer g e) e fullShare f) ∗ reached ER (recvCell (peer g e) e) 0)
/-- The landing in row `d` of device `g` hands `g` that row holding the column sums of the device `d` places before it. -/
def recvPay (g : Dev nD) (d : Fin 8) : sProp 𝕄 := rowPts g d fullShare (commFinal m ρ g)
/-- The departure of transfer `d` hands device `c` back the share of row 0 it lent. -/
def sendPay (c : Dev nD) (d : Fin 8) : sProp 𝕄 := rowPts c 0 (sendShare d) (commFinal m ρ c)

/-- Round 0 only. A barrier cell has the seven duties 1..7 of one unit each; the send and the receive cell of each row 1..7 one
    duty, named 0, of a row's credit. (Row 0's two semaphores are never used: no duty.) -/
def Rd : Rounds.Schedule (GSem nD τ sig) (Fin 8) 𝕄 where
  duties g r := match g.2 with
    | .reg s => if r = 0 ∧ g.1.2 = .tc ∧ s = barS then Finset.univ.erase 0 else ∅
    | .dma q => if r = 0 ∧ g.1.2 = .tc ∧ 3 ≤ q.val ∧ q.val ≠ 10 then {0} else ∅
  amount g _ _ := match g.2 with
    | .reg _ => 1
    | .dma _ => N
  payload g _ e := match g.2 with
    | .reg _ => barPay g.1.1 e
    | .dma q => if 10 ≤ q.val then recvPay m ρ g.1.1 (fd (q.val - 10)) else sendPay m ρ g.1.1 (fd (q.val - 2))
  amount_pos g _ _ _ := by
    cases g.2
    · exact Nat.one_pos
    · exact N_pos

/-! ## What a device owes at launch, and the levels -/

/-- The credits of the transfers still to be started when `n` of them remain: the next one to start (transfer `8 - n`) is the last summand. -/
def sendsRem (c : Dev nD) : ℕ → CellTallies nD τ sig Unit
  | 0 => 0
  | n + 1 => sendsRem c n + tallyAt (recvCell (peer c (fd (7 - n))) (fd (7 - n))) () N
/-- With the units of the barrier signals still to be made when `n` of them remain: the next one (signal `8 - n`) is the last summand. -/
def sigsRem (c : Dev nD) : ℕ → CellTallies nD τ sig Unit
  | 0 => sendsRem c 7
  | n + 1 => sigsRem c n + tallyAt (barCell (peer c (fd (7 - n)))) () 1
/-- At launch: seven signals and seven transfers. -/
def O₀ (c : Dev nD) : CellTallies nD τ sig Unit := sigsRem c 7

def L (g : GSem nD τ sig) : Finset Unit := if g.1.2 = .tc then {()} else ∅
/-- Barrier cells at 1, receive cells at 2, everything else (staging, send) at 0. -/
def lv (g : GSem nD τ sig) (_ : Unit) : ℕ := match g.2 with
  | .reg s => if s = barS then 1 else 0
  | .dma q => if 10 ≤ q.val then 2 else 0

/-! ## The cells of a device, indexed; the ghost state; the proof data -/

/-- A device's seventeen cells: the barrier, then the eight send and the eight receive semaphores. -/
abbrev csem : Fin 17 → SemLoc sig := fun
  | 0 => .reg barS
  | 1 => .dma (sendS 0) | 2 => .dma (sendS 1) | 3 => .dma (sendS 2) | 4 => .dma (sendS 3)
  | 5 => .dma (sendS 4) | 6 => .dma (sendS 5) | 7 => .dma (sendS 6) | 8 => .dma (sendS 7)
  | 9 => .dma (recvS 0) | 10 => .dma (recvS 1) | 11 => .dma (recvS 2) | 12 => .dma (recvS 3)
  | 13 => .dma (recvS 4) | 14 => .dma (recvS 5) | 15 => .dma (recvS 6) | 16 => .dma (recvS 7)
  | ⟨_ + 17, h⟩ => absurd h (by omega)
abbrev kcell (ck : Dev nD × Fin 17) : GSem nD τ sig := ((ck.1 : Thread nD τ), csem ck.2)
/-- The kernel's own (scoped) semaphores as the launch theorem indexes them: the sixteen DMA semaphores. -/
abbrev osem : Fin 16 → SemLoc sig := fun j => csem ⟨j.val + 1, by omega⟩
def sIx (d : Fin 8) : Fin 17 := ⟨d.val + 1, by omega⟩
def rIx (d : Fin 8) : Fin 17 := ⟨d.val + 9, by omega⟩
theorem kcell_bar (c : Dev nD) : kcell (c, 0) = barCell c := rfl
theorem kcell_send (c : Dev nD) (d : Fin 8) : kcell (c, sIx d) = sendCell c d := by revert c d; decide
theorem kcell_recv (c : Dev nD) (d : Fin 8) : kcell (c, rIx d) = recvCell c d := by revert c d; decide

/-- Every cell's invariant under the names the launch gave them, and that every cell is at round 0: persistent, known to all. -/
def records (K : Dev nD × Fin 17 → ℕ) : sProp 𝕄 :=
  iprop((bigSep Finset.univ fun ck : Dev nD × Fin 17 => cellInv ER (Rd m ρ) (K ck) (kcell ck))
    ∗ bigSep Finset.univ fun ck : Dev nD × Fin 17 => reached ER (kcell ck) 0)

/-- The tokens of the duties device `c` pays: with signal `d` duty `opp d` of `peer c d`'s barrier cell, with transfer `d` the duty of
    `peer c d`'s receive cell of row `d` and the duty of its own send cell `d`. -/
def payToks (c : Dev nD) : sProp 𝕄 :=
  iprop((bigSep (Finset.univ.erase 0) fun d : Fin 8 => dutyTok ER (barCell (peer c d)) 0 (opp d))
    ∗ (bigSep (Finset.univ.erase 0) fun d : Fin 8 => dutyTok ER (recvCell (peer c d) d) 0 0)
    ∗ bigSep (Finset.univ.erase 0) fun d : Fin 8 => dutyTok ER (sendCell c d) 0 0)

/-- Device `c`'s positions at round 0 of its seventeen cells. -/
def positions (c : Dev nD) : sProp 𝕄 :=
  iprop(atPos ER (barCell c) 0 ∅ 0
    ∗ (bigSep Finset.univ fun d : Fin 8 => atPos ER (sendCell c d) 0 ∅ 0)
    ∗ bigSep Finset.univ fun d : Fin 8 => atPos ER (recvCell c d) 0 ∅ 0)

/-- The ghost state device `c`'s body starts from. -/
def ghost (K : Dev nD × Fin 17 → ℕ) (c : Dev nD) : sProp 𝕄 := iprop(records m ρ K ∗ positions c ∗ payToks c)

/-- The credit tokens the launch deals device `c`: its barrier's seven units and each receive cell's row. -/
def creds (c : Dev nD) : sProp 𝕄 :=
  iprop(cred (tallyAt (barCell c) () 7) ∗ bigSep (Finset.univ.erase 0) fun d : Fin 8 => cred (tallyAt (recvCell c d) () N))

/-- What device `c`'s body starts from, the communication buffer apart. -/
def start (c : Dev nD) : sProp 𝕄 := iprop((∃ K, ghost m ρ K c) ∗ creds c ∗ levAts L lv)

/-- The communication buffer whole, at some contents. -/
def commAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ commAny c)
/-- After the point: the communication buffer back whole, the sixteen own semaphores at zero, closed. -/
def Φ₁ (c : Dev nD) : sProp 𝕄 :=
  iprop(commAny c ∗ (bigSep Finset.univ fun d : Fin 8 => semVal (sendCell c d) 0) ∗ bigSep Finset.univ fun d : Fin 8 => semVal (recvCell c d) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.Hand

end
-- ==== Proof.Kernel.Tables.lean ====
/-
  The schedule's round 0 read cell by cell: which duties a barrier, a send and a receive cell have, what each contributes,
  how many units the round expects, and what each duty hands the cell's owner.
-/
import proofs.«901081_g7700000000001082_dist_sum_ax0_shard0_i_m1536_n768_v7x_i8_bf16_1_alg».proof.Proof.Kernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores are distinct -/

theorem send_ne_bar (d : Fin 8) : (SemLoc.dma (sendS d) : SemLoc sig) ≠ .reg barS := fun h => by cases h
theorem recv_ne_bar (d : Fin 8) : (SemLoc.dma (recvS d) : SemLoc sig) ≠ .reg barS := fun h => by cases h
theorem send_ne_recv (d e : Fin 8) : (SemLoc.dma (sendS d) : SemLoc sig) ≠ .dma (recvS e) := fun h => by
  have h' : (sendS d).val = (recvS e).val := congrArg Fin.val (SemLoc.dma.inj h)
  rw [sendS_val, recvS_val] at h'
  omega
theorem sendS_injective : Function.Injective (sendS : Fin 8 → DmaSem sig) := fun a b h => by
  have h' : (sendS a).val = (sendS b).val := congrArg Fin.val h
  rw [sendS_val, sendS_val] at h'
  exact Fin.ext (by omega)
theorem recvS_injective : Function.Injective (recvS : Fin 8 → DmaSem sig) := fun a b h => by
  have h' : (recvS a).val = (recvS b).val := congrArg Fin.val h
  rw [recvS_val, recvS_val] at h'
  exact Fin.ext (by omega)

/-- The offset of a send semaphore's index is its row; so of a receive semaphore's. -/
theorem fd_sendS (d : Fin 8) : fd ((sendS d).val - 2) = d := by revert d; decide
theorem fd_recvS (d : Fin 8) : fd ((recvS d).val - 10) = d := by revert d; decide
theorem fin8_val_pos {d : Fin 8} (hd : d ≠ 0) : 1 ≤ d.val := by revert d; decide

/-! ## Round 0, cell by cell -/

section Sched
variable (c : Dev nD) (d : Fin 8)

theorem duties_bar : (Rd (F := F) m ρ).duties (barCell c) 0 = Finset.univ.erase 0 := by
  dsimp only [Rd]; exact if_pos ⟨rfl, rfl, rfl⟩
theorem duties_send (hd : d ≠ 0) : (Rd (F := F) m ρ).duties (sendCell c d) 0 = {0} := by
  have h1 := sendS_val d
  have h2 := fin8_val_pos hd
  show (if 0 = 0 ∧ (c : Thread nD τ).2 = .tc ∧ 3 ≤ (sendS d).val ∧ (sendS d).val ≠ 10 then ({0} : Finset (Fin 8)) else ∅) = {0}
  exact if_pos ⟨rfl, rfl, by omega, by omega⟩
theorem duties_recv (hd : d ≠ 0) : (Rd (F := F) m ρ).duties (recvCell c d) 0 = {0} := by
  have h1 := recvS_val d
  have h2 := fin8_val_pos hd
  show (if 0 = 0 ∧ (c : Thread nD τ).2 = .tc ∧ 3 ≤ (recvS d).val ∧ (recvS d).val ≠ 10 then ({0} : Finset (Fin 8)) else ∅) = {0}
  exact if_pos ⟨rfl, rfl, by omega, by omega⟩
/-- Row 0's two semaphores are never used. -/
theorem duties_send0 (r : ℕ) : (Rd (F := F) m ρ).duties (sendCell c 0) r = ∅ := by
  have h1 : (sendS 0).val = 2 := by decide
  show (if r = 0 ∧ (c : Thread nD τ).2 = .tc ∧ 3 ≤ (sendS 0).val ∧ (sendS 0).val ≠ 10 then ({0} : Finset (Fin 8)) else ∅) = ∅
  exact if_neg fun h => by omega
theorem duties_recv0 (r : ℕ) : (Rd (F := F) m ρ).duties (recvCell c 0) r = ∅ := by
  have h1 : (recvS 0).val = 10 := by decide
  show (if r = 0 ∧ (c : Thread nD τ).2 = .tc ∧ 3 ≤ (recvS 0).val ∧ (recvS 0).val ≠ 10 then ({0} : Finset (Fin 8)) else ∅) = ∅
  exact if_neg fun h => by omega
theorem duties_later (g : GSem nD τ sig) : ∀ r, 1 ≤ r → (Rd (F := F) m ρ).duties g r = ∅ := fun r hr => by
  obtain ⟨t, s⟩ := g
  cases s with
  | reg s => exact if_neg fun h => by omega
  | dma q => exact if_neg fun h => by omega

theorem amount_bar (e : Fin 8) : (Rd (F := F) m ρ).amount (barCell c) 0 e = 1 := rfl
theorem amount_send (e : Fin 8) : (Rd (F := F) m ρ).amount (sendCell c d) 0 e = N := rfl
theorem amount_recv (e : Fin 8) : (Rd (F := F) m ρ).amount (recvCell c d) 0 e = N := rfl

theorem expect_bar : (Rd (F := F) m ρ).expect (barCell c) 0 = 7 := by
  unfold Schedule.expect Schedule.amountOf
  rw [duties_bar, Finset.sum_congr rfl fun e _ => amount_bar m ρ c e, Finset.sum_const, smul_eq_mul, mul_one]
  decide
theorem expect_send (hd : d ≠ 0) : (Rd (F := F) m ρ).expect (sendCell c d) 0 = N := by
  unfold Schedule.expect Schedule.amountOf; rw [duties_send m ρ c d hd, Finset.sum_singleton, amount_send]
theorem expect_recv (hd : d ≠ 0) : (Rd (F := F) m ρ).expect (recvCell c d) 0 = N := by
  unfold Schedule.expect Schedule.amountOf; rw [duties_recv m ρ c d hd, Finset.sum_singleton, amount_recv]

theorem payload_bar (e : Fin 8) : (Rd (F := F) m ρ).payload (barCell c) 0 e = barPay c e := rfl
theorem payload_send (e : Fin 8) : (Rd (F := F) m ρ).payload (sendCell c d) 0 e = sendPay m ρ c d := by
  have h1 := sendS_val d
  show (if 10 ≤ (sendS d).val then recvPay m ρ c (fd ((sendS d).val - 10)) else sendPay m ρ c (fd ((sendS d).val - 2))) = sendPay m ρ c d
  rw [if_neg (by omega), fd_sendS]
theorem payload_recv (e : Fin 8) : (Rd (F := F) m ρ).payload (recvCell c d) 0 e = recvPay m ρ c d := by
  have h1 := recvS_val d
  show (if 10 ≤ (recvS d).val then recvPay m ρ c (fd ((recvS d).val - 10)) else sendPay m ρ c (fd ((recvS d).val - 2))) = recvPay m ρ c d
  rw [if_pos (by omega), fd_recvS]

/-- The whole of the barrier cell's round, no duty taken before: the seven peers' rows. -/
theorem rest_bar : bigSep ((Rd (F := F) m ρ).duties (barCell c) 0 \ ∅) (fun e => (Rd (F := F) m ρ).payload (barCell c) 0 e)
    = bigSep (Finset.univ.erase 0) (fun e : Fin 8 => (barPay c e : sProp 𝕄)) := by
  rw [Finset.sdiff_empty, duties_bar]; rfl
theorem rest_send (hd : d ≠ 0) : bigSep ((Rd (F := F) m ρ).duties (sendCell c d) 0 \ ∅) (fun e => (Rd (F := F) m ρ).payload (sendCell c d) 0 e) = sendPay m ρ c d := by
  rw [Finset.sdiff_empty, duties_send m ρ c d hd, bigSep_singleton, payload_send]
theorem rest_recv (hd : d ≠ 0) : bigSep ((Rd (F := F) m ρ).duties (recvCell c d) 0 \ ∅) (fun e => (Rd (F := F) m ρ).payload (recvCell c d) 0 e) = recvPay m ρ c d := by
  rw [Finset.sdiff_empty, duties_recv m ρ c d hd, bigSep_singleton, payload_recv]

end Sched

instance Rd_payload_storable (g : GSem nD τ sig) (r : ℕ) (e : Fin 8) :
    BI.Storable (upEmb : UEmb _ 𝕄) ((Rd (F := F) m ρ).payload g r e) := by
  obtain ⟨t, s⟩ := g
  cases s with
  | reg s =>
    show BI.Storable upEmb (barPay t.1 e)
    unfold barPay rowPts; infer_instance
  | dma q =>
    show BI.Storable upEmb (if 10 ≤ q.val then recvPay m ρ t.1 (fd (q.val - 10)) else sendPay m ρ t.1 (fd (q.val - 2)))
    unfold recvPay sendPay rowPts
    split <;> infer_instance

end Cert.Kernel.Hand

end
-- ==== Proof.Kernel.Rows.lean ====
/-
  The communication buffer cut into its eight rows and put together again, row 0 cut into the shares the seven transfers
  read it at, and what the kernel's loads and stores of these buffers read and leave.
-/
import proofs.«901081_g7700000000001082_dist_sum_ax0_shard0_i_m1536_n768_v7x_i8_bf16_1_alg».proof.Proof.Kernel.Proto
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows of the whole buffer -/

/-- The elements under the row view are the row rectangle's. -/
theorem rowM_set (d : Fin 8) : (rowM d : Memref sig .tc .vmem S1x768 .f32).view.set = (rowR d).set :=
  View.set_slice_whole _ _

/-- Row `d` is the elements whose first coordinate is `d`. -/
theorem mem_rowR (d : Fin 8) (i : S8x768.Idx) : i ∈ (rowR d).set ↔ (i 0).val = d.val := by
  rw [Rect.mem_set_unit]
  constructor
  · intro h
    have h0 : d.val ≤ (i 0).val ∧ (i 0).val < d.val + 1 := h 0
    omega
  · intro h
    refine Fin.forall_fin_two.mpr ⟨?_, ?_⟩
    · show d.val ≤ (i 0).val ∧ (i 0).val < d.val + 1
      omega
    · show 0 ≤ (i 1).val ∧ (i 1).val < 0 + 768
      have := ValueIdx.idx2_lt1 i
      omega

/-- An element of row `d` is `(d, j)` for a column `j`. -/
theorem eq_ix2_of_mem_rowR (d : Fin 8) (i : S8x768.Idx) (hi : i ∈ (rowR d).set) : ∃ j : Fin 768, i = ValueIdx.ix2 d j := by
  have h0 := (mem_rowR d i).mp hi
  refine ⟨⟨(i 1).val, ValueIdx.idx2_lt1 i⟩, ?_⟩
  exact Shape.idx_ext₂ h0 rfl

/-- Different rows share no element. -/
theorem rowR_disjoint {d d' : Fin 8} (h : d ≠ d') : Disjoint (rowR d).set (rowR d').set :=
  Finset.disjoint_left.mpr fun i hi hi' => h (Fin.ext (((mem_rowR d i).mp hi).symm.trans ((mem_rowR d' i).mp hi')))

/-- Every element lies in the row of its first coordinate. -/
theorem mem_rowR_self (i : S8x768.Idx) : i ∈ (rowR ⟨(i 0).val, ValueIdx.idx2_lt0 i⟩).set := (mem_rowR _ i).mpr rfl

omit [FloatOps F] in
/-- A row's points-to over the row rectangle's elements. -/
theorem rowPts_eq (c : Dev nD) (d : Fin 8) (q : PosShare TreeShare) (f : Buf (Elt F) ((c : Thread nD τ).loc cc0_scratch0)) :
    (rowPts c d q f : sProp 𝕄) = (((c : Thread nD τ).loc cc0_scratch0) ↦[(rowR d).set]{q} f) := by
  unfold rowPts
  exact congrArg (fun I => ((((c : Thread nD τ).loc cc0_scratch0) ↦[I]{q} f : sProp 𝕄))) (rowM_set d)

omit [FloatOps F] in
/-- The whole buffer is its eight rows. -/
theorem comm_rows (c : Dev nD) (q : PosShare TreeShare) (f : Buf (Elt F) ((c : Thread nD τ).loc cc0_scratch0)) :
    ((((c : Thread nD τ).loc cc0_scratch0) ↦{q} f : sProp 𝕄)) ⊣⊢ bigSep Finset.univ (fun d : Fin 8 => rowPts c d q f) := by
  refine BiEntails.of_eq ?_
  have hb := pointsTo_biUnion (Ix := Unit) (Val := Elt F) (Name := ℕ) (U := UU) (Lvl := ℕ) (ℓ := (c : Thread nD τ).loc cc0_scratch0) (q := q) (f := f)
    Finset.univ (fun d : Fin 8 => (rowR d).set) (fun d _ d' _ h => rowR_disjoint h)
  have hu : (Finset.univ : Finset (Fin 8)).biUnion (fun d : Fin 8 => (rowR d).set) = Finset.univ := by
    ext i
    simp only [Finset.mem_biUnion, Finset.mem_univ, true_and, iff_true]
    exact ⟨_, mem_rowR_self i⟩
  rw [hu] at hb
  rw [hb]
  exact congrArg (bigSep Finset.univ) (funext fun d => (rowPts_eq c d q f).symm)

omit [FloatOps F] in
/-- The whole buffer held through the memref's own view, as a load of all of it wants it. -/
theorem comm_view (c : Dev nD) (q : PosShare TreeShare) (f : Buf (Elt F) ((c : Thread nD τ).loc cc0_scratch0)) :
    ((((c : Thread nD τ).loc cc0_scratch0) ↦{q} f : sProp 𝕄))
      = ((cM : Memref sig .tc .vmem S8x768 .f32).view.loc (c : Thread nD τ) ↦[(cM : Memref sig .tc .vmem S8x768 .f32).view.set]{q} f) :=
  congrArg (fun I => ((((c : Thread nD τ).loc cc0_scratch0) ↦[I]{q} f : sProp 𝕄))) (View.set_whole cc0_scratch0).symm

omit [FloatOps F] in
/-- Values off the row are irrelevant. -/
theorem rowPts_congr (c : Dev nD) (d : Fin 8) (q : PosShare TreeShare) {f g : Buf (Elt F) ((c : Thread nD τ).loc cc0_scratch0)}
    (h : ∀ j : Fin 768, f (ValueIdx.ix2 (d : Fin 8) j) = g (ValueIdx.ix2 (d : Fin 8) j)) : (rowPts c d q f : sProp 𝕄) = rowPts c d q g := by
  rw [rowPts_eq, rowPts_eq]
  refine pointsTo_congr fun i hi => ?_
  obtain ⟨j, rfl⟩ := eq_ix2_of_mem_rowR d i hi
  exact h j

omit [FloatOps F] in
/-- A row along a share. -/
theorem rowPts_halves (c : Dev nD) (d : Fin 8) (q : PosShare TreeShare) (f : Buf (Elt F) ((c : Thread nD τ).loc cc0_scratch0)) :
    (rowPts c d q f : sProp 𝕄) ⊣⊢ iprop(rowPts c d q.left f ∗ rowPts c d q.right f) := by
  rw [rowPts_eq, rowPts_eq, rowPts_eq]
  exact pointsTo_share (PosShare.mem_left_op_right q)

omit [FloatOps F] in
/-- The right half of row 0 is the seven transfers' shares. -/
theorem row0_shares (c : Dev nD) (f : Buf (Elt F) ((c : Thread nD τ).loc cc0_scratch0)) :
    (rowPts c 0 fullShare.right f : sProp 𝕄) ⊣⊢ bigSep (Finset.univ.erase 0) (fun d : Fin 8 => rowPts c 0 (sendShare d) f) := by
  have hh : ∀ q : PosShare TreeShare, (rowPts c 0 q f : sProp 𝕄) = iprop(rowPts c 0 q.left f ∗ rowPts c 0 q.right f) :=
    fun q => BI.equiv_iff.mp ⟨(rowPts_halves c 0 q f).1, (rowPts_halves c 0 q f).2⟩
  have e1 : (rowPts c 0 (rights 1) f : sProp 𝕄) = iprop(rowPts c 0 (rights 1).left f ∗ rowPts c 0 (rights 2) f) := hh (rights 1)
  have e2 : (rowPts c 0 (rights 2) f : sProp 𝕄) = iprop(rowPts c 0 (rights 2).left f ∗ rowPts c 0 (rights 3) f) := hh (rights 2)
  have e3 : (rowPts c 0 (rights 3) f : sProp 𝕄) = iprop(rowPts c 0 (rights 3).left f ∗ rowPts c 0 (rights 4) f) := hh (rights 3)
  have e4 : (rowPts c 0 (rights 4) f : sProp 𝕄) = iprop(rowPts c 0 (rights 4).left f ∗ rowPts c 0 (rights 5) f) := hh (rights 4)
  have e5 : (rowPts c 0 (rights 5) f : sProp 𝕄) = iprop(rowPts c 0 (rights 5).left f ∗ rowPts c 0 (rights 6) f) := hh (rights 5)
  have e6 : (rowPts c 0 (rights 6) f : sProp 𝕄) = iprop(rowPts c 0 (rights 6).left f ∗ rowPts c 0 (rights 7) f) := hh (rights 6)
  have hs : (Finset.univ.erase (0 : Fin 8)) = {1, 2, 3, 4, 5, 6, 7} := by decide
  refine BiEntails.of_eq ?_
  rw [hs, bigSep_insert (by decide), bigSep_insert (by decide), bigSep_insert (by decide), bigSep_insert (by decide),
    bigSep_insert (by decide), bigSep_insert (by decide), bigSep_singleton]
  show (rowPts c 0 (rights 1) f : sProp 𝕄)
    = iprop(rowPts c 0 (rights 1).left f ∗ rowPts c 0 (rights 2).left f ∗ rowPts c 0 (rights 3).left f ∗ rowPts c 0 (rights 4).left f
        ∗ rowPts c 0 (rights 5).left f ∗ rowPts c 0 (rights 6).left f ∗ rowPts c 0 (rights 7) f)
  rw [e1, e2, e3, e4, e5, e6]

/-! ## What the loads read and the stores leave -/

abbrev r0x : Rect S1536x768 := Rect.unit (s := S1536x768) ![0, 0] S1536x768.size inb_S1536x768_S1536x768_0_0
abbrev r0c : Rect S8x768 := Rect.unit (s := S8x768) ![0, 0] S8x768.size inb_S8x768_S8x768_0_0
abbrev r0o : Rect S1x768 := Rect.unit (s := S1x768) ![0, 0] S1x768.size inb_S1x768_S1x768_0_0

/-- The offsets `(0, 0)` are the zero offsets. -/
theorem off_zero : (![0, 0] : Fin 2 → Nat) = fun _ => 0 := funext fun a => by fin_cases a <;> rfl

omit [FloatOps F] in
theorem read_x (f : (cc0_stg0_0 : Ref sig .tc).ty.Contents (Elt F)) : (xM : Memref sig .tc .vmem S1536x768 .f32).view.readAt (Elt F) r0x.toLoadRect f = f :=
  Memref.readAt_unit_zero (Elt F) cc0_stg0_0 off_zero _ f
omit [FloatOps F] in
theorem read_comm (f : (cc0_scratch0 : Ref sig .tc).ty.Contents (Elt F)) : (cM : Memref sig .tc .vmem S8x768 .f32).view.readAt (Elt F) r0c.toLoadRect f = f :=
  Memref.readAt_unit_zero (Elt F) cc0_scratch0 off_zero _ f
omit [FloatOps F] in
theorem write_out (f w : (cc0_stg1_0 : Ref sig .tc).ty.Contents (Elt F)) :
    ((oM : Memref sig .tc .vmem S1x768 .f32).access r0o : View sig .tc _ _ _).write (Elt F) f w Finset.univ = w :=
  Memref.write_access_unit_zero_univ (Elt F) cc0_stg1_0 off_zero _ f w

/-- Column `j` of the row view of row `d` sits at `(d, j)` of the buffer. -/
theorem rowM_emb (d : Fin 8) (j : Fin 768) :
    (rowM d : Memref sig .tc .vmem S1x768 .f32).view.emb (ValueIdx.ix2 (0 : Fin 1) j) = ValueIdx.ix2 d j := by
  refine Shape.idx_ext₂ ?_ ?_
  · show d.val + 1 * 0 = d.val
    omega
  · show 0 + 1 * j.val = j.val
    omega

/-- What the buffer ends holding at `(r, j)`: column `j` of the column sums of the device `r` places before. -/
theorem commFinal_apply (c : Dev nD) (r : Fin 8) (j : Fin 768) :
    commFinal m ρ c (ValueIdx.ix2 r j) = part m ρ (src c r) (ValueIdx.ix2 (0 : Fin 1) j) := by
  have e1 : fd r.val = r := Fin.ext (Nat.mod_eq_of_lt r.isLt)
  have e2 : (⟨j.val % 768, Nat.mod_lt _ (by decide)⟩ : Fin 768) = j := Fin.ext (Nat.mod_eq_of_lt j.isLt)
  show part m ρ (src c (fd r.val)) (ValueIdx.ix2 (0 : Fin 1) (⟨j.val % 768, Nat.mod_lt _ (by decide)⟩ : Fin 768)) = _
  rw [e1, e2]

/-- Row 0 after the store of the device's own column sums holds what it ends with. -/
theorem stored_row0 (c : Dev nD) (f : (cc0_scratch0 : Ref sig .tc).ty.Contents (Elt F)) (j : Fin 768) :
    (((cM : Memref sig .tc .vmem S8x768 .f32).access (rowR 0) : View sig .tc _ _ _).write (Elt F) f (part m ρ c) Finset.univ) (ValueIdx.ix2 (0 : Fin 8) j)
      = commFinal m ρ c (ValueIdx.ix2 (0 : Fin 8) j) := by
  have h1 := View.write_emb_of_mem (v := (rowM 0 : Memref sig .tc .vmem S1x768 .f32).view) (Val := Elt F) f (part m ρ c)
    (M := Finset.univ) (x := ValueIdx.ix2 (0 : Fin 1) j) (Finset.mem_univ _)
  rw [rowM_emb] at h1
  refine h1.trans ?_
  rw [commFinal_apply, src_zero]
  exact cast_eq _ _

/-- Row `d` of `peer c d` after device `c`'s row 0 has landed in it holds what it ends with. -/
theorem landed_row (c : Dev nD) (d : Fin 8) (fd : (cc0_scratch0 : Ref sig .tc).ty.Contents (Elt F)) (j : Fin 768) :
    ((rowM d : Memref sig .tc .vmem S1x768 .f32).view.write (Elt F) fd ((rowM 0 : Memref sig .tc .vmem S1x768 .f32).view.read (Elt F) (commFinal m ρ c)) Finset.univ) (ValueIdx.ix2 (d : Fin 8) j)
      = commFinal m ρ (peer c d) (ValueIdx.ix2 (d : Fin 8) j) := by
  have h1 := View.write_emb_of_mem (v := (rowM d : Memref sig .tc .vmem S1x768 .f32).view) (Val := Elt F) fd
    ((rowM 0 : Memref sig .tc .vmem S1x768 .f32).view.read (Elt F) (commFinal m ρ c))
    (M := Finset.univ) (x := ValueIdx.ix2 (0 : Fin 1) j) (Finset.mem_univ _)
  rw [rowM_emb] at h1
  refine h1.trans ?_
  rw [View.read_apply, rowM_emb, commFinal_apply, commFinal_apply, src_zero, src_peer]
  exact (cast_eq _ _).trans (cast_eq _ _)

end Cert.Kernel.Hand

end
-- ==== Proof.Kernel.Steps.lean ====
/-
  The body's steps that touch another device, each stated once for an arbitrary peer offset d: the entry signal, the wait for
  the seven peers, the transfer of row 0 into the peer's row d, the waits for a landing and for a departure, and the closing of
  a cell no round of which has a duty left.
-/
import proofs.«901081_g7700000000001082_dist_sum_ax0_shard0_i_m1536_n768_v7x_i8_bf16_1_alg».proof.Proof.Kernel.Proto
import proofs.«901081_g7700000000001082_dist_sum_ax0_shard0_i_m1536_n768_v7x_i8_bf16_1_alg».proof.Proof.Kernel.Tables
import proofs.«901081_g7700000000001082_dist_sum_ax0_shard0_i_m1536_n768_v7x_i8_bf16_1_alg».proof.Proof.Kernel.Rows

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance records_persistent (K : Dev nD × Fin 17 → ℕ) : BI.Persistent (records m ρ K) := by unfold records; infer_instance

theorem inv_at (K : Dev nD × Fin 17 → ℕ) (ck : Dev nD × Fin 17) : records m ρ K ⊢ cellInv ER (Rd m ρ) (K ck) (kcell ck) := by
  unfold records
  iintro ⟨H, -⟩
  iapply (show (bigSep Finset.univ fun ck : Dev nD × Fin 17 => cellInv ER (Rd m ρ) (K ck) (kcell ck)) ⊢ cellInv ER (Rd m ρ) (K ck) (kcell ck)
    from bigSep_elim (Finset.mem_univ ck))
  iexact H
theorem reached_at (K : Dev nD × Fin 17 → ℕ) (ck : Dev nD × Fin 17) : records m ρ K ⊢ (reached ER (kcell ck) 0 : sProp 𝕄) := by
  unfold records
  iintro ⟨-, H⟩
  iapply (show (bigSep Finset.univ fun ck : Dev nD × Fin 17 => (reached ER (kcell ck) 0 : sProp 𝕄)) ⊢ (reached ER (kcell ck) 0 : sProp 𝕄)
    from bigSep_elim (Finset.mem_univ ck))
  iexact H

/-! The records read at a barrier, a send and a receive cell. -/

theorem inv_bar (K : Dev nD × Fin 17 → ℕ) (c : Dev nD) : records m ρ K ⊢ cellInv ER (Rd m ρ) (K (c, 0)) (barCell c) :=
  inv_at m ρ K (c, 0)
theorem inv_send (K : Dev nD × Fin 17 → ℕ) (c : Dev nD) (d : Fin 8) : records m ρ K ⊢ cellInv ER (Rd m ρ) (K (c, sIx d)) (sendCell c d) := by
  have h := inv_at m ρ K (c, sIx d); rwa [kcell_send] at h
theorem inv_recv (K : Dev nD × Fin 17 → ℕ) (c : Dev nD) (d : Fin 8) : records m ρ K ⊢ cellInv ER (Rd m ρ) (K (c, rIx d)) (recvCell c d) := by
  have h := inv_at m ρ K (c, rIx d); rwa [kcell_recv] at h
theorem reached_bar (K : Dev nD × Fin 17 → ℕ) (c : Dev nD) : records m ρ K ⊢ (reached ER (barCell c) 0 : sProp 𝕄) :=
  reached_at m ρ K (c, 0)
theorem reached_send (K : Dev nD × Fin 17 → ℕ) (c : Dev nD) (d : Fin 8) : records m ρ K ⊢ (reached ER (sendCell c d) 0 : sProp 𝕄) := by
  have h := reached_at m ρ K (c, sIx d); rwa [kcell_send] at h
theorem reached_recv (K : Dev nD × Fin 17 → ℕ) (c : Dev nD) (d : Fin 8) : records m ρ K ⊢ (reached ER (recvCell c d) 0 : sProp 𝕄) := by
  have h := reached_at m ρ K (c, rIx d); rwa [kcell_recv] at h

/-- Signal `d` of device `c`, to `peer c d`'s barrier cell: it pays that cell's duty `opp d` with row `opp d` of its own buffer,
    and one unit comes off what it owes. `n` signals remain afterwards. -/
theorem wp_sig (K : Dev nD × Fin 17 → ℕ) (c : Dev nD) (d : Fin 8) (hd : d ≠ 0) (n : ℕ) (hn : fd (7 - n) = d)
    {α : Type} {Q : α → sProp 𝕄} {k : PUnit → Prog (TpuEff nD τ sig (Elt F) Λ₀ .tc) α} {k' : ℕ} (hk' : k' = 1)
    (f : Buf (Elt F) ((c : Thread nD τ).loc cc0_scratch0)) (W : Waits sig Unit) :
    iprop(records m ρ K ∗ owes (c : Thread nD τ) (sigsRem c (n + 1)) W ∗ dutyTok ER (barCell (peer c d)) 0 (opp d) ∗ rowPts c (opp d) fullShare f)
      ⊢ iprop((owes (c : Thread nD τ) (sigsRem c n) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c d : Thread nD τ) barS k') k) Q) := by
  subst hk'
  subst hn
  iintro ⟨#Hrec, HO, Htok, Hrow⟩ Hk
  iapply (Rounds.wp_signal 𝒱₀ ER (Rd m ρ) (c : Thread nD τ) none (dst := (peer c (fd (7 - n)) : Thread nD τ)) (κ := K (peer c (fd (7 - n)), 0))
      (d := opp (fd (7 - n))) (by rw [duties_bar]; exact Finset.mem_erase.2 ⟨opp_ne_zero hd, Finset.mem_univ _⟩)
      (amount_bar m ρ (peer c (fd (7 - n))) (opp (fd (7 - n)))) () (sigsRem c n) rfl) $$ [HO Htok Hrow]
  · isplitr; · iapply (inv_bar m ρ K (peer c (fd (7 - n)))); iexact Hrec
    isplitl [HO]; · iexact HO
    isplitl [Htok]; · iexact Htok
    isplitl [Hrow]
    · rw [payload_bar]; unfold barPay; rw [peer_peer_opp]
      isplitl [Hrow]; · iexists f; iexact Hrow
      iapply (reached_recv m ρ K c (opp (fd (7 - n)))); iexact Hrec
    · iapply (reached_bar m ρ K (peer c (fd (7 - n)))); iexact Hrec
  iexact Hk

/-- The wait for the seven peers' signals, the seven transfers' credits still owed: each peer's row comes with its signal. -/
theorem wp_wait_bar (K : Dev nD × Fin 17 → ℕ) (c : Dev nD)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.reg barS) 7 Kt)
    (W : Waits sig Unit) :
    iprop(records m ρ K ∗ cred (tallyAt (barCell c) () 7) ∗ owes (c : Thread nD τ) (sendsRem c 7) W
        ∗ MayWait (c : Thread nD τ) (.reg barS) () (sendsRem c 7) ∗ atPos ER (barCell c) 0 ∅ 0)
      ⊢ iprop(((owes (c : Thread nD τ) (sendsRem c 7) (insert (SemLoc.reg barS, ()) W) ∗ atPos ER (barCell c) 1 ∅ 0
                ∗ bigSep (Finset.univ.erase 0) (fun e : Fin 8 => (barPay c e : sProp 𝕄))) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hmw, Hat⟩ Hk
  iapply (Rounds.wp_wait_rest_token 𝒱₀ ER (Rd m ρ) (c : Thread nD τ) none (κ := K (c, 0)) hw (Set.mem_univ _) ()
      (O := sendsRem c 7) (W := W) (R := 0) (m := 0) (T := ∅) (by rw [Nat.zero_add, expect_bar])) $$ [Hc HO Hmw Hat]
  · isplitr; · iapply (inv_bar m ρ K c); iexact Hrec
    isplitl [Hc]; · iexact Hc
    isplitl [HO]; · iexact HO
    isplitl [Hmw]; · iexact Hmw
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- Transfer `d`: row 0 of device `c`, read at its share, into row `d` of `n = peer c d`, which `c` holds since the peer's signal.
    `r` transfers remain afterwards. -/
theorem wp_send_row (K : Dev nD × Fin 17 → ℕ) (c n : Dev nD) (d : Fin 8) (hd : d ≠ 0) (hn : n = peer c d) (r : ℕ) (hr : fd (7 - r) = d)
    {hsc : (rowM d : Memref sig (Dev.tc n : Thread nD τ).2.kind .vmem S1x768 .f32).view.ref.isScScratch = false}
    {hsrc : (rowM 0 : Memref sig .tc .vmem S1x768 .f32).view.WordExact} {hdst : (rowM d : Memref sig .tc .vmem S1x768 .f32).view.WordExact}
    {hsem : DmaTarget.Typed .vmem (.dma (recvS d)) (.remote (Dev.tc n : Thread nD τ) (rowM d : Memref sig .tc .vmem S1x768 .f32) (.dma (sendS d)) hsc)}
    {α : Type} {Q : α → sProp 𝕄} {k : PUnit → Prog (TpuEff nD τ sig (Elt F) Λ₀ .tc) α}
    (fn : Buf (Elt F) ((peer c d : Thread nD τ).loc cc0_scratch0)) (W : Waits sig Unit) :
    iprop(records m ρ K ∗ rowPts c 0 (sendShare d) (commFinal m ρ c) ∗ rowPts (peer c d) d fullShare fn
        ∗ owes (c : Thread nD τ) (sendsRem c (r + 1)) W ∗ dutyTok ER (sendCell c d) 0 0 ∗ dutyTok ER (recvCell (peer c d) d) 0 0)
      ⊢ iprop(((cred (tallyAt (sendCell c d) () N) ∗ owes (c : Thread nD τ) (sendsRem c r) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM d) (.dma (sendS d)) hsc) (.dma (recvS d)) hsrc hdst hsem) k) Q) := by
  subst hn
  subst hr
  iintro ⟨#Hrec, Hsrc, Hdst, HO, HtS, HtR⟩
  iapply (Rounds.wp_send_pointsTo 𝒱₀ ER (Rd m ρ) (c : Thread nD τ) none (c' := (peer c (fd (7 - r)) : Thread nD τ))
      (src := (rowM 0 : Memref sig .tc .vmem S1x768 .f32)) (dst := (rowM (fd (7 - r)) : Memref sig .tc .vmem S1x768 .f32))
      (q := sendShare (fd (7 - r))) (fs := commFinal m ρ c) (fd := fn)
      (κ₁ := K (c, sIx (fd (7 - r)))) (κ₂ := K (peer c (fd (7 - r)), rIx (fd (7 - r))))
      (r₁ := 0) (r₂ := 0) (d₁ := 0) (d₂ := 0)
      (by rw [duties_send m ρ c _ hd]; exact Finset.mem_singleton_self _)
      (by rw [duties_recv m ρ (peer c (fd (7 - r))) _ hd]; exact Finset.mem_singleton_self _)
      () () N rfl (amount_send m ρ c (fd (7 - r)) 0) (amount_recv m ρ (peer c (fd (7 - r))) (fd (7 - r)) 0)
      (sendsRem c r) rfl (W := W)
      (by rw [payload_send]; exact BI.Entails.refl _)
      (by
        rw [payload_recv]; unfold recvPay
        exact Entails.of_eq (rowPts_congr (peer c (fd (7 - r))) (fd (7 - r)) fullShare (fun j => landed_row m ρ c (fd (7 - r)) fn j))))
  unfold rowPts
  isplitr; · iapply (inv_send m ρ K c (fd (7 - r))); iexact Hrec
  isplitr; · iapply (inv_recv m ρ K (peer c (fd (7 - r))) (fd (7 - r))); iexact Hrec
  isplitl [Hsrc]; · iexact Hsrc
  isplitl [Hdst]; · iexact Hdst
  isplitl [HO]; · iexact HO
  isplitl [HtS]; · iexact HtS
  isplitr; · iapply (reached_send m ρ K c (fd (7 - r))); iexact Hrec
  isplitl [HtR]; · iexact HtR
  iapply (reached_recv m ρ K (peer c (fd (7 - r))) (fd (7 - r))); iexact Hrec

/-- The wait for the landing in row `d`: the row comes back holding the column sums of the device `d` places before. -/
theorem wp_wait_recv (K : Dev nD × Fin 17 → ℕ) (c : Dev nD) (d : Fin 8) (hd : d ≠ 0)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (recvS d)) N Kt)
    (W : Waits sig Unit) :
    iprop(records m ρ K ∗ cred (tallyAt (recvCell c d) () N) ∗ owes (c : Thread nD τ) 0 W ∗ atPos ER (recvCell c d) 0 ∅ 0)
      ⊢ iprop(((owes (c : Thread nD τ) 0 (insert (SemLoc.dma (recvS d), ()) W) ∗ atPos ER (recvCell c d) 1 ∅ 0
                ∗ rowPts c d fullShare (commFinal m ρ c)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hat⟩ Hk
  iapply (Rounds.wp_wait_rest_token 𝒱₀ ER (Rd m ρ) (c : Thread nD τ) none (κ := K (c, rIx d)) hw (Set.mem_univ _) ()
      (O := 0) (W := W) (R := 0) (m := 0) (T := ∅) (by rw [Nat.zero_add, expect_recv m ρ c d hd])) $$ [Hc HO Hat]
  · isplitr; · iapply (inv_recv m ρ K c d); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m ρ c d hd)) $$ Hpay
  unfold recvPay
  iapply Hk
  isplitl [HO]; · iexact HO
  isplitl [Hat]; · iexact Hat
  iexact Hp

/-- The wait for the departure of transfer `d`: the share of row 0 it read at comes back. -/
theorem wp_wait_send (K : Dev nD × Fin 17 → ℕ) (c : Dev nD) (d : Fin 8) (hd : d ≠ 0)
    {α : Type} {Q : α → sProp 𝕄} {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (sendS d)) N Kt)
    (W : Waits sig Unit) :
    iprop(records m ρ K ∗ cred (tallyAt (sendCell c d) () N) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0
                ∗ rowPts c 0 (sendShare d) (commFinal m ρ c)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, Hc, HO, Hat⟩ Hk
  iapply (Rounds.wp_wait_rest_token 𝒱₀ ER (Rd m ρ) (c : Thread nD τ) none (κ := K (c, sIx d)) hw (Set.mem_univ _) ()
      (O := 0) (W := W) (R := 0) (m := 0) (T := ∅) (by rw [Nat.zero_add, expect_send m ρ c d hd])) $$ [Hc HO Hat]
  · isplitr; · iapply (inv_send m ρ K c d); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m ρ c d hd)) $$ Hpay
  unfold sendPay
  iapply Hk
  isplitl [HO]; · iexact HO
  isplitl [Hat]; · iexact Hat
  iexact Hp

/-- A used cell after its one round, and an unused cell at round 0, closes: its counter at zero is the core's again. -/
theorem close_send (K : Dev nD × Fin 17 → ℕ) (c : Dev nD) (d : Fin 8) :
    iprop(records m ρ K ∗ atPos ER (sendCell c d) (if d = 0 then 0 else 1) ∅ 0) ⊢ (|={Set.univ}=> semVal (sendCell c d) 0 : sProp 𝕄) := by
  by_cases h : d = 0
  · subst h
    rw [if_pos rfl]
    exact (sep_mono_left (inv_send m ρ K c 0)).trans
      (Rounds.cell_close ER (Rd m ρ) (Set.mem_univ (K (c, sIx 0))) (fun h => h) (R := 0) (fun r _ => duties_send0 m ρ c r))
  · rw [if_neg h]
    exact (sep_mono_left (inv_send m ρ K c d)).trans
      (Rounds.cell_close ER (Rd m ρ) (Set.mem_univ (K (c, sIx d))) (fun h => h) (R := 1) (duties_later m ρ (sendCell c d)))
theorem close_recv (K : Dev nD × Fin 17 → ℕ) (c : Dev nD) (d : Fin 8) :
    iprop(records m ρ K ∗ atPos ER (recvCell c d) (if d = 0 then 0 else 1) ∅ 0) ⊢ (|={Set.univ}=> semVal (recvCell c d) 0 : sProp 𝕄) := by
  by_cases h : d = 0
  · subst h
    rw [if_pos rfl]
    exact (sep_mono_left (inv_recv m ρ K c 0)).trans
      (Rounds.cell_close ER (Rd m ρ) (Set.mem_univ (K (c, rIx 0))) (fun h => h) (R := 0) (fun r _ => duties_recv0 m ρ c r))
  · rw [if_neg h]
    exact (sep_mono_left (inv_recv m ρ K c d)).trans
      (Rounds.cell_close ER (Rd m ρ) (Set.mem_univ (K (c, rIx d))) (fun h => h) (R := 1) (duties_later m ρ (recvCell c d)))

end Cert.Kernel.Hand

end
-- ==== Proof.Kernel.Credit.lean ====
/-
  What the launch deals each device against what the devices owe one another, and that every wait sits below what its
  waiter still owes: the staging waits below everything, the barrier wait below the receive cells.
-/
import proofs.«901081_g7700000000001082_dist_sum_ax0_shard0_i_m1536_n768_v7x_i8_bf16_1_alg».proof.Proof.Kernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

namespace Credit

/-! ## The recursive sums, one step at a time -/

theorem sendsRem_zero (c : Dev nD) : sendsRem c 0 = 0 := rfl
theorem sendsRem_succ (c : Dev nD) (n : ℕ) :
    sendsRem c (n + 1) = sendsRem c n + tallyAt (recvCell (peer c (fd (7 - n))) (fd (7 - n))) () N := rfl
theorem sigsRem_zero (c : Dev nD) : sigsRem c 0 = sendsRem c 7 := rfl
theorem sigsRem_succ (c : Dev nD) (n : ℕ) :
    sigsRem c (n + 1) = sigsRem c n + tallyAt (barCell (peer c (fd (7 - n)))) () 1 := rfl

theorem fd_val {k : ℕ} (hk : k < 8) : (fd k).val = k := Nat.mod_eq_of_lt hk
theorem eq_fd_iff {d : Fin 8} {k : ℕ} (hk : k < 8) : d = fd k ↔ d.val = k := by
  rw [Fin.ext_iff, fd_val hk]
theorem fd_ne_zero {k : ℕ} (h1 : 1 ≤ k) (h7 : k ≤ 7) : fd k ≠ 0 := by
  intro h
  have h0 : (fd k).val = (0 : Fin 8).val := congrArg Fin.val h
  rw [fd_val (by omega)] at h0
  change k = 0 at h0
  omega

/-! ## Cells apart -/

theorem recv_ne_bar (d : Fin 8) : (SemLoc.dma (recvS d) : SemLoc sig) ≠ .reg barS := fun h => by cases h
theorem recvS_inj {d e : Fin 8} (h : recvS d = recvS e) : d = e := by
  have hv : (recvS d).val = (recvS e).val := congrArg (fun q : DmaSem sig => q.val) h
  rw [recvS_val, recvS_val] at hv
  exact Fin.ext (by omega)
theorem bar_eq_iff {a b : Dev nD} : barCell a = barCell b ↔ a = b :=
  ⟨fun h => Fin.ext (congrArg (fun g : GSem nD τ sig => g.1.1.val) h), fun h => h ▸ rfl⟩
theorem recv_eq_iff {a b : Dev nD} {d e : Fin 8} : recvCell a d = recvCell b e ↔ a = b ∧ d = e :=
  ⟨fun h => ⟨Fin.ext (congrArg (fun g : GSem nD τ sig => g.1.1.val) h), recvS_inj (SemLoc.dma.inj (congrArg Prod.snd h))⟩,
    fun h => by rw [h.1, h.2]⟩
theorem peer_eq_iff (e c : Dev nD) (d : Fin 8) : peer e d = c ↔ e = src c d := by revert e c d; decide

/-- A one-cell tally is positive only at its cell. -/
theorem tallyAt_pos {g g' : GSem nD τ sig} {k : ℕ} {u : Unit}
    (h : 0 < (tallyAt g () k : CellTallies nD τ sig Unit) g' u) : g' = g := by
  rw [tallyAt_apply] at h
  by_contra hg
  rw [if_neg (fun h' => hg h'.1)] at h
  exact Nat.lt_irrefl 0 h

/-! ## The levels of the three kinds of cell -/

theorem lv_recv (c : Dev nD) (d : Fin 8) (u : Unit) : lv (recvCell c d) u = 2 := by
  show (if 10 ≤ (recvS d).val then 2 else 0) = 2
  rw [if_pos (by rw [recvS_val]; omega)]
theorem lv_bar (c : Dev nD) (u : Unit) : lv (barCell c) u = 1 := by
  show (if barS = barS then 1 else 0) = 1
  rw [if_pos rfl]
theorem lv_low (c : Dev nD) (q : DmaSem sig) (hq : q.val < 2) (u : Unit) : lv ((c : Thread nD τ), .dma q) u = 0 := by
  show (if 10 ≤ q.val then 2 else 0) = 0
  rw [if_neg (by omega)]

end Credit

/-- What is owed for the transfers still to start is owed to a peer's receive cell. -/
theorem sendsRem_pos {c : Dev nD} {n : ℕ} (hn : n ≤ 7) {g : GSem nD τ sig} {u : Unit} (h : 0 < sendsRem c n g u) :
    ∃ d : Fin 8, d ≠ 0 ∧ g = recvCell (peer c d) d := by
  induction n with
  | zero =>
    rw [Credit.sendsRem_zero, Pi.zero_apply, Finsupp.zero_apply] at h
    exact absurd h (Nat.lt_irrefl 0)
  | succ n ih =>
    rw [Credit.sendsRem_succ, Pi.add_apply, Finsupp.add_apply] at h
    by_cases h1 : 0 < sendsRem c n g u
    · exact ih (by omega) h1
    · have h2 : 0 < (tallyAt (recvCell (peer c (fd (7 - n))) (fd (7 - n))) () N : CellTallies nD τ sig Unit) g u := by omega
      exact ⟨fd (7 - n), Credit.fd_ne_zero (by omega) (by omega), Credit.tallyAt_pos h2⟩

/-- With signals still to make, what is owed is owed to a peer's receive cell or to a peer's barrier cell. -/
theorem sigsRem_pos {c : Dev nD} {n : ℕ} (hn : n ≤ 7) {g : GSem nD τ sig} {u : Unit} (h : 0 < sigsRem c n g u) :
    (∃ d : Fin 8, d ≠ 0 ∧ g = recvCell (peer c d) d) ∨ (∃ d : Fin 8, d ≠ 0 ∧ g = barCell (peer c d)) := by
  induction n with
  | zero =>
    rw [Credit.sigsRem_zero] at h
    exact Or.inl (sendsRem_pos (le_refl 7) h)
  | succ n ih =>
    rw [Credit.sigsRem_succ, Pi.add_apply, Finsupp.add_apply] at h
    by_cases h1 : 0 < sigsRem c n g u
    · exact ih (by omega) h1
    · have h2 : 0 < (tallyAt (barCell (peer c (fd (7 - n)))) () 1 : CellTallies nD τ sig Unit) g u := by omega
      exact Or.inr ⟨fd (7 - n), Credit.fd_ne_zero (by omega) (by omega), Credit.tallyAt_pos h2⟩

/-- What is owed at launch is owed to a peer's barrier cell or to a peer's receive cell. -/
theorem O₀_pos {c : Dev nD} {g : GSem nD τ sig} {u : Unit} (h : 0 < O₀ c g u) :
    (∃ d : Fin 8, d ≠ 0 ∧ g = recvCell (peer c d) d) ∨ (∃ d : Fin 8, d ≠ 0 ∧ g = barCell (peer c d)) :=
  sigsRem_pos (le_refl 7) h

/-- A staging wait (the pipeline's own two DMA semaphores) sits below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, _, rfl⟩ | ⟨d, _, rfl⟩ <;> exact Finset.mem_singleton_self _)
      (fun p hp => by rw [Finset.mem_singleton.mp hp]; exact le_of_eq (Credit.lv_low c q hq ()))
      (fun g u hg => by
        rcases O₀_pos hg with ⟨d, _, rfl⟩ | ⟨d, _, rfl⟩
        · rw [Credit.lv_recv]; decide
        · rw [Credit.lv_bar]; decide)
  · rw [MayWait_zero]; iintro -; iempintro

/-- At its barrier wait a device owes the seven transfers' credits only: receive cells, above its barrier cell. -/
theorem mayWait_bar (c : Dev nD) :
    (levAts L lv : sProp 𝕄) ⊢ MayWait (c : Thread nD τ) (.reg barS) () (sendsRem c 7) :=
  MayOwe.of_cut (L := L) (lev := lv) 1 (fun p hp => by rw [Finset.mem_singleton.mp hp, L_tc]; exact Finset.mem_singleton_self _)
    (fun g u hg => by obtain ⟨d, _, rfl⟩ := sendsRem_pos (le_refl 7) hg; exact Finset.mem_singleton_self _)
    (fun p hp => by rw [Finset.mem_singleton.mp hp]; exact le_of_eq (Credit.lv_bar c ()))
    (fun g u hg => by obtain ⟨d, _, rfl⟩ := sendsRem_pos (le_refl 7) hg; rw [Credit.lv_recv]; decide)

namespace Credit

/-! ## What the eight devices together owe one cell -/

theorem sendsRem_bar (e c : Dev nD) (n : ℕ) : sendsRem e n (barCell c) () = 0 := by
  induction n with
  | zero => rw [sendsRem_zero, Pi.zero_apply, Finsupp.zero_apply]
  | succ n ih =>
    rw [sendsRem_succ, Pi.add_apply, Finsupp.add_apply, ih,
      tallyAt_ne_cell (fun h => recv_ne_bar _ (congrArg Prod.snd h).symm), Finsupp.zero_apply, Nat.add_zero]

theorem sigsRem_recv (e c : Dev nD) (d : Fin 8) (n : ℕ) : sigsRem e n (recvCell c d) () = sendsRem e 7 (recvCell c d) () := by
  induction n with
  | zero => rw [sigsRem_zero]
  | succ n ih =>
    rw [sigsRem_succ, Pi.add_apply, Finsupp.add_apply, ih,
      tallyAt_ne_cell (fun h => recv_ne_bar d (congrArg Prod.snd h)), Finsupp.zero_apply, Nat.add_zero]

/-- Signal `k` of the eight devices: exactly one of them, the device `k` places before `c`, names `c`. -/
theorem sum_bar_term (c : Dev nD) (k : Fin 8) :
    (Finset.univ.sum fun e : Dev nD => (tallyAt (barCell (peer e k)) () 1 : CellTallies nD τ sig Unit) (barCell c) ()) = 1 := by
  have hpt : ∀ e : Dev nD, (tallyAt (barCell (peer e k)) () 1 : CellTallies nD τ sig Unit) (barCell c) () = if e = src c k then 1 else 0 := by
    intro e
    rw [tallyAt_apply]
    by_cases h : e = src c k
    · subst h; rw [peer_src, if_pos ⟨rfl, rfl⟩, if_pos rfl]
    · rw [if_neg (fun h' => h ((peer_eq_iff e c k).mp (bar_eq_iff.mp h'.1).symm)), if_neg h]
  rw [Finset.sum_congr rfl (fun e _ => hpt e), Finset.sum_ite_eq' Finset.univ (src c k) fun _ => 1, if_pos (Finset.mem_univ _)]

/-- Transfer `k` of the eight devices lands in row `k` only, and in `c`'s row `k` from exactly one of them. -/
theorem sum_recv_term (c : Dev nD) (d k : Fin 8) :
    (Finset.univ.sum fun e : Dev nD => (tallyAt (recvCell (peer e k) k) () N : CellTallies nD τ sig Unit) (recvCell c d) ())
      = if d = k then N else 0 := by
  by_cases hdk : d = k
  · subst hdk
    have hpt : ∀ e : Dev nD, (tallyAt (recvCell (peer e d) d) () N : CellTallies nD τ sig Unit) (recvCell c d) () = if e = src c d then N else 0 := by
      intro e
      rw [tallyAt_apply]
      by_cases h : e = src c d
      · subst h; rw [peer_src, if_pos ⟨rfl, rfl⟩, if_pos rfl]
      · rw [if_neg (fun h' => h ((peer_eq_iff e c d).mp (recv_eq_iff.mp h'.1).1.symm)), if_neg h]
    rw [if_pos rfl, Finset.sum_congr rfl (fun e _ => hpt e), Finset.sum_ite_eq' Finset.univ (src c d) fun _ => N, if_pos (Finset.mem_univ _)]
  · rw [if_neg hdk]
    exact Finset.sum_eq_zero fun e _ => by rw [tallyAt_apply, if_neg (fun h' => hdk (recv_eq_iff.mp h'.1).2)]

theorem sum_sigsRem_bar (c : Dev nD) (n : ℕ) : (Finset.univ.sum fun e : Dev nD => sigsRem e n (barCell c) ()) = n := by
  induction n with
  | zero => exact Finset.sum_eq_zero fun e _ => by rw [sigsRem_zero]; exact sendsRem_bar e c 7
  | succ n ih =>
    simp only [sigsRem_succ, Pi.add_apply, Finsupp.add_apply, Finset.sum_add_distrib]
    rw [ih, sum_bar_term]

theorem sum_sendsRem_recv (c : Dev nD) (d : Fin 8) (n : ℕ) (hn : n ≤ 7) :
    (Finset.univ.sum fun e : Dev nD => sendsRem e n (recvCell c d) ()) = if 8 - n ≤ d.val then N else 0 := by
  induction n with
  | zero =>
    rw [if_neg (by have := d.isLt; omega)]
    exact Finset.sum_eq_zero fun e _ => by rw [sendsRem_zero, Pi.zero_apply, Finsupp.zero_apply]
  | succ n ih =>
    have hk : 7 - n < 8 := by omega
    simp only [sendsRem_succ, Pi.add_apply, Finsupp.add_apply, Finset.sum_add_distrib]
    rw [ih (by omega), sum_recv_term]
    by_cases h1 : d = fd (7 - n)
    · have h1' := (eq_fd_iff hk).mp h1
      rw [if_pos h1, if_neg (by omega), if_pos (by omega), Nat.zero_add]
    · have h1' : d.val ≠ 7 - n := fun h => h1 ((eq_fd_iff hk).mpr h)
      rw [if_neg h1, Nat.add_zero]
      by_cases h2 : 8 - n ≤ d.val
      · rw [if_pos h2, if_pos (by omega)]
      · rw [if_neg h2, if_neg (by omega)]

/-! ## The launch credit of the barrier cell and of a receive cell -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact sum_sigsRem_bar c 7

theorem launch_recv (c : Dev nD) (d : Fin 8) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same]
  have h1 : 1 ≤ d.val := Nat.pos_of_ne_zero fun h => hd (Fin.ext h)
  show (Finset.univ.sum fun e : Dev nD => sigsRem e 7 (recvCell c d) ()) = N
  rw [Finset.sum_congr rfl (fun e _ => sigsRem_recv e c d 7), sum_sendsRem_recv c d 7 (le_refl 7), if_pos (by omega)]

end Credit

/-- The launch credit of device `c`: seven units on its barrier cell, a row on each of its seven receive cells. -/
theorem creds_intro (c : Dev nD) : (Pipeline.launchCred O₀ c : sProp 𝕄) ⊢ creds c := by
  unfold Pipeline.launchCred creds
  rw [bigSep_univ_at _ (SemLoc.reg barS), Credit.launch_bar]
  refine sep_mono_right ?_
  refine (bigSep_subset (t := (Finset.univ.erase (0 : Fin 8)).image fun d : Fin 8 => (SemLoc.dma (recvS d) : SemLoc sig)) ?_).trans ?_
  · intro sm hsm
    obtain ⟨d, _, rfl⟩ := Finset.mem_image.mp hsm
    exact Finset.mem_erase.mpr ⟨Credit.recv_ne_bar d, Finset.mem_univ _⟩
  · rw [bigSep_image_of_injOn (fun a _ b _ h => Credit.recvS_inj (SemLoc.dma.inj h))]
    exact Entails.of_eq (bigSep_congr fun d hd => congrArg cred (Credit.launch_recv c d (Finset.ne_of_mem_erase hd)))

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.Kernel.Hand

end
-- ==== Proof.Kernel.Body.lean ====
/-
  One device's body, stepped once at a symbolic device: the seven entry signals, the wait for the peers, the device's own column
  sums into row 0, the seven transfers, the seven landings, the eight rows added into the result, the seven departures, and
  the buffer and the sixteen semaphores handed back.
-/
import proofs.«901081_g7700000000001082_dist_sum_ax0_shard0_i_m1536_n768_v7x_i8_bf16_1_alg».proof.Proof.Kernel.Proto
import proofs.«901081_g7700000000001082_dist_sum_ax0_shard0_i_m1536_n768_v7x_i8_bf16_1_alg».proof.Proof.Kernel.Tables
import proofs.«901081_g7700000000001082_dist_sum_ax0_shard0_i_m1536_n768_v7x_i8_bf16_1_alg».proof.Proof.Kernel.Rows
import proofs.«901081_g7700000000001082_dist_sum_ax0_shard0_i_m1536_n768_v7x_i8_bf16_1_alg».proof.Proof.Kernel.Steps
import proofs.«901081_g7700000000001082_dist_sum_ax0_shard0_i_m1536_n768_v7x_i8_bf16_1_alg».proof.Proof.Kernel.Credit

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Past a return if the program is at one, then on through the pure statements to the next effect. -/
macro "sl_next" : tactic =>
  `(tactic| ((try sl_step); first | sl_exec | simp only [Prog.lift, Prog.bind_op, Prog.bind_ret, Prog.pure_eq_ret]))

omit [FloatOps F] in
/-- A family over the seven peer offsets, one by one. -/
theorem bigSep_ne0 (Φ : Fin 8 → sProp 𝕄) : bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
/-- A family over the eight rows, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 17 → ℕ) (c : Dev nD) : sProp 𝕄 :=
  iprop((ghost m ρ K c ∗ creds c ∗ levAts L lv ∗ commAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The body from `bodyPre` to `bodyPost`. -/
theorem sound_body (K : Dev nD × Fin 17 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  sl_unfold [cc0_body]
  unfold bodyPre ghost positions payToks creds commAny
  iintro ⟨⟨⟨⟨#HR, ⟨HatB, HatS, HatV⟩, ⟨HtB, HtV, HtS⟩⟩, ⟨HcB, HcV⟩, #Hlev, ⟨%f0, Hcomm⟩⟩, Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the buffer by rows, the tokens and credits one by one
  ihave Hrows := (comm_rows c fullShare f0).1 $$ Hcomm
  ihave Hrows := (Entails.of_eq (bigSep_fin8 _)) $$ Hrows
  icases Hrows with ⟨Hr0, Hr1, Hr2, Hr3, Hr4, Hr5, Hr6, Hr7⟩
  ihave HtB := (Entails.of_eq (bigSep_ne0 _)) $$ HtB
  icases HtB with ⟨HtB1, HtB2, HtB3, HtB4, HtB5, HtB6, HtB7⟩
  sl_exec
  -- signal 1, to the next device: row 7 goes with it
  rw [show (⟨k0_dev1 (Dev.tc (τ := τ) c).1, k0_dev1_lt (Dev.tc (τ := τ) c).1⟩ : Dev nD) = peer c 1 from dev1_eq c]
  iapply (wp_sig m ρ K c 1 (by decide) 6 (by decide) (by decide) f0 W) $$ [HO HtB1 Hr7]
  · isplitr; · iexact HR
    isplitl [HO]; · iexact HO
    isplitl [HtB1]; · iexact HtB1
    iexact Hr7
  iintro HO
  sl_next
  -- signal 2: row 6 goes with it
  rw [show (⟨k0_dev2 (Dev.tc (τ := τ) c).1, k0_dev2_lt (Dev.tc (τ := τ) c).1⟩ : Dev nD) = peer c 2 from dev2_eq c]
  iapply (wp_sig m ρ K c 2 (by decide) 5 (by decide) (by decide) f0 W) $$ [HO HtB2 Hr6]
  · isplitr; · iexact HR
    isplitl [HO]; · iexact HO
    isplitl [HtB2]; · iexact HtB2
    iexact Hr6
  iintro HO
  sl_next
  -- signal 3: row 5 goes with it
  rw [show (⟨k0_dev3 (Dev.tc (τ := τ) c).1, k0_dev3_lt (Dev.tc (τ := τ) c).1⟩ : Dev nD) = peer c 3 from dev3_eq c]
  iapply (wp_sig m ρ K c 3 (by decide) 4 (by decide) (by decide) f0 W) $$ [HO HtB3 Hr5]
  · isplitr; · iexact HR
    isplitl [HO]; · iexact HO
    isplitl [HtB3]; · iexact HtB3
    iexact Hr5
  iintro HO
  sl_next
  -- signal 4: row 4 goes with it
  rw [show (⟨k0_dev4 (Dev.tc (τ := τ) c).1, k0_dev4_lt (Dev.tc (τ := τ) c).1⟩ : Dev nD) = peer c 4 from dev4_eq c]
  iapply (wp_sig m ρ K c 4 (by decide) 3 (by decide) (by decide) f0 W) $$ [HO HtB4 Hr4]
  · isplitr; · iexact HR
    isplitl [HO]; · iexact HO
    isplitl [HtB4]; · iexact HtB4
    iexact Hr4
  iintro HO
  sl_next
  -- signal 5: row 3 goes with it
  rw [show (⟨k0_dev5 (Dev.tc (τ := τ) c).1, k0_dev5_lt (Dev.tc (τ := τ) c).1⟩ : Dev nD) = peer c 5 from dev5_eq c]
  iapply (wp_sig m ρ K c 5 (by decide) 2 (by decide) (by decide) f0 W) $$ [HO HtB5 Hr3]
  · isplitr; · iexact HR
    isplitl [HO]; · iexact HO
    isplitl [HtB5]; · iexact HtB5
    iexact Hr3
  iintro HO
  sl_next
  -- signal 6: row 2 goes with it
  rw [show (⟨k0_dev6 (Dev.tc (τ := τ) c).1, k0_dev6_lt (Dev.tc (τ := τ) c).1⟩ : Dev nD) = peer c 6 from dev6_eq c]
  iapply (wp_sig m ρ K c 6 (by decide) 1 (by decide) (by decide) f0 W) $$ [HO HtB6 Hr2]
  · isplitr; · iexact HR
    isplitl [HO]; · iexact HO
    isplitl [HtB6]; · iexact HtB6
    iexact Hr2
  iintro HO
  sl_next
  -- signal 7: row 1 goes with it
  rw [show (⟨k0_dev7 (Dev.tc (τ := τ) c).1, k0_dev7_lt (Dev.tc (τ := τ) c).1⟩ : Dev nD) = peer c 7 from dev7_eq c]
  iapply (wp_sig m ρ K c 7 (by decide) 0 (by decide) (by decide) f0 W) $$ [HO HtB7 Hr1]
  · isplitr; · iexact HR
    isplitl [HO]; · iexact HO
    isplitl [HtB7]; · iexact HtB7
    iexact Hr1
  iintro HO
  sl_next
  -- the wait for the seven peers: each peer's row comes with its signal
  iapply (wp_wait_bar m ρ K c (wpE_semWait_eq 𝒱₀ (c : Thread nD τ) none Set.univ) W) $$ [HcB HO HatB]
  · isplitr; · iexact HR
    isplitl [HcB]; · iexact HcB
    isplitl [HO]; · iexact HO
    isplitr; · iapply (mayWait_bar c); iexact Hlev
    iexact HatB
  iintro ⟨HO, HatB, Hpay⟩
  ihave Hpay := (Entails.of_eq (bigSep_ne0 _)) $$ Hpay
  unfold barPay
  icases Hpay with ⟨⟨⟨%fn1, Hp1⟩, -⟩, ⟨⟨%fn2, Hp2⟩, -⟩, ⟨⟨%fn3, Hp3⟩, -⟩, ⟨⟨%fn4, Hp4⟩, -⟩, ⟨⟨%fn5, Hp5⟩, -⟩, ⟨⟨%fn6, Hp6⟩, -⟩, ⟨⟨%fn7, Hp7⟩, -⟩⟩
  try sl_step
  simp only [Prog.lift, Prog.bind_op, Prog.bind_ret, Prog.pure_eq_ret]
  -- the block of x is read whole
  iapply (wp_load 𝒱₀ (c : Thread nD τ) none Set.univ (m := xM) (Finset.subset_univ _)) $$ Hx; iintro Hx
  rw [read_x]
  -- row 0 is read, then the column sums of the block are stored into it
  ihave Hr0 := (show rowPts c 0 fullShare f0 ⊢ ((cM.access (rowR 0)).loc (c : Thread nD τ) ↦[(rowM 0 : Memref sig .tc .vmem S1x768 .f32).view.set]{fullShare} f0) from Entails.of_eq rfl) $$ Hr0
  iapply (wp_load_rect 𝒱₀ (c : Thread nD τ) none Set.univ (m := cM) (r := rowR 0) (S := (rowM 0 : Memref sig .tc .vmem S1x768 .f32).view.set) (subset_of_eq rfl)) $$ Hr0; iintro Hr0
  iapply (wp_store 𝒱₀ (c : Thread nD τ) none Set.univ (m := cM) (r := rowR 0) (Mk := Finset.univ) (S := (rowM 0 : Memref sig .tc .vmem S1x768 .f32).view.set) (subset_of_eq rfl)) $$ Hr0; iintro Hr0
  ihave Hr0 := (show ((cM.access (rowR 0)).loc (c : Thread nD τ) ↦[(rowM 0 : Memref sig .tc .vmem S1x768 .f32).view.set]{fullShare} ((cM.access (rowR 0)).write (Elt F) f0 (k0_pay1 (xstg m ρ c)) Finset.univ)) ⊢ rowPts c 0 fullShare (commFinal m ρ c) from
    Entails.of_eq (rowPts_congr c 0 fullShare (fun j => stored_row0 m ρ c f0 j))) $$ Hr0
  -- row 0 by shares: the left half is kept, the right half goes to the seven transfers
  ihave Hh := (rowPts_halves c 0 fullShare (commFinal m ρ c)).1 $$ Hr0
  icases Hh with ⟨Hk0, Hright⟩
  ihave Hs := (row0_shares c (commFinal m ρ c)).1 $$ Hright
  ihave Hs := (Entails.of_eq (bigSep_ne0 _)) $$ Hs
  icases Hs with ⟨Hs1, Hs2, Hs3, Hs4, Hs5, Hs6, Hs7⟩
  ihave HtS := (Entails.of_eq (bigSep_ne0 _)) $$ HtS
  icases HtS with ⟨HtS1, HtS2, HtS3, HtS4, HtS5, HtS6, HtS7⟩
  ihave HtV := (Entails.of_eq (bigSep_ne0 _)) $$ HtV
  icases HtV with ⟨HtV1, HtV2, HtV3, HtV4, HtV5, HtV6, HtV7⟩
  -- transfer 1: row 0 into row 1 of the device 1 places on
  iapply (wp_send_row m ρ K c _ 1 (by decide) (dev8_eq c) 6 (by decide) fn1 _) $$ [Hs1 Hp1 HO HtS1 HtV1]
  · isplitr; · iexact HR
    isplitl [Hs1]; · iexact Hs1
    isplitl [Hp1]; · iexact Hp1
    isplitl [HO]; · iexact HO
    isplitl [HtS1]; · iexact HtS1
    iexact HtV1
  iintro ⟨HcS1, HO⟩
  sl_next
  -- transfer 2: row 0 into row 2 of the device 2 places on
  iapply (wp_send_row m ρ K c _ 2 (by decide) (dev9_eq c) 5 (by decide) fn2 _) $$ [Hs2 Hp2 HO HtS2 HtV2]
  · isplitr; · iexact HR
    isplitl [Hs2]; · iexact Hs2
    isplitl [Hp2]; · iexact Hp2
    isplitl [HO]; · iexact HO
    isplitl [HtS2]; · iexact HtS2
    iexact HtV2
  iintro ⟨HcS2, HO⟩
  sl_next
  -- transfer 3: row 0 into row 3 of the device 3 places on
  iapply (wp_send_row m ρ K c _ 3 (by decide) (dev10_eq c) 4 (by decide) fn3 _) $$ [Hs3 Hp3 HO HtS3 HtV3]
  · isplitr; · iexact HR
    isplitl [Hs3]; · iexact Hs3
    isplitl [Hp3]; · iexact Hp3
    isplitl [HO]; · iexact HO
    isplitl [HtS3]; · iexact HtS3
    iexact HtV3
  iintro ⟨HcS3, HO⟩
  sl_next
  -- transfer 4: row 0 into row 4 of the device 4 places on
  iapply (wp_send_row m ρ K c _ 4 (by decide) (dev11_eq c) 3 (by decide) fn4 _) $$ [Hs4 Hp4 HO HtS4 HtV4]
  · isplitr; · iexact HR
    isplitl [Hs4]; · iexact Hs4
    isplitl [Hp4]; · iexact Hp4
    isplitl [HO]; · iexact HO
    isplitl [HtS4]; · iexact HtS4
    iexact HtV4
  iintro ⟨HcS4, HO⟩
  sl_next
  -- transfer 5: row 0 into row 5 of the device 5 places on
  iapply (wp_send_row m ρ K c _ 5 (by decide) (dev12_eq c) 2 (by decide) fn5 _) $$ [Hs5 Hp5 HO HtS5 HtV5]
  · isplitr; · iexact HR
    isplitl [Hs5]; · iexact Hs5
    isplitl [Hp5]; · iexact Hp5
    isplitl [HO]; · iexact HO
    isplitl [HtS5]; · iexact HtS5
    iexact HtV5
  iintro ⟨HcS5, HO⟩
  sl_next
  -- transfer 6: row 0 into row 6 of the device 6 places on
  iapply (wp_send_row m ρ K c _ 6 (by decide) (dev13_eq c) 1 (by decide) fn6 _) $$ [Hs6 Hp6 HO HtS6 HtV6]
  · isplitr; · iexact HR
    isplitl [Hs6]; · iexact Hs6
    isplitl [Hp6]; · iexact Hp6
    isplitl [HO]; · iexact HO
    isplitl [HtS6]; · iexact HtS6
    iexact HtV6
  iintro ⟨HcS6, HO⟩
  sl_next
  -- transfer 7: row 0 into row 7 of the device 7 places on
  iapply (wp_send_row m ρ K c _ 7 (by decide) (dev14_eq c) 0 (by decide) fn7 _) $$ [Hs7 Hp7 HO HtS7 HtV7]
  · isplitr; · iexact HR
    isplitl [Hs7]; · iexact Hs7
    isplitl [Hp7]; · iexact Hp7
    isplitl [HO]; · iexact HO
    isplitl [HtS7]; · iexact HtS7
    iexact HtV7
  iintro ⟨HcS7, HO⟩
  sl_next
  -- the positions and the credits one by one
  ihave HatS := (Entails.of_eq (bigSep_fin8 _)) $$ HatS
  icases HatS with ⟨HatS0, HatS1, HatS2, HatS3, HatS4, HatS5, HatS6, HatS7⟩
  ihave HatV := (Entails.of_eq (bigSep_fin8 _)) $$ HatV
  icases HatV with ⟨HatV0, HatV1, HatV2, HatV3, HatV4, HatV5, HatV6, HatV7⟩
  ihave HcV := (Entails.of_eq (bigSep_ne0 _)) $$ HcV
  icases HcV with ⟨HcV1, HcV2, HcV3, HcV4, HcV5, HcV6, HcV7⟩
  -- the landing in row 1
  iapply (wp_wait_recv m ρ K c 1 (by decide) (fun Kt => wpE_waitDma2_eq 𝒱₀ (c : Thread nD τ) none Set.univ (src := rowM 0) (dst := rowM 1) Kt) _) $$ [HcV1 HO HatV1]
  · isplitr; · iexact HR
    isplitl [HcV1]; · iexact HcV1
    isplitl [HO]; · iexact HO
    iexact HatV1
  iintro ⟨HO, HatV1, Hr1⟩
  sl_next
  -- the landing in row 2
  iapply (wp_wait_recv m ρ K c 2 (by decide) (fun Kt => wpE_waitDma2_eq 𝒱₀ (c : Thread nD τ) none Set.univ (src := rowM 0) (dst := rowM 2) Kt) _) $$ [HcV2 HO HatV2]
  · isplitr; · iexact HR
    isplitl [HcV2]; · iexact HcV2
    isplitl [HO]; · iexact HO
    iexact HatV2
  iintro ⟨HO, HatV2, Hr2⟩
  sl_next
  -- the landing in row 3
  iapply (wp_wait_recv m ρ K c 3 (by decide) (fun Kt => wpE_waitDma2_eq 𝒱₀ (c : Thread nD τ) none Set.univ (src := rowM 0) (dst := rowM 3) Kt) _) $$ [HcV3 HO HatV3]
  · isplitr; · iexact HR
    isplitl [HcV3]; · iexact HcV3
    isplitl [HO]; · iexact HO
    iexact HatV3
  iintro ⟨HO, HatV3, Hr3⟩
  sl_next
  -- the landing in row 4
  iapply (wp_wait_recv m ρ K c 4 (by decide) (fun Kt => wpE_waitDma2_eq 𝒱₀ (c : Thread nD τ) none Set.univ (src := rowM 0) (dst := rowM 4) Kt) _) $$ [HcV4 HO HatV4]
  · isplitr; · iexact HR
    isplitl [HcV4]; · iexact HcV4
    isplitl [HO]; · iexact HO
    iexact HatV4
  iintro ⟨HO, HatV4, Hr4⟩
  sl_next
  -- the landing in row 5
  iapply (wp_wait_recv m ρ K c 5 (by decide) (fun Kt => wpE_waitDma2_eq 𝒱₀ (c : Thread nD τ) none Set.univ (src := rowM 0) (dst := rowM 5) Kt) _) $$ [HcV5 HO HatV5]
  · isplitr; · iexact HR
    isplitl [HcV5]; · iexact HcV5
    isplitl [HO]; · iexact HO
    iexact HatV5
  iintro ⟨HO, HatV5, Hr5⟩
  sl_next
  -- the landing in row 6
  iapply (wp_wait_recv m ρ K c 6 (by decide) (fun Kt => wpE_waitDma2_eq 𝒱₀ (c : Thread nD τ) none Set.univ (src := rowM 0) (dst := rowM 6) Kt) _) $$ [HcV6 HO HatV6]
  · isplitr; · iexact HR
    isplitl [HcV6]; · iexact HcV6
    isplitl [HO]; · iexact HO
    iexact HatV6
  iintro ⟨HO, HatV6, Hr6⟩
  sl_next
  -- the landing in row 7
  iapply (wp_wait_recv m ρ K c 7 (by decide) (fun Kt => wpE_waitDma2_eq 𝒱₀ (c : Thread nD τ) none Set.univ (src := rowM 0) (dst := rowM 7) Kt) _) $$ [HcV7 HO HatV7]
  · isplitr; · iexact HR
    isplitl [HcV7]; · iexact HcV7
    isplitl [HO]; · iexact HO
    iexact HatV7
  iintro ⟨HO, HatV7, Hr7⟩
  try sl_step
  simp only [Prog.lift, Prog.bind_op, Prog.bind_ret, Prog.pure_eq_ret]
  -- rows 1 to 7 by halves: with the kept half of row 0 the left halves are the whole buffer at that share, which the load of all eight rows reads
  ihave Hh := (rowPts_halves c 1 fullShare (commFinal m ρ c)).1 $$ Hr1
  icases Hh with ⟨Hl1, Hrr1⟩
  ihave Hh := (rowPts_halves c 2 fullShare (commFinal m ρ c)).1 $$ Hr2
  icases Hh with ⟨Hl2, Hrr2⟩
  ihave Hh := (rowPts_halves c 3 fullShare (commFinal m ρ c)).1 $$ Hr3
  icases Hh with ⟨Hl3, Hrr3⟩
  ihave Hh := (rowPts_halves c 4 fullShare (commFinal m ρ c)).1 $$ Hr4
  icases Hh with ⟨Hl4, Hrr4⟩
  ihave Hh := (rowPts_halves c 5 fullShare (commFinal m ρ c)).1 $$ Hr5
  icases Hh with ⟨Hl5, Hrr5⟩
  ihave Hh := (rowPts_halves c 6 fullShare (commFinal m ρ c)).1 $$ Hr6
  icases Hh with ⟨Hl6, Hrr6⟩
  ihave Hh := (rowPts_halves c 7 fullShare (commFinal m ρ c)).1 $$ Hr7
  icases Hh with ⟨Hl7, Hrr7⟩
  ihave Hall := (Entails.of_eq (bigSep_fin8 (fun d : Fin 8 => rowPts c d keptShare (commFinal m ρ c))).symm) $$ [Hk0 Hl1 Hl2 Hl3 Hl4 Hl5 Hl6 Hl7]
  ·
    isplitl [Hk0]; · iexact Hk0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  ihave Hall := (comm_rows c keptShare (commFinal m ρ c)).2 $$ Hall
  iapply (wp_load 𝒱₀ (c : Thread nD τ) none Set.univ (m := cM) (Finset.subset_univ _)) $$ Hall; iintro Hall
  rw [read_comm]
  -- the eight rows added are stored into the result
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out]
  sl_next
  -- the departure of transfer 1
  iapply (wp_wait_send m ρ K c 1 (by decide) (fun Kt => wpE_waitDma2_eq 𝒱₀ (c : Thread nD τ) none Set.univ (src := rowM 1) (dst := rowM 0) Kt) _) $$ [HcS1 HO HatS1]
  · isplitr; · iexact HR
    isplitl [HcS1]; · iexact HcS1
    isplitl [HO]; · iexact HO
    iexact HatS1
  iintro ⟨HO, HatS1, Hs1⟩
  sl_next
  -- the departure of transfer 2
  iapply (wp_wait_send m ρ K c 2 (by decide) (fun Kt => wpE_waitDma2_eq 𝒱₀ (c : Thread nD τ) none Set.univ (src := rowM 2) (dst := rowM 0) Kt) _) $$ [HcS2 HO HatS2]
  · isplitr; · iexact HR
    isplitl [HcS2]; · iexact HcS2
    isplitl [HO]; · iexact HO
    iexact HatS2
  iintro ⟨HO, HatS2, Hs2⟩
  sl_next
  -- the departure of transfer 3
  iapply (wp_wait_send m ρ K c 3 (by decide) (fun Kt => wpE_waitDma2_eq 𝒱₀ (c : Thread nD τ) none Set.univ (src := rowM 3) (dst := rowM 0) Kt) _) $$ [HcS3 HO HatS3]
  · isplitr; · iexact HR
    isplitl [HcS3]; · iexact HcS3
    isplitl [HO]; · iexact HO
    iexact HatS3
  iintro ⟨HO, HatS3, Hs3⟩
  sl_next
  -- the departure of transfer 4
  iapply (wp_wait_send m ρ K c 4 (by decide) (fun Kt => wpE_waitDma2_eq 𝒱₀ (c : Thread nD τ) none Set.univ (src := rowM 4) (dst := rowM 0) Kt) _) $$ [HcS4 HO HatS4]
  · isplitr; · iexact HR
    isplitl [HcS4]; · iexact HcS4
    isplitl [HO]; · iexact HO
    iexact HatS4
  iintro ⟨HO, HatS4, Hs4⟩
  sl_next
  -- the departure of transfer 5
  iapply (wp_wait_send m ρ K c 5 (by decide) (fun Kt => wpE_waitDma2_eq 𝒱₀ (c : Thread nD τ) none Set.univ (src := rowM 5) (dst := rowM 0) Kt) _) $$ [HcS5 HO HatS5]
  · isplitr; · iexact HR
    isplitl [HcS5]; · iexact HcS5
    isplitl [HO]; · iexact HO
    iexact HatS5
  iintro ⟨HO, HatS5, Hs5⟩
  sl_next
  -- the departure of transfer 6
  iapply (wp_wait_send m ρ K c 6 (by decide) (fun Kt => wpE_waitDma2_eq 𝒱₀ (c : Thread nD τ) none Set.univ (src := rowM 6) (dst := rowM 0) Kt) _) $$ [HcS6 HO HatS6]
  · isplitr; · iexact HR
    isplitl [HcS6]; · iexact HcS6
    isplitl [HO]; · iexact HO
    iexact HatS6
  iintro ⟨HO, HatS6, Hs6⟩
  sl_next
  -- the departure of transfer 7
  iapply (wp_wait_send m ρ K c 7 (by decide) (fun Kt => wpE_waitDma2_eq 𝒱₀ (c : Thread nD τ) none Set.univ (src := rowM 7) (dst := rowM 0) Kt) _) $$ [HcS7 HO HatS7]
  · isplitr; · iexact HR
    isplitl [HcS7]; · iexact HcS7
    isplitl [HO]; · iexact HO
    iexact HatS7
  iintro ⟨HO, HatS7, Hs7⟩
  -- the buffer put together again: row 0's shares, then each row's halves, then the rows
  ihave Hrows := (comm_rows c keptShare (commFinal m ρ c)).1 $$ Hall
  ihave Hrows := (Entails.of_eq (bigSep_fin8 _)) $$ Hrows
  icases Hrows with ⟨Hl0, Hl1, Hl2, Hl3, Hl4, Hl5, Hl6, Hl7⟩
  ihave Hrr0 := (Entails.of_eq (bigSep_ne0 (fun d : Fin 8 => rowPts c 0 (sendShare d) (commFinal m ρ c))).symm) $$ [Hs1 Hs2 Hs3 Hs4 Hs5 Hs6 Hs7]
  ·
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  ihave Hrr0 := (row0_shares c (commFinal m ρ c)).2 $$ Hrr0
  ihave Hr0 := (rowPts_halves c 0 fullShare (commFinal m ρ c)).2 $$ [Hl0 Hrr0]
  · isplitl [Hl0]; · iexact Hl0
    iexact Hrr0
  ihave Hr1 := (rowPts_halves c 1 fullShare (commFinal m ρ c)).2 $$ [Hl1 Hrr1]
  · isplitl [Hl1]; · iexact Hl1
    iexact Hrr1
  ihave Hr2 := (rowPts_halves c 2 fullShare (commFinal m ρ c)).2 $$ [Hl2 Hrr2]
  · isplitl [Hl2]; · iexact Hl2
    iexact Hrr2
  ihave Hr3 := (rowPts_halves c 3 fullShare (commFinal m ρ c)).2 $$ [Hl3 Hrr3]
  · isplitl [Hl3]; · iexact Hl3
    iexact Hrr3
  ihave Hr4 := (rowPts_halves c 4 fullShare (commFinal m ρ c)).2 $$ [Hl4 Hrr4]
  · isplitl [Hl4]; · iexact Hl4
    iexact Hrr4
  ihave Hr5 := (rowPts_halves c 5 fullShare (commFinal m ρ c)).2 $$ [Hl5 Hrr5]
  · isplitl [Hl5]; · iexact Hl5
    iexact Hrr5
  ihave Hr6 := (rowPts_halves c 6 fullShare (commFinal m ρ c)).2 $$ [Hl6 Hrr6]
  · isplitl [Hl6]; · iexact Hl6
    iexact Hrr6
  ihave Hr7 := (rowPts_halves c 7 fullShare (commFinal m ρ c)).2 $$ [Hl7 Hrr7]
  · isplitl [Hl7]; · iexact Hl7
    iexact Hrr7
  ihave Hcomm := (Entails.of_eq (bigSep_fin8 (fun d : Fin 8 => rowPts c d fullShare (commFinal m ρ c))).symm) $$ [Hr0 Hr1 Hr2 Hr3 Hr4 Hr5 Hr6 Hr7]
  ·
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hcomm := (comm_rows c fullShare (commFinal m ρ c)).2 $$ Hcomm
  -- the sixteen own cells close: their counters at zero are the core's again
  imod (close_send m ρ K c 0) $$ [HatS0] with HzS0
  · isplitr; · iexact HR
    iexact HatS0
  imod (close_recv m ρ K c 0) $$ [HatV0] with HzV0
  · isplitr; · iexact HR
    iexact HatV0
  imod (close_send m ρ K c 1) $$ [HatS1] with HzS1
  · isplitr; · iexact HR
    iexact HatS1
  imod (close_recv m ρ K c 1) $$ [HatV1] with HzV1
  · isplitr; · iexact HR
    iexact HatV1
  imod (close_send m ρ K c 2) $$ [HatS2] with HzS2
  · isplitr; · iexact HR
    iexact HatS2
  imod (close_recv m ρ K c 2) $$ [HatV2] with HzV2
  · isplitr; · iexact HR
    iexact HatV2
  imod (close_send m ρ K c 3) $$ [HatS3] with HzS3
  · isplitr; · iexact HR
    iexact HatS3
  imod (close_recv m ρ K c 3) $$ [HatV3] with HzV3
  · isplitr; · iexact HR
    iexact HatV3
  imod (close_send m ρ K c 4) $$ [HatS4] with HzS4
  · isplitr; · iexact HR
    iexact HatS4
  imod (close_recv m ρ K c 4) $$ [HatV4] with HzV4
  · isplitr; · iexact HR
    iexact HatV4
  imod (close_send m ρ K c 5) $$ [HatS5] with HzS5
  · isplitr; · iexact HR
    iexact HatS5
  imod (close_recv m ρ K c 5) $$ [HatV5] with HzV5
  · isplitr; · iexact HR
    iexact HatV5
  imod (close_send m ρ K c 6) $$ [HatS6] with HzS6
  · isplitr; · iexact HR
    iexact HatS6
  imod (close_recv m ρ K c 6) $$ [HatV6] with HzV6
  · isplitr; · iexact HR
    iexact HatV6
  imod (close_send m ρ K c 7) $$ [HatS7] with HzS7
  · isplitr; · iexact HR
    iexact HatS7
  imod (close_recv m ρ K c 7) $$ [HatV7] with HzV7
  · isplitr; · iexact HR
    iexact HatV7
  sl_step
  iapply Hk
  unfold bodyPost Φ₁ commAny Dat.owesAt Pipeline.owesWithin
  rw [show (dats m ρ 0 c).owed t₀.succ = 0 from rfl]
  isplitl [Hcomm HzS0 HzS1 HzS2 HzS3 HzS4 HzS5 HzS6 HzS7 HzV0 HzV1 HzV2 HzV3 HzV4 HzV5 HzV6 HzV7]
  · isplitl [Hcomm]; · iexists _; iexact Hcomm
    isplitl [HzS0 HzS1 HzS2 HzS3 HzS4 HzS5 HzS6 HzS7]
    · iapply (Entails.of_eq (bigSep_fin8 (fun d : Fin 8 => (semVal (sendCell c d) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    · iapply (Entails.of_eq (bigSep_fin8 (fun d : Fin 8 => (semVal (recvCell c d) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      iexact HzV7
  isplitl [HO]
  · iexists (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (recvS 7), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Hand

end
-- ==== Proof.Kernel.Fund.lean ====
/-
  The ghost state of the rounds at launch: every device's seventeen cells opened at round 0 and every duty's token minted,
  the cells' invariants allocated for all devices at once, and the tokens dealt to the devices that pay with them.
-/
import proofs.«901081_g7700000000001082_dist_sum_ax0_shard0_i_m1536_n768_v7x_i8_bf16_1_alg».proof.Proof.Kernel.Proto
import proofs.«901081_g7700000000001082_dist_sum_ax0_shard0_i_m1536_n768_v7x_i8_bf16_1_alg».proof.Proof.Kernel.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens are listed without repetition -/

/-- A semaphore's number among a device's cells: the barrier 0, a DMA semaphore its index plus one. -/
private def semKey : SemLoc sig → ℕ
  | .reg _ => 0
  | .dma q => q.val + 1

private theorem csem_key (k : Fin 17) : semKey (csem k) = if k.val = 0 then 0 else k.val + 2 := by revert k; decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 := congrArg semKey h2
  rw [csem_key, csem_key] at h3
  have hk := k.isLt
  have hk' := k'.isLt
  have : k = k' := Fin.ext (by split_ifs at h3 <;> omega)
  subst this; rfl
def ringCells : Finset (GSem nD τ sig) := Finset.univ.map ⟨kcell, kcell_injective⟩

/-- A device's own cells' duty tokens as minted: its barrier's duties 1..7, then its seven send cells' and its seven receive cells' duty 0. -/
def tokOf (cj : Dev nD × Fin 21) : GSem nD τ sig × ℕ × Fin 8 :=
  if cj.2.val < 7 then (barCell cj.1, 0, fd (cj.2.val + 1))
  else if cj.2.val < 14 then (sendCell cj.1 (fd (cj.2.val - 6)), 0, 0)
  else (recvCell cj.1 (fd (cj.2.val - 13)), 0, 0)

/-- The cell's number and the duty's name tell the twenty-one tokens of a device apart. -/
private theorem tokOf_key (c : Dev nD) (j : Fin 21) :
    semKey (tokOf (c, j)).1.2 + 32 * (tokOf (c, j)).2.2.val
      = if j.val < 7 then 32 * (j.val + 1) else if j.val < 14 then j.val - 3 else j.val - 2 := by revert c j; decide
private theorem tokOf_dev (c : Dev nD) (j : Fin 21) : (tokOf (c, j)).1.1.1 = c := by
  unfold tokOf; split_ifs <;> rfl

theorem tokOf_injective : Function.Injective (tokOf : Dev nD × Fin 21 → GSem nD τ sig × ℕ × Fin 8) := by
  rintro ⟨c, j⟩ ⟨c', j'⟩ h
  have h1 : (tokOf (c, j)).1.1.1 = (tokOf (c', j')).1.1.1 := congrArg (fun x : GSem nD τ sig × ℕ × Fin 8 => x.1.1.1) h
  rw [tokOf_dev, tokOf_dev] at h1
  subst h1
  have h2 : semKey (tokOf (c, j)).1.2 + 32 * (tokOf (c, j)).2.2.val = semKey (tokOf (c, j')).1.2 + 32 * (tokOf (c, j')).2.2.val :=
    congrArg (fun x : GSem nD τ sig × ℕ × Fin 8 => semKey x.1.2 + 32 * x.2.2.val) h
  rw [tokOf_key, tokOf_key] at h2
  have hj := j.isLt
  have hj' := j'.isLt
  have : j = j' := Fin.ext (by split_ifs at h2 <;> omega)
  subst this; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun e : Fin 8 => dutyTok ER (barCell c) 0 e)
    ∗ (bigSep (Finset.univ.erase 0) fun d : Fin 8 => dutyTok ER (sendCell c d) 0 0)
    ∗ bigSep (Finset.univ.erase 0) fun d : Fin 8 => dutyTok ER (recvCell c d) 0 0)

/-- What the launch element deals device `c`. -/
def G (c : Dev nD) : sProp 𝕄 :=
  iprop((bigSep Finset.univ fun k : Fin 17 => roundState ER (Rd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

/-! ## Sums over the index types, as chains -/

/-- The chain over two lists joined is the two chains. -/
private theorem chain_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    exact equiv_iff.mp ⟨Idealize.SL.BI.sep_assoc', Idealize.SL.BI.sep_assoc⟩

private theorem univ8_chain (Φ : Fin 8 → sProp 𝕄) : bigSep Finset.univ Φ = bigSepL [0, 1, 2, 3, 4, 5, 6, 7] Φ :=
  bigSep_univ_eq_bigSepL _ (by decide) (by decide) Φ
private theorem erase0_chain (Φ : Fin 8 → sProp 𝕄) : bigSep (Finset.univ.erase 0) Φ = bigSepL [1, 2, 3, 4, 5, 6, 7] Φ :=
  bigSep_eq_bigSepL_of_eq _ (by decide) (by decide) Φ
private theorem univ17_chain (Φ : Fin 17 → sProp 𝕄) :
    bigSep Finset.univ Φ = bigSepL [0, 1, 2, 3, 4, 5, 6, 7, 8, 9, 10, 11, 12, 13, 14, 15, 16] Φ :=
  bigSep_univ_eq_bigSepL _ (by decide) (by decide) Φ
private theorem univ21_chain (Φ : Fin 21 → sProp 𝕄) :
    bigSep Finset.univ Φ = bigSepL [0, 1, 2, 3, 4, 5, 6, 7, 8, 9, 10, 11, 12, 13, 14, 15, 16, 17, 18, 19, 20] Φ :=
  bigSep_univ_eq_bigSepL _ (by decide) (by decide) Φ

/-- A sum over a device's seventeen cells is the barrier's summand, the eight send cells' and the eight receive cells'. -/
private theorem cells_split (c : Dev nD) (Φ : GSem nD τ sig → sProp 𝕄) :
    (bigSep Finset.univ fun k : Fin 17 => Φ (kcell (c, k)))
      = iprop(Φ (barCell c) ∗ (bigSep Finset.univ fun d : Fin 8 => Φ (sendCell c d)) ∗ bigSep Finset.univ fun d : Fin 8 => Φ (recvCell c d)) := by
  rw [univ17_chain (F := F), univ8_chain (F := F), univ8_chain (F := F)]
  show (bigSepL (([0] : List (Fin 17)) ++ ([1, 2, 3, 4, 5, 6, 7, 8] ++ [9, 10, 11, 12, 13, 14, 15, 16])) _ : sProp 𝕄) = _
  rw [chain_append (F := F), chain_append (F := F)]
  rfl

/-- The twenty-one tokens minted for a device are its own cells' tokens. -/
private theorem toks_chain (c : Dev nD) :
    (bigSep Finset.univ fun j : Fin 21 => (dutyTok ER (tokOf (c, j)).1 (tokOf (c, j)).2.1 (tokOf (c, j)).2.2 : sProp 𝕄)) = toks c := by
  unfold toks
  rw [univ21_chain (F := F), erase0_chain (F := F), erase0_chain (F := F), erase0_chain (F := F)]
  show (bigSepL (([0, 1, 2, 3, 4, 5, 6] : List (Fin 21)) ++ ([7, 8, 9, 10, 11, 12, 13] ++ [14, 15, 16, 17, 18, 19, 20])) _ : sProp 𝕄) = _
  rw [chain_append (F := F), chain_append (F := F)]
  rfl

/-! ## The launch element -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_chain c
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSemFacts : Pipeline.OwnSemFacts cfg0.spec osem := by decide

/-- The sixteen DMA semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ bigSep Finset.univ fun d : Fin 8 => semVal (recvCell c d) 0) := by
  rw [Pipeline.ownSems0_eq_of_list c osem [0, 1, 2, 3, 4, 5, 6, 7, 8, 9, 10, 11, 12, 13, 14, 15] (by decide) (by decide), univ8_chain (F := F), univ8_chain (F := F)]
  show (bigSepL (([0, 1, 2, 3, 4, 5, 6, 7] : List (Fin 16)) ++ [8, 9, 10, 11, 12, 13, 14, 15]) _ : sProp 𝕄) = _
  rw [chain_append (F := F)]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's seventeen counters at zero. -/
private theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, cells_split c (fun g => (semVal g 0 : sProp 𝕄))]
  iintro ⟨⟨HS, HV⟩, HB⟩
  isplitl [HB]; · iexact HB
  isplitl [HS] <;> iassumption

/-! ## The global step -/

/-- Every cell of a device gets its invariant, at some name. -/
private theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_all (F := F) c) $$ [Hos Hus]
  · isplitl [Hos] <;> iassumption
  imod (show iprop((bigSep Finset.univ fun k : Fin 17 => semVal (kcell (c, k)) 0) ∗ bigSep Finset.univ fun k : Fin 17 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A sum over the pairs (device, offset other than 0) may be summed along a bijection of the pairs that keeps the offsets other than 0. -/
private theorem deal_along (f : Dev nD → Fin 8 → Dev nD) (g : Fin 8 → Fin 8) (e : Dev nD × Fin 8 ≃ Dev nD × Fin 8)
    (he : ∀ c d, e (c, d) = (f c d, g d)) (hg : ∀ d, g d ≠ 0 ↔ d ≠ 0) (Φ : Dev nD → Fin 8 → sProp 𝕄) :
    (bigSep Finset.univ fun c : Dev nD => bigSep (Finset.univ.erase 0) fun d : Fin 8 => Φ c d)
      = bigSep Finset.univ fun c : Dev nD => bigSep (Finset.univ.erase 0) fun d : Fin 8 => Φ (f c d) (g d) := by
  have h (Ψ : Fin 8 → sProp 𝕄) : bigSep (Finset.univ.erase 0) Ψ = bigSep Finset.univ fun d : Fin 8 => if d ≠ 0 then Ψ d else BI.emp := by
    rw [← Finset.filter_ne' Finset.univ (0 : Fin 8), bigSep_filter]
  calc (bigSep Finset.univ fun c : Dev nD => bigSep (Finset.univ.erase 0) fun d : Fin 8 => Φ c d)
      = bigSep Finset.univ fun c : Dev nD => bigSep Finset.univ fun d : Fin 8 => if d ≠ 0 then Φ c d else BI.emp := bigSep_congr fun c _ => h _
    _ = bigSep Finset.univ fun p : Dev nD × Fin 8 => if p.2 ≠ 0 then Φ p.1 p.2 else BI.emp :=
        (bigSep_univ_prod (fun p : Dev nD × Fin 8 => if p.2 ≠ 0 then Φ p.1 p.2 else BI.emp)).symm
    _ = bigSep Finset.univ fun p : Dev nD × Fin 8 => if (e p).2 ≠ 0 then Φ (e p).1 (e p).2 else BI.emp :=
        bigSep_univ_equiv e (fun p : Dev nD × Fin 8 => if p.2 ≠ 0 then Φ p.1 p.2 else BI.emp)
    _ = bigSep Finset.univ fun p : Dev nD × Fin 8 => if p.2 ≠ 0 then Φ (f p.1 p.2) (g p.2) else BI.emp :=
        bigSep_congr fun p _ => by
          obtain ⟨c, d⟩ := p
          rw [he c d]
          exact if_congr (hg d) rfl rfl
    _ = bigSep Finset.univ fun c : Dev nD => bigSep Finset.univ fun d : Fin 8 => if d ≠ 0 then Φ (f c d) (g d) else BI.emp :=
        bigSep_univ_prod (fun p : Dev nD × Fin 8 => if p.2 ≠ 0 then Φ (f p.1 p.2) (g p.2) else BI.emp)
    _ = bigSep Finset.univ fun c : Dev nD => bigSep (Finset.univ.erase 0) fun d : Fin 8 => Φ (f c d) (g d) :=
        bigSep_congr fun c _ => (h _).symm

/-- Offset `d` from `c` and back by the opposite offset: an involution of the pairs. -/
private def barDeal : Dev nD × Fin 8 ≃ Dev nD × Fin 8 where
  toFun p := (peer p.1 p.2, opp p.2)
  invFun p := (peer p.1 p.2, opp p.2)
  left_inv p := Prod.ext (peer_peer_opp p.1 p.2) (opp_opp p.2)
  right_inv p := Prod.ext (peer_peer_opp p.1 p.2) (opp_opp p.2)
/-- Offset `d` from `c`, the offset kept: undone by going `d` places back. -/
private def recvDeal : Dev nD × Fin 8 ≃ Dev nD × Fin 8 where
  toFun p := (peer p.1 p.2, p.2)
  invFun p := (src p.1 p.2, p.2)
  left_inv p := Prod.ext (src_peer p.1 p.2) rfl
  right_inv p := Prod.ext (peer_src p.1 p.2) rfl

private theorem opp_ne_zero_iff (d : Fin 8) : opp d ≠ 0 ↔ d ≠ 0 := by revert d; decide

/-- The tokens dealt to the devices that pay with them: duty `e` of `g`'s barrier cell to `peer g e`, whose signal `opp e` pays it; the duty of
    `g`'s receive cell of row `d` to the device `d` places before `g`; the send cells' duties stay. -/
private theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_along (fun c d => peer c d) opp barDeal (fun _ _ => rfl) opp_ne_zero_iff (fun (c : Dev nD) (e : Fin 8) => (dutyTok ER (barCell c) 0 e : sProp 𝕄)),
    deal_along (fun c d => peer c d) (fun d => d) recvDeal (fun _ _ => rfl) (fun _ => Iff.rfl) (fun (c : Dev nD) (d : Fin 8) => (dutyTok ER (recvCell c d) 0 0 : sProp 𝕄))]
  iintro ⟨H1, H2, H3⟩
  isplitl [H1]; · iexact H1
  isplitl [H3]; · iexact H3
  iexact H2

private theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem ghost_of_records (K : Dev nD × Fin 17 → ℕ) (c : Dev nD) : iprop(records m ρ K ∗ positions c ∗ payToks c) ⊢ G' m ρ c := by
  unfold G' ghost
  iintro H
  iexists K
  iexact H

/-- All devices' invariants, positions and tokens, regrouped: the names chosen, the records shared, the tokens dealt. -/
private theorem regroup_all :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (Rd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m ρ) κ (kcell ck) : sProp 𝕄))) $$ HI
  icases HK with ⟨%K, #HI⟩
  ihave Htk := (toks_around (F := F)) $$ Htok
  haveI : BI.Persistent (records m ρ K) := by unfold records; infer_instance
  iapply (with_persistent (R := records m ρ K) fun c _ => ghost_of_records m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ iprop(positions c ∗ payToks c) from Entails.of_eq (by unfold positions; rw [cells_split c (fun g => (atPos ER g 0 ∅ 0 : sProp 𝕄))])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup_all m ρ))

end Cert.Kernel.Hand

end
-- ==== Proof.Kernel.Launch.lean ====
/-
  The launch: from every device's body to the run of the whole program on the eight devices, and what each device's arrays
  hold at the end: the block of x unchanged, the result the eight rows added.
-/
import proofs.«901081_g7700000000001082_dist_sum_ax0_shard0_i_m1536_n768_v7x_i8_bf16_1_alg».proof.Proof.Kernel.Proto
import proofs.«901081_g7700000000001082_dist_sum_ax0_shard0_i_m1536_n768_v7x_i8_bf16_1_alg».proof.Proof.Kernel.Body
import proofs.«901081_g7700000000001082_dist_sum_ax0_shard0_i_m1536_n768_v7x_i8_bf16_1_alg».proof.Proof.Kernel.Fund
import proofs.«901081_g7700000000001082_dist_sum_ax0_shard0_i_m1536_n768_v7x_i8_bf16_1_alg».proof.Proof.Kernel.Credit

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A whole buffer owned at given contents is the buffer held at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The two windows conjoined one by one. -/
theorem bigSep_W (Φ : Fin cfg0.W → sProp 𝕄) : bigSep Finset.univ Φ = iprop(Φ (0 : Fin 2) ∗ Φ (1 : Fin 2)) := bigSep_W0 Φ

/-- The body obligation's precondition at the one point: what the body starts from with the communication buffer, what is
    owed, and the two staging buffers. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := by
  intro t
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ commAny
  iintro ⟨Hr, HzS, HzV⟩
  isplitr; · iempintro
  isplitl [HzS HzV]
  · isplitl [HzS] <;> iassumption
  iexact Hr

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, from any memory with zero counters: every weakly fair execution of @main terminates,
    and every final state has each device's windowed arrays at the computed contents. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of `x` after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run holds the eight rows added. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀, if_pos (flush0_1 _)]
  have hrd : ∀ f : (main_v1 : Ref sig .tc).ty.Contents (Elt F), ((cfg0.win (1 : Fin 2)).blk t₀).view.read (Elt F) f = f := fun f =>
    Memref.read_access_unit_zero (Elt F) main_v1 (funext fun a => Nat.zero_mul _) _ f
  exact (hrd _).symm.trans (View.read_write_univ _ _)

end Cert.Kernel.Hand

end
-- ==== Proof.Value.lean ====
/-
  The value of the eight-device sum at the extended reals: each device's result, the eight rows of its communication buffer added,
  is the column sums of the whole array, which is what the one-device reference computes.

  Row r of device c's communication buffer ends holding the column sums of the block of the device r places before c, and a
  block's row i is row 1536·c' + i of the whole array. As r runs over the eight offsets the device r places before c runs over
  all eight devices, so the eight rows add, column by column, to the sum over all 12288 rows: the reference's reduction from zero.
-/
import proofs.«901081_g7700000000001082_dist_sum_ax0_shard0_i_m1536_n768_v7x_i8_bf16_1_alg».proof.Defs
import proofs.«901081_g7700000000001082_dist_sum_ax0_shard0_i_m1536_n768_v7x_i8_bf16_1_alg».proof.Proof.KernelIdeal.Proto
import proofs.«901081_g7700000000001082_dist_sum_ax0_shard0_i_m1536_n768_v7x_i8_bf16_1_alg».proof.Proof.Gen.ReferenceIdeal.Run
import proofs.«901081_g7700000000001082_dist_sum_ax0_shard0_i_m1536_n768_v7x_i8_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.Proof.SumValue

open Idealize.ShloMosaic Idealize.ShloMosaic.TcCoe Idealize.SL.Sem
open Cert.KernelIdeal Cert.KernelIdeal.Hand Cert.KernelIdeal.Gen
open Idealize.ShloMosaic.ValueIdx

/-! ## The two payloads at a column -/

/-- The column sums of a block: at column `q`, the sum of that column over the block's 1536 rows. -/
theorem pay1_apply (v : S1536x768.Idx → EReal) (q : Fin 768) :
    (k0_pay1 (F := Ideal) v (ix2 (0 : Fin 1) q) : EReal) = ∑ i : Fin 1536, v (ix2 i q) := by
  unfold k0_pay1
  dsimp only
  rw [shapeCast_self]
  refine (shapeCast_addUnit_apply ![768] _ _ _).trans ?_
  refine (Ideal.multiReduction_add_single _ _ _ _ _ _).trans ?_
  refine Finset.sum_congr rfl fun i _ => ?_
  rw [shapeCast_self]
  exact congrArg v (funext fun a => match a with | ⟨0, _⟩ => rfl | ⟨1, _⟩ => rfl)

/-- The eight rows added: at column `q`, the sum of that column over the eight rows. -/
theorem pay2_apply (v : S8x768.Idx → EReal) (q : Fin 768) :
    (k0_pay2 (F := Ideal) v (ix2 (0 : Fin 1) q) : EReal) = ∑ r : Fin 8, v (ix2 r q) := by
  unfold k0_pay2
  dsimp only
  refine (shapeCast_addUnit_apply ![768] _ _ _).trans ?_
  refine (Ideal.multiReduction_add_single _ _ _ _ _ _).trans ?_
  refine Finset.sum_congr rfl fun r _ => ?_
  exact congrArg v (funext fun a => match a with | ⟨0, _⟩ => rfl | ⟨1, _⟩ => rfl)

/-! ## A device's block of x is its part of the whole array -/

/-- The whole-window read of a device's argument buffer is that buffer. -/
theorem xstg_eq (m : (ℓ : Loc nD τ sig) → Buf (Elt Ideal) ℓ) (ρ : Dev nD → PrngReg) (c : Dev nD) :
    xstg (F := Ideal) m ρ c = m ((c : Thread nD τ).loc main_arg0) := by
  have hz : (fun a => (win0_0.index (0 : Fin 1)) a * main_arg0.ty.shape.size a) = fun _ => 0 :=
    funext fun a => Nat.zero_mul _
  exact Memref.read_access_unit_zero (Elt Ideal) main_arg0 hz _ _

/-! ## The eight offsets reach the eight devices; eight blocks of 1536 rows are the 12288 rows -/

/-- As `r` runs over the eight offsets, the device `r` places before `c` runs over all eight devices. -/
theorem src_bijective (c : Dev nD) : Function.Bijective (fun r : Fin 8 => src c (fd r.val)) := by
  revert c; decide

/-- A row of the whole array is a block and a row within it. -/
def rowEquiv : Fin 8 × Fin 1536 ≃ Fin 12288 := (finProdFinEquiv : Fin 8 × Fin 1536 ≃ Fin (8 * 1536))

theorem rowEquiv_val (a : Fin 8) (b : Fin 1536) : (rowEquiv (a, b)).val = b.val + 1536 * a.val := rfl

/-- Summing a function of (device, row of its block) over the offsets and the rows is summing over all rows of the whole array. -/
theorem sum_blocks (c : Dev nD) (g : Fin 8 → Fin 1536 → EReal) (G : Fin 12288 → EReal)
    (hG : ∀ a b, G (rowEquiv (a, b)) = g a b) :
    ∑ r : Fin 8, ∑ i : Fin 1536, g (src c (fd r.val)) i = ∑ k : Fin 12288, G k := by
  rw [(src_bijective c).sum_comp (fun c' : Fin 8 => ∑ i : Fin 1536, g c' i), ← Equiv.sum_comp rowEquiv G, Fintype.sum_prod_type]
  exact Finset.sum_congr rfl fun a _ => Finset.sum_congr rfl fun b _ => (hG a b).symm

/-! ## A row of the communication buffer, and the result -/

/-- Row `r` of device `c`'s communication buffer at column `q`: the sum of that column over the block `v` of the device `r` places before `c`. -/
theorem commFinal_apply (m : (ℓ : Loc nD τ sig) → Buf (Elt Ideal) ℓ) (ρ : Dev nD → PrngReg) (c : Dev nD) (r : Fin 8) (q : Fin 768)
    (v : S1536x768.Idx → EReal) (hv : xstg (F := Ideal) m ρ (src c (fd r.val)) = v) :
    (commFinal (F := Ideal) m ρ c (ix2 r q) : EReal) = ∑ i : Fin 1536, v (ix2 i q) := by
  have hq : (⟨q.val % 768, Nat.mod_lt _ (by decide)⟩ : Fin 768) = q := Fin.ext (Nat.mod_eq_of_lt q.isLt)
  show (k0_pay1 (F := Ideal) (xstg m ρ (src c (fd r.val))) (ix2 (0 : Fin 1) (⟨q.val % 768, Nat.mod_lt _ (by decide)⟩ : Fin 768)) : EReal) = _
  rw [hq, hv]
  exact pay1_apply v q

/-- Each device's result is the reference's: the column sums of the whole array. -/
theorem out_eq_ref (m : (ℓ : Loc Cert.KernelIdeal.nD Cert.KernelIdeal.τ Cert.KernelIdeal.sig) → Buf (Elt Ideal) ℓ)
    (ρ : Dev Cert.KernelIdeal.nD → PrngReg)
    (X : (⟨Cert.ReferenceIdeal.S12288x768, .f32⟩ : BufTy).Contents (Elt Ideal))
    (hblk : ∀ c : Dev Cert.KernelIdeal.nD,
      m ((c.tc : Thread Cert.KernelIdeal.nD Cert.KernelIdeal.τ).loc Cert.KernelIdeal.main_arg0)
        = Layout.block ⟨2, ![1536, 768]⟩ ⟨2, ![12288, 768]⟩ 0 8 c X)
    (c : Dev Cert.KernelIdeal.nD) :
    Cert.KernelIdeal.Hand.outAt (F := Ideal) m ρ c = Cert.ReferenceIdeal.Read.val_main_v1 (F := Ideal) X := by
  have hT : Layout.Tiles ⟨2, ![1536, 768]⟩ ⟨2, ![12288, 768]⟩ 0 8 := by decide
  funext j
  obtain ⟨p, q, rfl⟩ : ∃ (p : Fin 1) (q : Fin 768), j = ix2 p q := ⟨j 0, j 1, eq_ix2 j⟩
  obtain rfl : p = 0 := Subsingleton.elim _ _
  rw [Cert.ReferenceIdeal.Read.val_main_v1_apply, Cert.ReferenceIdeal.Read.val_main_v0_apply,
    Cert.ReferenceIdeal.Read.val_main_cst_apply]
  show (k0_pay2 (F := Ideal) (commFinal m ρ c) (ix2 (0 : Fin 1) q) : EReal) = Ideal.ofBits .f32 0x00000000#32 + _
  rw [Ideal.ofBits_zero_f32, zero_add, pay2_apply]
  have hrow : ∀ r : Fin 8, @Eq EReal (commFinal (F := Ideal) m ρ c (ix2 r q))
      (∑ i : Fin 1536, X (hT.idx (src c (fd r.val)) (ix2 i q))) := fun r =>
    commFinal_apply m ρ c r q (fun i => X (hT.idx (src c (fd r.val)) i)) (by rw [xstg_eq, hblk]; rfl)
  refine Eq.trans (Finset.sum_congr rfl fun r _ => hrow r) ?_
  refine sum_blocks c (fun a b => (X (hT.idx a (ix2 b q)) : EReal)) _ fun a b => ?_
  refine congrArg X (funext fun d => Fin.ext ?_)
  match d with
  | ⟨0, _⟩ => show b.val + 1536 * a.val = a.val * 1536 + b.val; omega
  | ⟨1, _⟩ => rfl

/-- info: 'Cert.Proof.SumValue.out_eq_ref' depends on axioms: [propext, Classical.choice, Quot.sound] -/
#guard_msgs in #print axioms out_eq_ref

end Cert.Proof.SumValue

end
-- ==== Proof.lean ====
/-
  The certificate of the eight-device sum: `Cert.Claim`, the conjunction of the three frames, the idealization's ledger (empty)
  and the agreement of the eight-device kernel with the one-device reference at the extended reals.

  Each device signals its seven peers and waits for their word, writes the column sums of its own block of x into row 0 of its
  communication buffer, copies that row into row d of the device d places after it (d = 1..7), waits for the seven rows it
  receives, and adds the eight rows. The run of the program on the eight devices ends with every device's block of x as it was
  and its result the eight rows added; row r holds the column sums of the block of the device r places before, so the eight rows
  add to the column sums of the whole array, which is what the reference computes on one device. The frames are that run (of
  the word-level program and of its reading at the extended reals) and the reference's run with the values dropped.
-/
import proofs.«901081_g7700000000001082_dist_sum_ax0_shard0_i_m1536_n768_v7x_i8_bf16_1_alg».proof.Defs
import proofs.«901081_g7700000000001082_dist_sum_ax0_shard0_i_m1536_n768_v7x_i8_bf16_1_alg».proof.Proof.Gen.Kernel
import proofs.«901081_g7700000000001082_dist_sum_ax0_shard0_i_m1536_n768_v7x_i8_bf16_1_alg».proof.Proof.Gen.Kernel.Skeleton
import proofs.«901081_g7700000000001082_dist_sum_ax0_shard0_i_m1536_n768_v7x_i8_bf16_1_alg».proof.Proof.Gen.Kernel.Launch
import proofs.«901081_g7700000000001082_dist_sum_ax0_shard0_i_m1536_n768_v7x_i8_bf16_1_alg».proof.Proof.Gen.Kernel.Points
import proofs.«901081_g7700000000001082_dist_sum_ax0_shard0_i_m1536_n768_v7x_i8_bf16_1_alg».proof.Proof.Gen.Kernel.Frame
import proofs.«901081_g7700000000001082_dist_sum_ax0_shard0_i_m1536_n768_v7x_i8_bf16_1_alg».proof.Proof.Gen.KernelIdeal
import proofs.«901081_g7700000000001082_dist_sum_ax0_shard0_i_m1536_n768_v7x_i8_bf16_1_alg».proof.Proof.Gen.KernelIdeal.Skeleton
import proofs.«901081_g7700000000001082_dist_sum_ax0_shard0_i_m1536_n768_v7x_i8_bf16_1_alg».proof.Proof.Gen.KernelIdeal.Launch
import proofs.«901081_g7700000000001082_dist_sum_ax0_shard0_i_m1536_n768_v7x_i8_bf16_1_alg».proof.Proof.Gen.KernelIdeal.Points
import proofs.«901081_g7700000000001082_dist_sum_ax0_shard0_i_m1536_n768_v7x_i8_bf16_1_alg».proof.Proof.Gen.KernelIdeal.Frame
import proofs.«901081_g7700000000001082_dist_sum_ax0_shard0_i_m1536_n768_v7x_i8_bf16_1_alg».proof.Proof.Gen.ReferenceIdeal
import proofs.«901081_g7700000000001082_dist_sum_ax0_shard0_i_m1536_n768_v7x_i8_bf16_1_alg».proof.Proof.Gen.Pre_finite_inputs_Kernel
import proofs.«901081_g7700000000001082_dist_sum_ax0_shard0_i_m1536_n768_v7x_i8_bf16_1_alg».proof.Proof.Gen.Pre_finite_inputs_ReferenceIdeal
import proofs.«901081_g7700000000001082_dist_sum_ax0_shard0_i_m1536_n768_v7x_i8_bf16_1_alg».proof.Proof.KernelIdeal.Launch
import proofs.«901081_g7700000000001082_dist_sum_ax0_shard0_i_m1536_n768_v7x_i8_bf16_1_alg».proof.Proof.Kernel.Launch
import proofs.«901081_g7700000000001082_dist_sum_ax0_shard0_i_m1536_n768_v7x_i8_bf16_1_alg».proof.Proof.Value
import Idealize.ShloMosaic.Adequacy
import Idealize.ShloMosaic.Init

noncomputable section

namespace Cert.Proof

open Idealize.ShloMosaic Idealize.SL.Sem Idealize.ShloMosaic.TcCoe

/-- The word-level program on the eight devices runs, and each device's block of x ends as it was. -/
theorem frame_k : Cert.frame_Kernel := fun m g _ =>
  (θ_run Cert.Kernel.defs _ _).mono
    (fun _ h c => (h c (0 : Fin 2)).trans (Cert.Kernel.Hand.finalA_x m g c))
    (Cert.Kernel.Hand.run_main (F := Bits) m g)

/-- The program read at the extended reals runs, and each device's block of x ends as it was. -/
theorem frame_ki : Cert.frame_KernelIdeal := fun m g _ =>
  (θ_run Cert.KernelIdeal.defs _ _).mono
    (fun _ h c => (h c (0 : Fin 2)).trans (Cert.KernelIdeal.Hand.finalA_x m g c))
    (Cert.KernelIdeal.Hand.run_main (F := Ideal) m g)

/-- The reference runs on its one device, and the whole array ends as it was. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote nothing. -/
theorem preserves : Cert.preserves_Kernel_KernelIdeal := trivial

/-- When each device's block of x is its part of the reference's whole array, both programs run, every device's result is the
    column sums of the whole array, which is the reference's result, and the arguments of both end as they were. -/
theorem algebraic : Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨((h c (1 : Fin 2)).trans (Cert.KernelIdeal.Hand.finalA_out m g c)).trans (Cert.Proof.SumValue.out_eq_ref m g _ hblk c),
        (h c (0 : Fin 2)).trans (Cert.KernelIdeal.Hand.finalA_x m g c)⟩)
      (Cert.KernelIdeal.Hand.run_main (F := Ideal) m g)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
